-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_v33 : IVec S_ 1) : IVec S_ 1 :=
  let main_c_12 : IVec S_ 32 := constantI S_ 32 0#32
  let main_v34 : IVec S1600000 32 := broadcastInDim S1600000 ![] bcast_S_S1600000 main_c_12
  let main_v35 : IVec S1600000 1 := cmpi .sge main_arg1 main_v34
  let main_c_13 : IVec S_ 32 := constantI S_ 32 100000#32
  let main_v36 : IVec S1600000 32 := broadcastInDim S1600000 ![] bcast_S_S1600000 main_c_13
  let main_v37 : IVec S1600000 1 := cmpi .slt main_arg1 main_v36
  let main_v38 : IVec S1600000 1 := andi main_v35 main_v37
  let main_c_14 : IVec S_ 1 := constantI S_ 1 1#1
  let main_v39 : IVec S_ 1 := (fun x v => Host.reduce IntOp.andi x v reducesTo_S1600000_S_d0 h_S_) main_v38 main_c_14
  let main_v40 : IVec S_ 1 := andi main_v33 main_v39
  main_v40

def fn_part1 {F : FTy → Type} [FloatOps F] (main_arg1 : IVec S1600000 32) (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S2000x128 : Shape := ⟨2, ![2000, 128]⟩
abbrev S1 : Shape := ⟨1, ![1]⟩
abbrev S1x1 : Shape := ⟨2, ![1, 1]⟩
abbrev S1600000x128 : Shape := ⟨2, ![1600000, 128]⟩
abbrev S100000x1 : Shape := ⟨2, ![100000, 1]⟩
abbrev S1x128 : Shape := ⟨2, ![1, 128]⟩
abbrev S2000x1 : Shape := ⟨2, ![2000, 1]⟩
abbrev S100000x40 : Shape := ⟨2, ![100000, 40]⟩
abbrev S2000x40 : Shape := ⟨2, ![2000, 40]⟩
abbrev S1600000x40 : Shape := ⟨2, ![1600000, 40]⟩
abbrev S1x40 : Shape := ⟨2, ![1, 40]⟩

abbrev nBuf : Space → Nat
  | .hbm => 172
  | .vmem => 36
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S_, .f32⟩
  | 10 => ⟨S1600000, .f32⟩
  | 11 => ⟨S_, .f32⟩
  | 12 => ⟨S100000, .f32⟩
  | 13 => ⟨S1600000x1, .i32⟩
  | 14 => ⟨S100000, .f32⟩
  | 15 => ⟨S_, .f32⟩
  | 16 => ⟨S100000, .f32⟩
  | 17 => ⟨S100000, .i1⟩
  | 18 => ⟨S_, .f32⟩
  | 19 => ⟨S100000, .f32⟩
  | 20 => ⟨S100000, .f32⟩
  | 21 => ⟨S100000, .f32⟩
  | 22 => ⟨S_, .f32⟩
  | 23 => ⟨S_, .f32⟩
  | 24 => ⟨S100000, .f32⟩
  | 25 => ⟨S100000, .f32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S100000x128, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1, .i32⟩
  | 53 => ⟨S_, .i32⟩
  | 54 => ⟨S1600000x1, .i32⟩
  | 55 => ⟨S1600000x1, .i1⟩
  | 56 => ⟨S1x1, .i32⟩
  | 57 => ⟨S1600000x1, .i32⟩
  | 58 => ⟨S1600000x1, .i1⟩
  | 59 => ⟨S1600000x1, .i1⟩
  | 60 => ⟨S_, .i1⟩
  | 61 => ⟨S1600000, .i1⟩
  | 62 => ⟨S1600000x128, .f32⟩
  | 63 => ⟨S1600000x128, .i1⟩
  | 64 => ⟨S_, .f32⟩
  | 65 => ⟨S1600000x128, .f32⟩
  | 66 => ⟨S1600000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000, .f32⟩
  | 76 => ⟨S1600000x1, .f32⟩
  | 77 => ⟨S1600000x128, .f32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x1, .f32⟩
  | 84 => ⟨S1x128, .f32⟩
  | 85 => ⟨S100000x128, .f32⟩
  | 86 => ⟨S100000x128, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1, .i32⟩
  | 96 => ⟨S_, .i32⟩
  | 97 => ⟨S1600000x1, .i32⟩
  | 98 => ⟨S1600000x1, .i1⟩
  | 99 => ⟨S1x1, .i32⟩
  | 100 => ⟨S1600000x1, .i32⟩
  | 101 => ⟨S1600000x1, .i1⟩
  | 102 => ⟨S1600000x1, .i1⟩
  | 103 => ⟨S_, .i1⟩
  | 104 => ⟨S1600000, .i1⟩
  | 105 => ⟨S1600000x128, .f32⟩
  | 106 => ⟨S1600000x128, .i1⟩
  | 107 => ⟨S_, .f32⟩
  | 108 => ⟨S1600000x128, .f32⟩
  | 109 => ⟨S1600000x128, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S1600000x1, .f32⟩
  | 120 => ⟨S1600000x128, .f32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S100000x1, .f32⟩
  | 127 => ⟨S1x128, .f32⟩
  | _ => ⟨S100000x128, .f32⟩

abbrev hbmTy0_1 (i : Nat) : BufTy := match i % 128 with
  | 0 => ⟨S100000x128, .f32⟩
  | 1 => ⟨S100000x40, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1, .i32⟩
  | 11 => ⟨S_, .i32⟩
  | 12 => ⟨S1600000x1, .i32⟩
  | 13 => ⟨S1600000x1, .i1⟩
  | 14 => ⟨S1x1, .i32⟩
  | 15 => ⟨S1600000x1, .i32⟩
  | 16 => ⟨S1600000x1, .i1⟩
  | 17 => ⟨S1600000x1, .i1⟩
  | 18 => ⟨S_, .i1⟩
  | 19 => ⟨S1600000, .i1⟩
  | 20 => ⟨S1600000x40, .f32⟩
  | 21 => ⟨S1600000x40, .i1⟩
  | 22 => ⟨S_, .f32⟩
  | 23 => ⟨S1600000x40, .f32⟩
  | 24 => ⟨S1600000x40, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S1600000x1, .f32⟩
  | 35 => ⟨S1600000x40, .f32⟩
  | 36 => ⟨S1600000x40, .f32⟩
  | 37 => ⟨S_, .f32⟩
  | 38 => ⟨S100000x40, .f32⟩
  | 39 => ⟨S1600000x1, .i32⟩
  | 40 => ⟨S100000x40, .f32⟩
  | 41 => ⟨S100000x1, .f32⟩
  | 42 => ⟨S1x40, .f32⟩
  | 43 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x1, .f32⟩
  | .local _ .vmem, ⟨8, _⟩ => ⟨S2000x1, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x40, .f32⟩
  | .local _ .vmem, ⟨27, _⟩ => ⟨S2000x40, .f32⟩
  | .local _ .vmem, ⟨28, _⟩ => ⟨S2000x40, .f32⟩
  | .local _ .vmem, ⟨29, _⟩ => ⟨S2000x40, .f32⟩
  | .local _ .vmem, ⟨30, _⟩ => ⟨S2000x40, .f32⟩
  | .local _ .vmem, ⟨31, _⟩ => ⟨S2000x1, .f32⟩
  | .local _ .vmem, ⟨32, _⟩ => ⟨S2000x1, .f32⟩
  | .local _ .vmem, ⟨33, _⟩ => ⟨S1x40, .f32⟩
  | .local _ .vmem, ⟨34, _⟩ => ⟨S2000x40, .f32⟩
  | .local _ .vmem, ⟨35, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_c_1 : Ref sig .tc := ⟨.hbm, 52, rfl⟩
abbrev main_call2_c_2 : Ref sig .tc := ⟨.hbm, 53, rfl⟩
abbrev main_call2_v6 : Ref sig .tc := ⟨.hbm, 54, rfl⟩
abbrev main_call2_v7 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_3 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_call2_cst : Ref sig .tc := ⟨.hbm, 64, rfl⟩
abbrev main_call2_v15 : Ref sig .tc := ⟨.hbm, 65, rfl⟩
abbrev main_v21 : Ref sig .tc := ⟨.hbm, 66, rfl⟩
abbrev main_c : Ref sig .tc := ⟨.hbm, 67, rfl⟩
abbrev main_v22 : Ref sig .tc := ⟨.hbm, 68, rfl⟩
abbrev main_v23 : Ref sig .tc := ⟨.hbm, 69, rfl⟩
abbrev main_c_9 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_cst_10 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v39 : Ref sig .tc := ⟨.hbm, 109, rfl⟩
abbrev main_c_11 : Ref sig .tc := ⟨.hbm, 110, rfl⟩
abbrev main_v40 : Ref sig .tc := ⟨.hbm, 111, rfl⟩
abbrev main_v41 : Ref sig .tc := ⟨.hbm, 112, rfl⟩
abbrev main_c_12 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_cst_13 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_call4_c : Ref sig .tc := ⟨.hbm, 130, rfl⟩
abbrev main_call4_v0 : Ref sig .tc := ⟨.hbm, 131, rfl⟩
abbrev main_call4_v1 : Ref sig .tc := ⟨.hbm, 132, rfl⟩
abbrev main_call4_c_0 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_call4_v5 : Ref sig .tc := ⟨.hbm, 137, rfl⟩
abbrev main_call4_c_1 : Ref sig .tc := ⟨.hbm, 138, rfl⟩
abbrev main_call4_c_2 : Ref sig .tc := ⟨.hbm, 139, rfl⟩
abbrev main_call4_v6 : Ref sig .tc := ⟨.hbm, 140, rfl⟩
abbrev main_call4_v7 : Ref sig .tc := ⟨.hbm, 141, rfl⟩
abbrev main_call4_v8 : Ref sig .tc := ⟨.hbm, 142, rfl⟩
abbrev main_call4_v9 : Ref sig .tc := ⟨.hbm, 143, rfl⟩
abbrev main_call4_v10 : Ref sig .tc := ⟨.hbm, 144, rfl⟩
abbrev main_call4_v11 : Ref sig .tc := ⟨.hbm, 145, rfl⟩
abbrev main_call4_c_3 : Ref sig .tc := ⟨.hbm, 146, rfl⟩
abbrev main_call4_v12 : Ref sig .tc := ⟨.hbm, 147, rfl⟩
abbrev main_call4_v13 : Ref sig .tc := ⟨.hbm, 148, rfl⟩
abbrev main_call4_v14 : Ref sig .tc := ⟨.hbm, 149, rfl⟩
abbrev main_call4_cst : Ref sig .tc := ⟨.hbm, 150, rfl⟩
abbrev main_call4_v15 : Ref sig .tc := ⟨.hbm, 151, rfl⟩
abbrev main_v57 : Ref sig .tc := ⟨.hbm, 152, rfl⟩
abbrev main_c_14 : Ref sig .tc := ⟨.hbm, 153, rfl⟩
abbrev main_v58 : Ref sig .tc := ⟨.hbm, 154, rfl⟩
abbrev main_v59 : Ref sig .tc := ⟨.hbm, 155, rfl⟩
abbrev main_c_15 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_cst_16 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1600000_S1600000x40_0 : S1600000.BroadcastsInDim S1600000x40 (![0] : Fin 1 → Fin S1600000x40.rank)
  bcast_S_S1600000x40 : S_.BroadcastsInDim S1600000x40 (![] : Fin 0 → Fin S1600000x40.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S2000x128_S128x40_S2000x40_1_0_0_1_n_n_wf : DotDims.WF S2000x128 S128x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x40.size a ≤ S100000x40.size a
  hwx4_2 : ∀ i : grid4.Coords, EltTy.bits .f32 = 32 ∨ (Rect.block (s := S100000x40) S2000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x40.size a ≤ S100000x40.size a
  hwx5_0 : ∀ i : grid5.Coords, EltTy.bits .f32 = 32 ∨ (Rect.block (s := S100000x40) S2000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S100000x1.size a
  hwx5_1 : ∀ i : grid5.Coords, EltTy.bits .f32 = 32 ∨ (Rect.block (s := S100000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x40.size a ≤ S100000x40.size a
  hwx5_3 : ∀ i : grid5.Coords, EltTy.bits .f32 = 32 ∨ (Rect.block (s := S100000x40) S2000x40.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v37) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v52) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v55) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S2000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v70) S2000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v72) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v73) S2000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x40 : Shape := ⟨2, ![100000, 40]⟩
abbrev S1x40 : Shape := ⟨2, ![1, 40]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x1, .f32⟩
  | .hbm, ⟨96, _⟩ => ⟨S100000x128, .f32⟩
  | .hbm, ⟨97, _⟩ => ⟨S100000x128, .f32⟩
  | .hbm, ⟨98, _⟩ => ⟨S_, .i32⟩
  | .hbm, ⟨99, _⟩ => ⟨S1600000, .i32⟩
  | .hbm, ⟨100, _⟩ => ⟨S1600000, .i1⟩
  | .hbm, ⟨101, _⟩ => ⟨S_, .i32⟩
  | .hbm, ⟨102, _⟩ => ⟨S1600000, .i32⟩
  | .hbm, ⟨103, _⟩ => ⟨S1600000, .i32⟩
  | .hbm, ⟨104, _⟩ => ⟨S1600000, .i32⟩
  | .hbm, ⟨105, _⟩ => ⟨S1600000x1, .i32⟩
  | .hbm, ⟨106, _⟩ => ⟨S1600000x128, .f32⟩
  | .hbm, ⟨107, _⟩ => ⟨S_, .f32⟩
  | .hbm, ⟨108, _⟩ => ⟨S100000x128, .f32⟩
  | .hbm, ⟨109, _⟩ => ⟨S1600000x1, .i32⟩
  | .hbm, ⟨110, _⟩ => ⟨S100000x128, .f32⟩
  | .hbm, ⟨111, _⟩ => ⟨S100000x1, .f32⟩
  | .hbm, ⟨112, _⟩ => ⟨S100000x128, .f32⟩
  | .hbm, ⟨113, _⟩ => ⟨S100000x128, .f32⟩
  | .hbm, ⟨114, _⟩ => ⟨S100000x40, .f32⟩
  | .hbm, ⟨115, _⟩ => ⟨S1x40, .f32⟩
  | .hbm, ⟨116, _⟩ => ⟨S100000x40, .f32⟩
  | .hbm, ⟨117, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_cst_5 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_9 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_10 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call2_cst : Ref sig .tc := ⟨.hbm, 66, rfl⟩
abbrev main_call2_v0 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_11 : Ref sig .tc := ⟨.hbm, 72, rfl⟩
abbrev main_v44 : Ref sig .tc := ⟨.hbm, 73, rfl⟩
abbrev main_v45 : Ref sig .tc := ⟨.hbm, 74, rfl⟩
abbrev main_c_12 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_13 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call3_cst : Ref sig .tc := ⟨.hbm, 92, rfl⟩
abbrev main_call3_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_14 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  THREE GRAPH-CONVOLUTION LAYERS, in the two orders the programs compute them, and the law that makes the orders agree.

  A graph has `N` nodes and `E` edges; edge `e` goes from node `s e` to the node numbered `dst e` (an integer: an edge whose
  number names no node reaches nobody). With node features `h`, source and destination norms `ns`, `nd`, weights `W` and a
  bias `b`, one layer sends node `i`, output column `j` to

      nd i · Σ_{e into i} ns (s e) · Σ_k h (s e) k · W k j  +  b j        (transform first, then gather and sum)
      Σ_k (nd i · Σ_{e into i} h (s e) k · ns (s e)) · W k j  +  b j      (gather and sum first, then transform)

  Both are the same real number: the second is the first with the finite sum over `k` and the factor `W k j` moved across
  the finite sum over edges and the factor `nd i` (distributivity, and the exchange of two finite sums). On the extended
  reals that needs every number involved to be a real, which is why the layers carry "is real" along.
-/
import Idealize.ShloMosaic.PureOps.Ideal
import Idealize.ShloMosaic.Lib.ValueIdx

noncomputable section

namespace Gcn

open Idealize.ShloMosaic

/-- Nodes. -/
abbrev N : Nat := 100000
/-- Edges. -/
abbrev E : Nat := 1600000

/-- The edges that end at node `i`. -/
def inEdges (dst : Fin E → Int) (i : Fin N) : Finset (Fin E) := Finset.univ.filter fun e => dst e = (i.val : Int)

/-- One layer, the weights applied BEFORE the edges are followed. -/
def layerK {D D' : Nat} (ns nd : Fin N → EReal) (s : Fin E → Fin N) (dst : Fin E → Int)
    (W : Fin D → Fin D' → EReal) (b : Fin D' → EReal) (h : Fin N → Fin D → EReal) : Fin N → Fin D' → EReal :=
  fun i j => (∑ e ∈ inEdges dst i, (∑ k, h (s e) k * W k j) * ns (s e)) * nd i + b j

/-- One layer, the weights applied AFTER the edges are followed. -/
def layerR {D D' : Nat} (ns nd : Fin N → EReal) (s : Fin E → Fin N) (dst : Fin E → Int)
    (W : Fin D → Fin D' → EReal) (b : Fin D' → EReal) (h : Fin N → Fin D → EReal) : Fin N → Fin D' → EReal :=
  fun i j => (∑ k, ((∑ e ∈ inEdges dst i, h (s e) k * ns (s e)) * nd i) * W k j) + b j

/-- The rectifier, entry by entry. -/
def relu {D : Nat} (x : Fin N → Fin D → EReal) : Fin N → Fin D → EReal := fun i j => max (x i j) 0

/-- Every entry is a real number. -/
def IsReal1 {ι : Type} (f : ι → EReal) : Prop := ∀ i, ∃ r : ℝ, f i = (r : EReal)
/-- Every entry is a real number. -/
def IsReal2 {ι κ : Type} (f : ι → κ → EReal) : Prop := ∀ i j, ∃ r : ℝ, f i j = (r : EReal)

section Law

variable {D D' : Nat} {ns nd : Fin N → EReal} {s : Fin E → Fin N} {dst : Fin E → Int}
  {W : Fin D → Fin D' → EReal} {b : Fin D' → EReal} {h : Fin N → Fin D → EReal}

/-- A finite sum of real numbers, taken in the extended reals, is the real sum. -/
private theorem coe_sum {ι : Type} (t : Finset ι) (f : ι → ℝ) :
    (∑ a ∈ t, ((f a : ℝ) : EReal)) = ((∑ a ∈ t, f a : ℝ) : EReal) := by
  classical
  induction t using Finset.induction_on with
  | empty => simp
  | insert a t ha ih => rw [Finset.sum_insert ha, Finset.sum_insert ha, ih, EReal.coe_add]

/-- The law over the reals: the sum over `k` and the factor `W k j` cross the sum over the edges and the factor `nd i`
(distributivity twice, and the exchange of the two finite sums). -/
private theorem real_law {ι κ : Type} [Fintype κ] (t : Finset ι) (a : ι → κ → ℝ) (w : κ → ℝ) (n : ι → ℝ) (d : ℝ) :
    (∑ e ∈ t, (∑ k, a e k * w k) * n e) * d = ∑ k, ((∑ e ∈ t, a e k * n e) * d) * w k := by
  simp only [Finset.sum_mul]
  rw [Finset.sum_comm]
  exact Finset.sum_congr rfl fun k _ => Finset.sum_congr rfl fun e _ => by ring

/-- On real data the two orders of one layer agree. -/
theorem layerK_eq_layerR (hns : IsReal1 ns) (hnd : IsReal1 nd) (hW : IsReal2 W) (hb : IsReal1 b) (hh : IsReal2 h) :
    layerK ns nd s dst W b h = layerR ns nd s dst W b h := by
  choose ns' hns using hns
  choose nd' hnd using hnd
  choose W' hW using hW
  choose b' hb using hb
  choose h' hh using hh
  funext i j
  -- every entry is a real: both sides become one real number, seen in the extended reals
  simp only [layerK, layerR, hns, hnd, hW, hb, hh, ← EReal.coe_mul, coe_sum, ← EReal.coe_add]
  rw [real_law (inEdges dst i) (fun e k => h' (s e) k) (fun k => W' k j) (fun e => ns' (s e)) (nd' i)]

/-- A layer of real data is real. -/
theorem layerR_real (hns : IsReal1 ns) (hnd : IsReal1 nd) (hW : IsReal2 W) (hb : IsReal1 b) (hh : IsReal2 h) :
    IsReal2 (layerR ns nd s dst W b h) := by
  choose ns' hns using hns
  choose nd' hnd using hnd
  choose W' hW using hW
  choose b' hb using hb
  choose h' hh using hh
  intro i j
  refine ⟨(∑ k, ((∑ e ∈ inEdges dst i, h' (s e) k * ns' (s e)) * nd' i) * W' k j) + b' j, ?_⟩
  simp only [layerR, hns, hnd, hW, hb, hh, ← EReal.coe_mul, coe_sum, ← EReal.coe_add]

/-- The rectifier of real data is real. -/
theorem relu_real {x : Fin N → Fin D → EReal} (hx : IsReal2 x) : IsReal2 (relu x) := by
  intro i j
  obtain ⟨r, hr⟩ := hx i j
  -- the larger of a real and zero is a real: the inclusion of the reals is monotone
  refine ⟨max r 0, ?_⟩
  simp only [relu, hr]
  rw [← EReal.coe_zero]
  exact (EReal.coe_strictMono.monotone.map_max).symm

end Law

/-- Three layers, rectified after the first two: the weights before the edges. -/
def gcnK (ns nd : Fin N → EReal) (s : Fin E → Fin N) (dst : Fin E → Int)
    (W0 : Fin 128 → Fin 128 → EReal) (b0 : Fin 128 → EReal) (W1 : Fin 128 → Fin 128 → EReal) (b1 : Fin 128 → EReal)
    (W2 : Fin 128 → Fin 40 → EReal) (b2 : Fin 40 → EReal) (h : Fin N → Fin 128 → EReal) : Fin N → Fin 40 → EReal :=
  layerK ns nd s dst W2 b2 (relu (layerK ns nd s dst W1 b1 (relu (layerK ns nd s dst W0 b0 h))))

/-- Three layers, rectified after the first two: the weights after the edges. -/
def gcnR (ns nd : Fin N → EReal) (s : Fin E → Fin N) (dst : Fin E → Int)
    (W0 : Fin 128 → Fin 128 → EReal) (b0 : Fin 128 → EReal) (W1 : Fin 128 → Fin 128 → EReal) (b1 : Fin 128 → EReal)
    (W2 : Fin 128 → Fin 40 → EReal) (b2 : Fin 40 → EReal) (h : Fin N → Fin 128 → EReal) : Fin N → Fin 40 → EReal :=
  layerR ns nd s dst W2 b2 (relu (layerR ns nd s dst W1 b1 (relu (layerR ns nd s dst W0 b0 h))))

/-- On real data the two three-layer networks agree. -/
theorem gcnK_eq_gcnR {ns nd : Fin N → EReal} {s : Fin E → Fin N} {dst : Fin E → Int}
    {W0 : Fin 128 → Fin 128 → EReal} {b0 : Fin 128 → EReal} {W1 : Fin 128 → Fin 128 → EReal} {b1 : Fin 128 → EReal}
    {W2 : Fin 128 → Fin 40 → EReal} {b2 : Fin 40 → EReal} {h : Fin N → Fin 128 → EReal}
    (hns : IsReal1 ns) (hnd : IsReal1 nd) (hW0 : IsReal2 W0) (hb0 : IsReal1 b0) (hW1 : IsReal2 W1) (hb1 : IsReal1 b1)
    (hW2 : IsReal2 W2) (hb2 : IsReal1 b2) (hh : IsReal2 h) :
    gcnK ns nd s dst W0 b0 W1 b1 W2 b2 h = gcnR ns nd s dst W0 b0 W1 b1 W2 b2 h := by
  unfold gcnK gcnR
  -- layer by layer, from the inside: each layer agrees on real data and hands real data to the next
  have r0 : IsReal2 (relu (layerR ns nd s dst W0 b0 h)) := relu_real (layerR_real hns hnd hW0 hb0 hh)
  have r1 : IsReal2 (relu (layerR ns nd s dst W1 b1 (relu (layerR ns nd s dst W0 b0 h)))) :=
    relu_real (layerR_real hns hnd hW1 hb1 r0)
  rw [layerK_eq_layerR hns hnd hW0 hb0 hh, layerK_eq_layerR hns hnd hW1 hb1 r0, layerK_eq_layerR hns hnd hW2 hb2 r1]

end Gcn

end
-- ==== Proof.Bridge.lean ====
/-
  FROM THE PROGRAMS' ARRAYS TO THE LAYERS' ARGUMENTS. A rank-2 array read at (i, k) is a matrix; a rank-1 array read at j
  a vector. Edge `e` starts at the node its source word names, read signed and clamped into the nodes (under the
  precondition the word is already a node's number, so the clamp does nothing), and ends at the integer its destination
  word reads as, clamped nowhere: an edge whose destination names no node reaches nobody.
-/
import proofs.«421580_j45810121179684_1_alg».proof.Proof.Spec
import Idealize.ShloMosaic.Lib.ValueIdx

noncomputable section

namespace Gcn

open Idealize.ShloMosaic Idealize.ShloMosaic.ValueIdx

/-- A rank-2 array as a matrix. -/
def mat {n d : Nat} (a : (⟨2, ![n, d]⟩ : Shape).Idx → EReal) : Fin n → Fin d → EReal := fun i k => a (ix2 i k)

/-- A rank-1 array as a vector. -/
def vec {d : Nat} (a : (⟨1, ![d]⟩ : Shape).Idx → EReal) : Fin d → EReal := fun j => a (ix1 j)

/-- The node edge `e` starts at: its source word read signed and clamped into the nodes. -/
def srcNode (a1 : IVec ⟨1, ![E]⟩ 32) (e : Fin E) : Fin N := ⟨min (a1 (ix1 e)).toInt.toNat (N - 1), Nat.lt_of_le_of_lt (Nat.min_le_right _ _) (by decide)⟩

/-- The integer edge `e`'s destination word reads as. -/
def dstInt (a2 : IVec ⟨1, ![E]⟩ 32) (e : Fin E) : Int := (a2 (ix1 e)).toInt

/-- A matrix of reals, from its array's entries being real. -/
theorem mat_real {n d : Nat} {a : (⟨2, ![n, d]⟩ : Shape).Idx → EReal} (h : ∀ i, ∃ r : ℝ, a i = (r : EReal)) : IsReal2 (mat a) :=
  fun i k => h (ix2 i k)

/-- A vector of reals, from its array's entries being real. -/
theorem vec_real {d : Nat} {a : (⟨1, ![d]⟩ : Shape).Idx → EReal} (h : ∀ i, ∃ r : ℝ, a i = (r : EReal)) : IsReal1 (vec a) :=
  fun j => h (ix1 j)

end Gcn

end
-- ==== Proof.PreFacts.lean ====
/-
  WHAT THE PRECONDITION SAYS, entry by entry. The printed predicate is a conjunction, reduced to one bit, of: every entry
  of each float input has absolute value below +∞, and every word of the source-index input is at least 0 and below
  100000 (signed). On the extended reals an entry whose absolute value is below +∞ is a real number, and a conjunction
  reduced by `and` over an array is 1 exactly when it is 1 at every index.
-/
import proofs.«421580_j45810121179684_1_alg».proof.Proof.Gen.Pre_finite_inputs
import Idealize.ShloMosaic.PureOps.Ideal
import Idealize.ShloMosaic.Lib.ReduceAll
import Idealize.ShloMosaic.Lib.ValueIdx
import Idealize.ShloMosaic.Lib.IdealHost

noncomputable section

namespace Cert.PreFacts

open Idealize.ShloMosaic Cert.Pre_finite_inputs

/-- What the precondition gives: each float input is real at every entry, and every source index lies in [0, 100000). -/
structure Good (a0 : S100000x128.Idx → EReal) (a1 : IVec S1600000 32) (a3 : S128x128.Idx → EReal) (a4 : S128.Idx → EReal)
    (a5 : S128x128.Idx → EReal) (a6 : S128.Idx → EReal) (a7 : S128x40.Idx → EReal) (a8 : S40.Idx → EReal) : Prop where
  real0 : ∀ i, ∃ r : ℝ, a0 i = (r : EReal)
  real3 : ∀ i, ∃ r : ℝ, a3 i = (r : EReal)
  real4 : ∀ i, ∃ r : ℝ, a4 i = (r : EReal)
  real5 : ∀ i, ∃ r : ℝ, a5 i = (r : EReal)
  real6 : ∀ i, ∃ r : ℝ, a6 i = (r : EReal)
  real7 : ∀ i, ∃ r : ℝ, a7 i = (r : EReal)
  real8 : ∀ i, ∃ r : ℝ, a8 i = (r : EReal)
  src_ge : ∀ e, IntOp.cmpi .sge (a1 e) 0#32 = 1#1
  src_lt : ∀ e, IntOp.cmpi .slt (a1 e) 100000#32 = 1#1

/-- The shape of a scalar has one index. -/
private instance : Subsingleton S_.Idx := ⟨fun a b => funext fun d => d.elim0⟩

/-- An `and` of two arrays of bits is 1 at an index exactly when both are. -/
private theorem andi_ix {s : Shape} (x y : IVec s 1) (i : s.Idx) : andi x y i = 1#1 ↔ x i = 1#1 ∧ y i = 1#1 :=
  IntOp.andi_eq_one

/-- The pattern 0x7F800000 is +∞. -/
private theorem inf_bits : Ideal.ofBits .f32 0x7F800000#32 = ⊤ := by
  simp [Ideal.ofBits, Ideal.ieee]

/-- An extended real whose absolute value is below +∞ is a real: ⊥ and ⊤ have absolute value ⊤. -/
private theorem real_of_abs_lt (x : EReal)
    (hx : Ideal.cmp .olt (max x (-x)) (Ideal.ofBits .f32 0x7F800000#32) = 1#1) : ∃ r : ℝ, x = (r : EReal) := by
  rw [inf_bits] at hx
  induction x using EReal.rec with
  | bot => simp [Ideal.cmp] at hx
  | coe r => exact ⟨r, rfl⟩
  | top => simp [Ideal.cmp] at hx

/-- "All entries have absolute value below +∞", reduced by `and` to one bit that is 1: every entry is a real. -/
private theorem all_real {s : Shape} {axes : List (Fin s.rank)} (a : s.Idx → EReal)
    (hb : S_.BroadcastsInDim s (![] : Fin 0 → Fin s.rank)) (hr : s.ReducesTo axes S_) (hu : 0 < S_.numel)
    (init : IVec S_ 1) (j : S_.Idx)
    (e : Host.reduce IntOp.andi
      (cmpf .olt (Host.absf (F := Ideal) (φ := .f32) a) (broadcastInDim s ![] hb (constant (F := Ideal) S_ .f32 0x7F800000#32)))
      init hr hu j = 1#1) :
    ∀ i, ∃ r : ℝ, a i = (r : EReal) := by
  intro i
  have hi := Host.reduce_andi_all _ _ hr hu j e i
  rw [ValueIdx.cmpf_apply, ValueIdx.broadcastInDim_scalar_apply, ValueIdx.constant_apply] at hi
  exact real_of_abs_lt (a i) hi

/-- "Every word passes both signed compares against two scalars", reduced by `and` to one bit that is 1: every word
passes each compare. -/
private theorem all_cmpi {s : Shape} {axes : List (Fin s.rank)} (a : IVec s 32)
    (hb : S_.BroadcastsInDim s (![] : Fin 0 → Fin s.rank)) (hr : s.ReducesTo axes S_) (hu : 0 < S_.numel)
    (init : IVec S_ 1) (j : S_.Idx) (lo hi : BitVec 32)
    (e : Host.reduce IntOp.andi
      (andi (cmpi .sge a (broadcastInDim s ![] hb (constantI S_ 32 lo)))
        (cmpi .slt a (broadcastInDim s ![] hb (constantI S_ 32 hi))))
      init hr hu j = 1#1) :
    ∀ i, IntOp.cmpi .sge (a i) lo = 1#1 ∧ IntOp.cmpi .slt (a i) hi = 1#1 := by
  intro i
  obtain ⟨h1, h2⟩ := (andi_ix _ _ _).1 (Host.reduce_andi_all _ _ hr hu j e i)
  -- a scalar broadcast reads the scalar at every index
  have hc : ∀ c : BitVec 32, broadcastInDim s ![] hb (constantI S_ 32 c) i = c :=
    fun c => ValueIdx.broadcastInDim_scalar_apply hb _ i
  change IntOp.cmpi .sge (a i) (broadcastInDim s ![] hb (constantI S_ 32 lo) i) = 1#1 at h1
  change IntOp.cmpi .slt (a i) (broadcastInDim s ![] hb (constantI S_ 32 hi) i) = 1#1 at h2
  rw [hc] at h1 h2
  exact ⟨h1, h2⟩

/-- The printed precondition, all ones, gives all of it. -/
theorem good_of_pre (a0 : S100000x128.Idx → EReal) (a1 a2 : IVec S1600000 32) (a3 : S128x128.Idx → EReal)
    (a4 : S128.Idx → EReal) (a5 : S128x128.Idx → EReal) (a6 : S128.Idx → EReal) (a7 : S128x40.Idx → EReal)
    (a8 : S40.Idx → EReal)
    (h : Cert.Pre_finite_inputs.fn (F := Ideal) a0 a1 a2 a3 a4 a5 a6 a7 a8 = fun _ => 1#1) :
    Good a0 a1 a3 a4 a5 a6 a7 a8 := by
  have h0 := congrFun h ValueIdx.ix0
  simp only [fn, fn_part1, fn_part2] at h0
  -- the one bit is an `and` of eight bits, one per input read
  simp only [andi_ix] at h0
  obtain ⟨⟨⟨⟨⟨⟨⟨h_0, h_3⟩, h_4⟩, h_5⟩, h_6⟩, h_7⟩, h_8⟩, h_1⟩ := h0
  have hsrc := all_cmpi a1 _ _ _ _ _ _ _ h_1
  exact
    { real0 := all_real a0 _ _ _ _ _ h_0
      real3 := all_real a3 _ _ _ _ _ h_3
      real4 := all_real a4 _ _ _ _ _ h_4
      real5 := all_real a5 _ _ _ _ _ h_5
      real6 := all_real a6 _ _ _ _ _ h_6
      real7 := all_real a7 _ _ _ _ _ h_7
      real8 := all_real a8 _ _ _ _ _ h_8
      src_ge := fun e => (hsrc e).1
      src_lt := fun e => (hsrc e).2 }

end Cert.PreFacts

end
-- ==== Proof.KDefs.lean ====
/-
  THE KERNEL PROGRAM'S ARRAYS BY NAME, each at its own literal type: the nine argument arrays as launched, the two norm
  vectors as the first transform region finds them, the features each finalize region leaves, and the precondition read on
  this memory.
-/
import proofs.«421580_j45810121179684_1_alg».proof.Proof.Gen.KernelIdeal.Frame
import proofs.«421580_j45810121179684_1_alg».proof.Proof.Bridge
import proofs.«421580_j45810121179684_1_alg».proof.Proof.PreFacts

noncomputable section

namespace Cert.KernelIdeal.Val

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The node features, the edges' source and destination words, and the three layers' weights and biases, as launched. -/
abbrev A0 (c : Dev nD) : S100000x128.Idx → EReal := m ((c.tc : Thread nD τ).loc main_arg0)
abbrev A1 (c : Dev nD) : IVec S1600000 32 := m ((c.tc : Thread nD τ).loc main_arg1)
abbrev A2 (c : Dev nD) : IVec S1600000 32 := m ((c.tc : Thread nD τ).loc main_arg2)
abbrev A3 (c : Dev nD) : S128x128.Idx → EReal := m ((c.tc : Thread nD τ).loc main_arg3)
abbrev A4 (c : Dev nD) : S128.Idx → EReal := m ((c.tc : Thread nD τ).loc main_arg4)
abbrev A5 (c : Dev nD) : S128x128.Idx → EReal := m ((c.tc : Thread nD τ).loc main_arg5)
abbrev A6 (c : Dev nD) : S128.Idx → EReal := m ((c.tc : Thread nD τ).loc main_arg6)
abbrev A7 (c : Dev nD) : S128x40.Idx → EReal := m ((c.tc : Thread nD τ).loc main_arg7)
abbrev A8 (c : Dev nD) : S40.Idx → EReal := m ((c.tc : Thread nD τ).loc main_arg8)

/-- The source and destination norms, as the first transform region finds them. -/
abbrev nsArr (c : Dev nD) : S100000.Idx → EReal := W4 (F := Ideal) m ρ c (Proc.devRef .tc main_v9)
abbrev ndArr (c : Dev nD) : S100000.Idx → EReal := W4 (F := Ideal) m ρ c (Proc.devRef .tc main_v19)

/-- The features the first, second and third finalize regions leave. -/
abbrev h1Arr (c : Dev nD) : S100000x128.Idx → EReal := W8 (F := Ideal) m ρ c (Proc.devRef .tc main_v37)
abbrev h2Arr (c : Dev nD) : S100000x128.Idx → EReal := W12 (F := Ideal) m ρ c (Proc.devRef .tc main_v55)
abbrev outArr (c : Dev nD) : S100000x40.Idx → EReal := W16 (F := Ideal) m ρ c (Proc.devRef .tc main_v73)

/-- The precondition, read on this memory. -/
abbrev Good (c : Dev nD) : Prop :=
  Cert.PreFacts.Good (A0 m c) (A1 m c) (A3 m c) (A4 m c) (A5 m c) (A6 m c) (A7 m c) (A8 m c)

end Cert.KernelIdeal.Val

end
-- ==== Proof.KRegions.lean ====
/-
  WHAT EACH OF THE SIX KERNEL REGIONS LEAVES IN ITS OUTPUT ARRAY, entry by entry, as a function of the arrays the region
  finds when it is entered. Every region walks the 100000 rows in 50 blocks of 2000 rows, each block written once, so the
  blocks cover the whole output array.
  A transform region multiplies its block of rows by the whole weight matrix into a zero accumulator: entry (i, j) is the
  sum over k of input (i, k) times weight (k, j). A finalize region scales row i of its input by the norm of row i, adds
  the bias of column j and (in the first two layers) rectifies.
-/
import proofs.«421580_j45810121179684_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The payloads at an entry -/

/-- The zero offsets of a whole-buffer access, as the constant function. -/
private theorem hz : (![0, 0] : Fin 2 → Nat) = fun _ => 0 := funext fun a => by fin_cases a <;> rfl

/-- The [2000 × 128] by [128 × 128] product's dimension numbers. -/
private abbrev D128 := dot_S2000x128_S128x128_S2000x128_1_0_0_1_n_n

/-- The left operand is read at the output's row … -/
private theorem lhs128_0 (i : S2000x128.Idx) (q : D128.contr.Idx) : (D128.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the contraction index; -/
private theorem lhs128_1 (i : S2000x128.Idx) (q : D128.contr.Idx) : (D128.lhsIdx i q 1).val = (q ⟨0, by decide⟩).val :=
  dot_S2000x128_S128x128_S2000x128_1_0_0_1_n_n.lhsIdx_val_of_single rfl i q
/-- the right operand at the contraction index … -/
private theorem rhs128_0 (i : S2000x128.Idx) (q : D128.contr.Idx) : (D128.rhsIdx i q 0).val = (q ⟨0, by decide⟩).val :=
  dot_S2000x128_S128x128_S2000x128_1_0_0_1_n_n.rhsIdx_val_of_single rfl i q
/-- … and the output's column. -/
private theorem rhs128_1 (i : S2000x128.Idx) (q : D128.contr.Idx) : (D128.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of rows times the weights into a zero accumulator, at entry (p, q): the sum over k of (p, k) times (k, q). -/
private theorem mm128_apply (v0 : FVec Ideal S2000x128 .f32) (v1 : FVec Ideal S128x128 .f32) (p : Fin 2000) (q : Fin 128) :
    matmul (F := Ideal) dot_S2000x128_S128x128_S2000x128_1_0_0_1_n_n none v0 v1 (constant (F := Ideal) S2000x128 .f32 0x00000000#32) (ix2 p q)
      = ∑ k : Fin 128, v0 (ix2 p k) * v1 (ix2 k q) := by
  refine (Ideal.matmul_constant_zero_apply D128 none v0 v1 (ix2 p q)).trans ?_
  rw [← Equiv.sum_comp (ValueIdx.contrEquiv1 D128 128 rfl rfl).symm]
  refine Finset.sum_congr rfl fun k _ => ?_
  have hk := ValueIdx.contrEquiv1_symm_val D128 128 rfl rfl k
  have el : D128.lhsIdx (ix2 p q) ((ValueIdx.contrEquiv1 D128 128 rfl rfl).symm k) = ix2 p k := funext fun a => Fin.ext (by
    match a with
    | ⟨0, _⟩ => exact lhs128_0 _ _
    | ⟨1, _⟩ => exact (lhs128_1 _ _).trans hk)
  have er : D128.rhsIdx (ix2 p q) ((ValueIdx.contrEquiv1 D128 128 rfl rfl).symm k) = ix2 k q := funext fun a => Fin.ext (by
    match a with
    | ⟨0, _⟩ => exact (rhs128_0 _ _).trans hk
    | ⟨1, _⟩ => exact rhs128_1 _ _)
  rw [el, er]

/-- Region 0's payload at an entry. -/
private theorem pay0_apply (v0 : FVec Ideal S2000x128 .f32) (v1 : FVec Ideal S128x128 .f32) (p : Fin 2000) (q : Fin 128) :
    k0_pay1 (F := Ideal) v0 v1 (ix2 p q) = ∑ k : Fin 128, v0 (ix2 p k) * v1 (ix2 k q) := by
  unfold k0_pay1
  exact mm128_apply v0 v1 p q

/-- An [a × 1] column broadcast to [a × b] reads, at (p, c), the column's entry at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Rows scaled by a column and shifted by a row, at entry (p, q): entry (p, q) times the column's entry p plus the
    row's entry q (the shape casts to the same shape are identities). -/
private theorem scaleShift_apply {R C : ℕ} (v0 : FVec Ideal ⟨2, ![R, C]⟩ .f32) (v2 : FVec Ideal ⟨2, ![R, 1]⟩ .f32) (v6 : FVec Ideal ⟨2, ![1, C]⟩ .f32)
    (h0 : (⟨2, ![R, C]⟩ : Shape).ShapeCasts ⟨2, ![R, C]⟩) (h2 : (⟨2, ![R, 1]⟩ : Shape).ShapeCasts ⟨2, ![R, 1]⟩)
    (h6 : (⟨2, ![1, C]⟩ : Shape).ShapeCasts ⟨2, ![1, C]⟩)
    (hb2 : (⟨2, ![R, 1]⟩ : Shape).Broadcasts ⟨2, ![R, C]⟩) (hb6 : (⟨2, ![1, C]⟩ : Shape).Broadcasts ⟨2, ![R, C]⟩)
    (p : Fin R) (q : Fin C) :
    addf (mulf (shapeCast ⟨2, ![R, C]⟩ v0 h0) (broadcastTo ⟨2, ![R, C]⟩ (shapeCast ⟨2, ![R, 1]⟩ v2 h2) hb2))
        (broadcastTo ⟨2, ![R, C]⟩ (shapeCast ⟨2, ![1, C]⟩ v6 h6) hb6) (ix2 p q)
      = v0 (ix2 p q) * v2 (ix2 p (0 : Fin 1)) + v6 (ix2 (0 : Fin 1) q) := by
  rw [shapeCast_self, shapeCast_self, shapeCast_self, addf_apply, mulf_apply, broadcastTo_a1_ab_apply, broadcastTo_1b_ab_apply]

/-- Region 1's payload at an entry. -/
private theorem pay1_apply (v0 : FVec Ideal S2000x128 .f32) (v2 : FVec Ideal S2000x1 .f32) (v6 : FVec Ideal S1x128 .f32) (p : Fin 2000) (q : Fin 128) :
    k1_pay1 (F := Ideal) v0 v2 v6 (ix2 p q) = max (v0 (ix2 p q) * v2 (ix2 p (0 : Fin 1)) + v6 (ix2 (0 : Fin 1) q)) 0 := by
  unfold k1_pay1
  refine (maximumf_apply _ _ _).trans ?_
  rw [scaleShift_apply, broadcast_apply]
  show max _ (Ideal.ofBits .f32 0x00000000#32) = _
  rw [Ideal.ofBits_zero_f32]

/-- Region 2's payload at an entry (its shape cast to the same shape is the identity). -/
private theorem pay2_apply (v0 : FVec Ideal S2000x128 .f32) (v2 : FVec Ideal S128x128 .f32) (p : Fin 2000) (q : Fin 128) :
    k2_pay1 (F := Ideal) v0 v2 (ix2 p q) = ∑ k : Fin 128, v0 (ix2 p k) * v2 (ix2 k q) := by
  unfold k2_pay1
  rw [shapeCast_self]
  exact mm128_apply v0 v2 p q

/-- Region 3's payload at an entry. -/
private theorem pay3_apply (v0 : FVec Ideal S2000x128 .f32) (v2 : FVec Ideal S2000x1 .f32) (v6 : FVec Ideal S1x128 .f32) (p : Fin 2000) (q : Fin 128) :
    k3_pay1 (F := Ideal) v0 v2 v6 (ix2 p q) = max (v0 (ix2 p q) * v2 (ix2 p (0 : Fin 1)) + v6 (ix2 (0 : Fin 1) q)) 0 := by
  unfold k3_pay1
  refine (maximumf_apply _ _ _).trans ?_
  rw [scaleShift_apply, broadcast_apply]
  show max _ (Ideal.ofBits .f32 0x00000000#32) = _
  rw [Ideal.ofBits_zero_f32]

/-- The [2000 × 128] by [128 × 40] product's dimension numbers. -/
private abbrev D40 := dot_S2000x128_S128x40_S2000x40_1_0_0_1_n_n

/-- The left operand is read at the output's row … -/
private theorem lhs40_0 (i : S2000x40.Idx) (q : D40.contr.Idx) : (D40.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
/-- … and the contraction index; -/
private theorem lhs40_1 (i : S2000x40.Idx) (q : D40.contr.Idx) : (D40.lhsIdx i q 1).val = (q ⟨0, by decide⟩).val :=
  dot_S2000x128_S128x40_S2000x40_1_0_0_1_n_n.lhsIdx_val_of_single rfl i q
/-- the right operand at the contraction index … -/
private theorem rhs40_0 (i : S2000x40.Idx) (q : D40.contr.Idx) : (D40.rhsIdx i q 0).val = (q ⟨0, by decide⟩).val :=
  dot_S2000x128_S128x40_S2000x40_1_0_0_1_n_n.rhsIdx_val_of_single rfl i q
/-- … and the output's column. -/
private theorem rhs40_1 (i : S2000x40.Idx) (q : D40.contr.Idx) : (D40.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- A block of rows times the 40-column weights into a zero accumulator, at entry (p, q): the sum over k of (p, k) times (k, q). -/
private theorem mm40_apply (v0 : FVec Ideal S2000x128 .f32) (v1 : FVec Ideal S128x40 .f32) (p : Fin 2000) (q : Fin 40) :
    matmul (F := Ideal) dot_S2000x128_S128x40_S2000x40_1_0_0_1_n_n none v0 v1 (constant (F := Ideal) S2000x40 .f32 0x00000000#32) (ix2 p q)
      = ∑ k : Fin 128, v0 (ix2 p k) * v1 (ix2 k q) := by
  refine (Ideal.matmul_constant_zero_apply D40 none v0 v1 (ix2 p q)).trans ?_
  rw [← Equiv.sum_comp (ValueIdx.contrEquiv1 D40 128 rfl rfl).symm]
  refine Finset.sum_congr rfl fun k _ => ?_
  have hk := ValueIdx.contrEquiv1_symm_val D40 128 rfl rfl k
  have el : D40.lhsIdx (ix2 p q) ((ValueIdx.contrEquiv1 D40 128 rfl rfl).symm k) = ix2 p k := funext fun a => Fin.ext (by
    match a with
    | ⟨0, _⟩ => exact lhs40_0 _ _
    | ⟨1, _⟩ => exact (lhs40_1 _ _).trans hk)
  have er : D40.rhsIdx (ix2 p q) ((ValueIdx.contrEquiv1 D40 128 rfl rfl).symm k) = ix2 k q := funext fun a => Fin.ext (by
    match a with
    | ⟨0, _⟩ => exact (rhs40_0 _ _).trans hk
    | ⟨1, _⟩ => exact rhs40_1 _ _)
  rw [el, er]

/-- Region 4's payload at an entry (its shape cast to the same shape is the identity). -/
private theorem pay4_apply (v0 : FVec Ideal S2000x128 .f32) (v2 : FVec Ideal S128x40 .f32) (p : Fin 2000) (q : Fin 40) :
    k4_pay1 (F := Ideal) v0 v2 (ix2 p q) = ∑ k : Fin 128, v0 (ix2 p k) * v2 (ix2 k q) := by
  unfold k4_pay1
  rw [shapeCast_self]
  exact mm40_apply v0 v2 p q

/-- Region 5's payload at an entry: no rectifier. -/
private theorem pay5_apply (v0 : FVec Ideal S2000x40 .f32) (v2 : FVec Ideal S2000x1 .f32) (v6 : FVec Ideal S1x40 .f32) (p : Fin 2000) (q : Fin 40) :
    k5_pay1 (F := Ideal) v0 v2 v6 (ix2 p q) = v0 (ix2 p q) * v2 (ix2 p (0 : Fin 1)) + v6 (ix2 (0 : Fin 1) q) := by
  unfold k5_pay1
  exact scaleShift_apply v0 v2 v6 _ _ _ _ _ p q

variable (V : (c : Dev nD) → (b : Ref sig .tc) → Buf (Elt Ideal) ((c : Thread nD τ).loc b))

/-- Region 0's input rows, its weights, and what the region leaves in its output array. -/
abbrev x0 (c : Dev nD) : S100000x128.Idx → EReal := V c (Pipeline.arrRef spec0 0)
abbrev w0 (c : Dev nD) : S128x128.Idx → EReal := V c (Pipeline.arrRef spec0 1)
abbrev o0 (c : Dev nD) : S100000x128.Idx → EReal := (dat0 (F := Ideal) V c).arrAt 2 cfg0.N

/-- The product of region 0's input rows by its weights, as one function of the whole arrays. -/
private def G0 (c : Dev nD) : S100000x128.Idx → EReal :=
  fun I => ∑ k : Fin 128, x0 V c (ix2 (I 0 : Fin 100000) k) * w0 V c (ix2 k (I 1 : Fin 128))

/-- Region 0's index maps over the grid: the row blocks move with the point, the weights stay. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` of region 0 writes back is block `t` of that product. -/
private theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 (F := Ideal) V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts0 t
  funext j
  obtain ⟨p, q, rfl⟩ : ∃ (p : Fin 2000) (q : Fin 128), j = ix2 p q := ⟨j 0, j 1, eq_ix2 j⟩
  refine (pay0_apply (iblk0 V c 0 t) (iblk0 V c 1 t) p q).trans ?_
  show ∑ k : Fin 128, x0 V c (((cfg0.win 0).blk t).view.emb (ix2 p k)) * w0 V c (((cfg0.win 1).blk t).view.emb (ix2 k q))
    = G0 V c (((cfg0.win 2).blk t).view.emb (ix2 p q))
  unfold G0
  refine Finset.sum_congr rfl fun k _ => ?_
  -- a block's coordinate in its array: the block index times the block's size plus the coordinate inside the block
  have h0 : ((cfg0.win 0).blk t).view.emb (ix2 p k) = ix2 ((((cfg0.win 2).blk t).view.emb (ix2 p q)) 0 : Fin 100000) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1 : Fin 128) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (· * ·) (congrArg (x0 V c) h0) (congrArg (w0 V c) h1)

/-- An index of region 0's output array is in point `t`'s block iff each coordinate is in the block's range on its axis. -/
private theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v20).slice (win0_2.rect t)).set ↔ _
  rw [View.set_slice_whole, Rect.mem_set_unit]
  exact Iff.rfl

/-- Every row of region 0's output array is in the block of the point its row divided by 2000 names. -/
private theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have ht : (i 0).val / 2000 < cfg0.N := by show _ < 50; omega
  refine ⟨⟨(i 0).val / 2000, ht⟩, flush0_2 _, ?_⟩
  rw [mem_blk0]
  obtain ⟨-, -, -, -, e4, e5⟩ := idx_facts0 ⟨(i 0).val / 2000, ht⟩
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e5]; omega

/-- Region 0 (a transform): entry (i, j) is the sum over k of input (i, k) times weight (k, j). -/
theorem out0 (c : Dev nD) (i : Fin 100000) (j : Fin 128) :
    o0 V c (ix2 i j) = ∑ k : Fin 128, x0 V c (ix2 i k) * w0 V c (ix2 k j) := by
  have h := (dat0 (F := Ideal) V c).arrAt_eq_of_cover 2 (G0 V c) (fun t _ => flushed0_eq V c t) (cover0)
  exact congrFun h (ix2 i j)

/-- Region 1's summed messages, the destination norms as a column, the bias as a row, and what the region leaves. -/
abbrev x1 (c : Dev nD) : S100000x128.Idx → EReal := V c (Pipeline.arrRef spec1 0)
abbrev n1 (c : Dev nD) : S100000x1.Idx → EReal := V c (Pipeline.arrRef spec1 1)
abbrev b1 (c : Dev nD) : S1x128.Idx → EReal := V c (Pipeline.arrRef spec1 2)
abbrev o1 (c : Dev nD) : S100000x128.Idx → EReal := (dat1 (F := Ideal) V c).arrAt 3 cfg1.N

/-- Region 1's input scaled by the norms, shifted by the bias and rectified, as one function of the whole arrays. -/
private def G1 (c : Dev nD) : S100000x128.Idx → EReal :=
  fun I => max (x1 V c I * n1 V c (ix2 (I 0 : Fin 100000) (0 : Fin 1)) + b1 V c (ix2 (0 : Fin 1) (I 1 : Fin 128))) 0

/-- Region 1's index maps over the grid: the row blocks and the norm blocks move with the point, the bias stays. -/
private theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` of region 1 writes back is block `t` of that function. -/
private theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3]
  unfold out1_3
  rw [View.canon_unit_zero hz]
  simp only [View.ld_unit_zero (S := S2000x128) hz, View.ld_unit_zero (S := S2000x1) hz, View.ld_unit_zero (S := S1x128) hz]
  obtain ⟨e0, e1, e2, e3, e4, e5, e6, e7⟩ := idx_facts1 t
  funext j
  obtain ⟨p, q, rfl⟩ : ∃ (p : Fin 2000) (q : Fin 128), j = ix2 p q := ⟨j 0, j 1, eq_ix2 j⟩
  refine (pay1_apply (iblk1 V c 0 t) (iblk1 V c 1 t) (iblk1 V c 2 t) p q).trans ?_
  show max (x1 V c (((cfg1.win 0).blk t).view.emb (ix2 p q)) * n1 V c (((cfg1.win 1).blk t).view.emb (ix2 p (0 : Fin 1)))
      + b1 V c (((cfg1.win 2).blk t).view.emb (ix2 (0 : Fin 1) q))) 0
    = G1 V c (((cfg1.win 3).blk t).view.emb (ix2 p q))
  unfold G1
  have h0 : ((cfg1.win 0).blk t).view.emb (ix2 p q) = ((cfg1.win 3).blk t).view.emb (ix2 p q) := by
    funext a; apply Fin.ext
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  have h1 : ((cfg1.win 1).blk t).view.emb (ix2 p (0 : Fin 1)) = ix2 ((((cfg1.win 3).blk t).view.emb (ix2 p q)) 0 : Fin 100000) (0 : Fin 1) := by
    funext a; apply Fin.ext
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  have h2 : ((cfg1.win 2).blk t).view.emb (ix2 (0 : Fin 1) q) = ix2 (0 : Fin 1) ((((cfg1.win 3).blk t).view.emb (ix2 p q)) 1 : Fin 128) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  exact congrArg (max · 0) (congrArg₂ (· + ·) (congrArg₂ (· * ·) (congrArg (x1 V c) h0) (congrArg (n1 V c) h1)) (congrArg (b1 V c) h2))

/-- An index of region 1's output array is in point `t`'s block iff each coordinate is in the block's range on its axis. -/
private theorem mem_blk1 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v37).slice (win1_3.rect t)).set ↔ _
  rw [View.set_slice_whole, Rect.mem_set_unit]
  exact Iff.rfl

/-- Every row of region 1's output array is in the block of the point its row divided by 2000 names. -/
private theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have ht : (i 0).val / 2000 < cfg1.N := by show _ < 50; omega
  refine ⟨⟨(i 0).val / 2000, ht⟩, flush1_3 _, ?_⟩
  rw [mem_blk1]
  obtain ⟨-, -, -, -, -, -, e6, e7⟩ := idx_facts1 ⟨(i 0).val / 2000, ht⟩
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    rw [e7]; omega

/-- Region 1 (a finalize): entry (i, j) is input (i, j) times the norm of row i plus the bias of column j, rectified. -/
theorem out1 (c : Dev nD) (i : Fin 100000) (j : Fin 128) :
    o1 V c (ix2 i j) = max (x1 V c (ix2 i j) * n1 V c (ix2 i (0 : Fin 1)) + b1 V c (ix2 (0 : Fin 1) j)) 0 := by
  have h := (dat1 (F := Ideal) V c).arrAt_eq_of_cover 3 (G1 V c) (fun t _ => flushed1_eq V c t) (cover1)
  exact congrFun h (ix2 i j)

/-- Region 2's input rows, its weights, and what the region leaves in its output array. -/
abbrev x2 (c : Dev nD) : S100000x128.Idx → EReal := V c (Pipeline.arrRef spec2 0)
abbrev w2 (c : Dev nD) : S128x128.Idx → EReal := V c (Pipeline.arrRef spec2 1)
abbrev o2 (c : Dev nD) : S100000x128.Idx → EReal := (dat2 (F := Ideal) V c).arrAt 2 cfg2.N

/-- The product of region 2's input rows by its weights, as one function of the whole arrays. -/
private def G2 (c : Dev nD) : S100000x128.Idx → EReal :=
  fun I => ∑ k : Fin 128, x2 V c (ix2 (I 0 : Fin 100000) k) * w2 V c (ix2 k (I 1 : Fin 128))

/-- Region 2's index maps over the grid: the row blocks move with the point, the weights stay. -/
private theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` of region 2 writes back is block `t` of that product. -/
private theorem flushed2_eq (c : Dev nD) (t : Fin cfg2.N) :
    (dat2 (F := Ideal) V c).flushed 2 t = ((cfg2.win 2).blk t).view.read (Elt Ideal) (G2 V c) := by
  show (cfg2.win 2).cut (grid2.coords t) ((dat2 (F := Ideal) V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts2 t
  funext j
  obtain ⟨p, q, rfl⟩ : ∃ (p : Fin 2000) (q : Fin 128), j = ix2 p q := ⟨j 0, j 1, eq_ix2 j⟩
  refine (pay2_apply (iblk2 V c 0 t) (iblk2 V c 1 t) p q).trans ?_
  show ∑ k : Fin 128, x2 V c (((cfg2.win 0).blk t).view.emb (ix2 p k)) * w2 V c (((cfg2.win 1).blk t).view.emb (ix2 k q))
    = G2 V c (((cfg2.win 2).blk t).view.emb (ix2 p q))
  unfold G2
  refine Finset.sum_congr rfl fun k _ => ?_
  have h0 : ((cfg2.win 0).blk t).view.emb (ix2 p k) = ix2 ((((cfg2.win 2).blk t).view.emb (ix2 p q)) 0 : Fin 100000) k := by
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1 : Fin 128) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (· * ·) (congrArg (x2 V c) h0) (congrArg (w2 V c) h1)

/-- An index of region 2's output array is in point `t`'s block iff each coordinate is in the block's range on its axis. -/
private theorem mem_blk2 (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v38).slice (win2_2.rect t)).set ↔ _
  rw [View.set_slice_whole, Rect.mem_set_unit]
  exact Iff.rfl

/-- Every row of region 2's output array is in the block of the point its row divided by 2000 names. -/
private theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 2000 < cfg2.N := by show _ < 50; omega
  refine ⟨⟨(i 0).val / 2000, ht⟩, flush2_2 _, ?_⟩
  rw [mem_blk2]
  obtain ⟨-, -, -, -, e4, e5⟩ := idx_facts2 ⟨(i 0).val / 2000, ht⟩
  intro a
  match a with
  | ⟨0, _⟩ =>
    show win2_2.index ⟨(i 0).val / 2000, ht⟩ (0 : Fin 2) * 2000 ≤ (i 0).val ∧ (i 0).val < win2_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, ht⟩ (1 : Fin 2) * 128 ≤ (i 1).val ∧ (i 1).val < win2_2.index ⟨(i 0).val / 2000, ht⟩ (1 : Fin 2) * 128 + 128
    rw [e5]; omega

/-- Region 2 (a transform): entry (i, j) is the sum over k of input (i, k) times weight (k, j). -/
theorem out2 (c : Dev nD) (i : Fin 100000) (j : Fin 128) :
    o2 V c (ix2 i j) = ∑ k : Fin 128, x2 V c (ix2 i k) * w2 V c (ix2 k j) := by
  have h := (dat2 (F := Ideal) V c).arrAt_eq_of_cover 2 (G2 V c) (fun t _ => flushed2_eq V c t) (cover2)
  exact congrFun h (ix2 i j)

/-- Region 3's summed messages, the destination norms as a column, the bias as a row, and what the region leaves. -/
abbrev x3 (c : Dev nD) : S100000x128.Idx → EReal := V c (Pipeline.arrRef spec3 0)
abbrev n3 (c : Dev nD) : S100000x1.Idx → EReal := V c (Pipeline.arrRef spec3 1)
abbrev b3 (c : Dev nD) : S1x128.Idx → EReal := V c (Pipeline.arrRef spec3 2)
abbrev o3 (c : Dev nD) : S100000x128.Idx → EReal := (dat3 (F := Ideal) V c).arrAt 3 cfg3.N

/-- Region 3's input scaled by the norms, shifted by the bias and rectified, as one function of the whole arrays. -/
private def G3 (c : Dev nD) : S100000x128.Idx → EReal :=
  fun I => max (x3 V c I * n3 V c (ix2 (I 0 : Fin 100000) (0 : Fin 1)) + b3 V c (ix2 (0 : Fin 1) (I 1 : Fin 128))) 0

/-- Region 3's index maps over the grid: the row blocks and the norm blocks move with the point, the bias stays. -/
private theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` of region 3 writes back is block `t` of that function. -/
private theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3]
  unfold out3_3
  rw [View.canon_unit_zero hz]
  simp only [View.ld_unit_zero (S := S2000x128) hz, View.ld_unit_zero (S := S2000x1) hz, View.ld_unit_zero (S := S1x128) hz]
  obtain ⟨e0, e1, e2, e3, e4, e5, e6, e7⟩ := idx_facts3 t
  funext j
  obtain ⟨p, q, rfl⟩ : ∃ (p : Fin 2000) (q : Fin 128), j = ix2 p q := ⟨j 0, j 1, eq_ix2 j⟩
  refine (pay3_apply (iblk3 V c 0 t) (iblk3 V c 1 t) (iblk3 V c 2 t) p q).trans ?_
  show max (x3 V c (((cfg3.win 0).blk t).view.emb (ix2 p q)) * n3 V c (((cfg3.win 1).blk t).view.emb (ix2 p (0 : Fin 1)))
      + b3 V c (((cfg3.win 2).blk t).view.emb (ix2 (0 : Fin 1) q))) 0
    = G3 V c (((cfg3.win 3).blk t).view.emb (ix2 p q))
  unfold G3
  have h0 : ((cfg3.win 0).blk t).view.emb (ix2 p q) = ((cfg3.win 3).blk t).view.emb (ix2 p q) := by
    funext a; apply Fin.ext
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * q.val = win3_3.index t (1 : Fin 2) * 128 + 1 * q.val; omega
  have h1 : ((cfg3.win 1).blk t).view.emb (ix2 p (0 : Fin 1)) = ix2 ((((cfg3.win 3).blk t).view.emb (ix2 p q)) 0 : Fin 100000) (0 : Fin 1) := by
    funext a; apply Fin.ext
    match a with
    | ⟨0, _⟩ => show win3_1.index t (0 : Fin 2) * 2000 + 1 * p.val = win3_3.index t (0 : Fin 2) * 2000 + 1 * p.val; omega
    | ⟨1, _⟩ => show win3_1.index t (1 : Fin 2) * 1 + 1 * 0 = 0; omega
  have h2 : ((cfg3.win 2).blk t).view.emb (ix2 (0 : Fin 1) q) = ix2 (0 : Fin 1) ((((cfg3.win 3).blk t).view.emb (ix2 p q)) 1 : Fin 128) := by
    funext a; apply Fin.ext
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega
  exact congrArg (max · 0) (congrArg₂ (· + ·) (congrArg₂ (· * ·) (congrArg (x3 V c) h0) (congrArg (n3 V c) h1)) (congrArg (b3 V c) h2))

/-- An index of region 3's output array is in point `t`'s block iff each coordinate is in the block's range on its axis. -/
private theorem mem_blk3 (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v55).slice (win3_3.rect t)).set ↔ _
  rw [View.set_slice_whole, Rect.mem_set_unit]
  exact Iff.rfl

/-- Every row of region 3's output array is in the block of the point its row divided by 2000 names. -/
private theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have ht : (i 0).val / 2000 < cfg3.N := by show _ < 50; omega
  refine ⟨⟨(i 0).val / 2000, ht⟩, flush3_3 _, ?_⟩
  rw [mem_blk3]
  obtain ⟨-, -, -, -, -, -, e6, e7⟩ := idx_facts3 ⟨(i 0).val / 2000, ht⟩
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win3_3.index ⟨(i 0).val / 2000, ht⟩ (1 : Fin 2) * 128 ≤ (i 1).val ∧ (i 1).val < win3_3.index ⟨(i 0).val / 2000, ht⟩ (1 : Fin 2) * 128 + 128
    rw [e7]; omega

/-- Region 3 (a finalize): entry (i, j) is input (i, j) times the norm of row i plus the bias of column j, rectified. -/
theorem out3 (c : Dev nD) (i : Fin 100000) (j : Fin 128) :
    o3 V c (ix2 i j) = max (x3 V c (ix2 i j) * n3 V c (ix2 i (0 : Fin 1)) + b3 V c (ix2 (0 : Fin 1) j)) 0 := by
  have h := (dat3 (F := Ideal) V c).arrAt_eq_of_cover 3 (G3 V c) (fun t _ => flushed3_eq V c t) (cover3)
  exact congrFun h (ix2 i j)

/-- Region 4's input rows, its weights, and what the region leaves in its output array. -/
abbrev x4 (c : Dev nD) : S100000x128.Idx → EReal := V c (Pipeline.arrRef spec4 0)
abbrev w4 (c : Dev nD) : S128x40.Idx → EReal := V c (Pipeline.arrRef spec4 1)
abbrev o4 (c : Dev nD) : S100000x40.Idx → EReal := (dat4 (F := Ideal) V c).arrAt 2 cfg4.N

/-- The product of region 4's input rows by its 40-column weights, as one function of the whole arrays. -/
private def G4 (c : Dev nD) : S100000x40.Idx → EReal :=
  fun I => ∑ k : Fin 128, x4 V c (ix2 (I 0 : Fin 100000) k) * w4 V c (ix2 k (I 1 : Fin 40))

/-- Region 4's index maps over the grid: the row blocks move with the point, the weights stay. -/
private theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` of region 4 writes back is block `t` of that product. -/
private theorem flushed4_eq (c : Dev nD) (t : Fin cfg4.N) :
    (dat4 (F := Ideal) V c).flushed 2 t = ((cfg4.win 2).blk t).view.read (Elt Ideal) (G4 V c) := by
  show (cfg4.win 2).cut (grid4.coords t) ((dat4 (F := Ideal) V c).after 2 t) = _
  rw [after4_2]
  unfold out4_2
  rw [View.canon_unit_zero hz]
  simp only [View.ld_unit_zero (S := S2000x128) hz, View.ld_unit_zero (S := S128x40) hz]
  obtain ⟨e0, e1, e2, e3, e4, e5⟩ := idx_facts4 t
  funext j
  obtain ⟨p, q, rfl⟩ : ∃ (p : Fin 2000) (q : Fin 40), j = ix2 p q := ⟨j 0, j 1, eq_ix2 j⟩
  refine (pay4_apply (iblk4 V c 0 t) (iblk4 V c 1 t) p q).trans ?_
  show ∑ k : Fin 128, x4 V c (((cfg4.win 0).blk t).view.emb (ix2 p k)) * w4 V c (((cfg4.win 1).blk t).view.emb (ix2 k q))
    = G4 V c (((cfg4.win 2).blk t).view.emb (ix2 p q))
  unfold G4
  refine Finset.sum_congr rfl fun k _ => ?_
  have h0 : ((cfg4.win 0).blk t).view.emb (ix2 p k) = ix2 ((((cfg4.win 2).blk t).view.emb (ix2 p q)) 0 : Fin 100000) k := by
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  have h1 : ((cfg4.win 1).blk t).view.emb (ix2 k q) = ix2 k ((((cfg4.win 2).blk t).view.emb (ix2 p q)) 1 : Fin 40) := by
    funext a; apply Fin.ext
    match a with
    | ⟨0, _⟩ => show win4_1.index t (0 : Fin 2) * 128 + 1 * k.val = k.val; omega
    | ⟨1, _⟩ => show win4_1.index t (1 : Fin 2) * 40 + 1 * q.val = win4_2.index t (1 : Fin 2) * 40 + 1 * q.val; omega
  exact congrArg₂ (· * ·) (congrArg (x4 V c) h0) (congrArg (w4 V c) h1)

/-- An index of region 4's output array is in point `t`'s block iff each coordinate is in the block's range on its axis. -/
private theorem mem_blk4 (t : Fin cfg4.N) (i : S100000x40.Idx) :
    i ∈ ((cfg4.win 2).blk t).view.set ↔ ∀ a : Fin 2, win4_2.index t a * S2000x40.size a ≤ (i a).val ∧ (i a).val < win4_2.index t a * S2000x40.size a + S2000x40.size a := by
  show i ∈ ((View.whole main_v56).slice (win4_2.rect t)).set ↔ _
  rw [View.set_slice_whole, Rect.mem_set_unit]
  exact Iff.rfl

/-- Every row of region 4's output array is in the block of the point its row divided by 2000 names. -/
private theorem cover4 (i : S100000x40.Idx) : ∃ t : Fin cfg4.N, (cfg4.win 2).flush t = true ∧ i ∈ ((cfg4.win 2).blk t).view.set := by
  have hi0 : (i 0).val < 100000 := (i 0).isLt
  have hi1 : (i 1).val < 40 := (i 1).isLt
  have ht : (i 0).val / 2000 < cfg4.N := by show _ < 50; omega
  refine ⟨⟨(i 0).val / 2000, ht⟩, flush4_2 _, ?_⟩
  rw [mem_blk4]
  obtain ⟨-, -, -, -, e4, e5⟩ := idx_facts4 ⟨(i 0).val / 2000, ht⟩
  intro a
  match a with
  | ⟨0, _⟩ =>
    show win4_2.index ⟨(i 0).val / 2000, ht⟩ (0 : Fin 2) * 2000 ≤ (i 0).val ∧ (i 0).val < win4_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win4_2.index ⟨(i 0).val / 2000, ht⟩ (1 : Fin 2) * 40 ≤ (i 1).val ∧ (i 1).val < win4_2.index ⟨(i 0).val / 2000, ht⟩ (1 : Fin 2) * 40 + 40
    rw [e5]; omega

/-- Region 4 (a transform): entry (i, j) is the sum over k of input (i, k) times weight (k, j). -/
theorem out4 (c : Dev nD) (i : Fin 100000) (j : Fin 40) :
    o4 V c (ix2 i j) = ∑ k : Fin 128, x4 V c (ix2 i k) * w4 V c (ix2 k j) := by
  have h := (dat4 (F := Ideal) V c).arrAt_eq_of_cover 2 (G4 V c) (fun t _ => flushed4_eq V c t) (cover4)
  exact congrFun h (ix2 i j)

/-- Region 5's summed messages, the destination norms as a column, the bias as a row, and what the region leaves. -/
abbrev x5 (c : Dev nD) : S100000x40.Idx → EReal := V c (Pipeline.arrRef spec5 0)
abbrev n5 (c : Dev nD) : S100000x1.Idx → EReal := V c (Pipeline.arrRef spec5 1)
abbrev b5 (c : Dev nD) : S1x40.Idx → EReal := V c (Pipeline.arrRef spec5 2)
abbrev o5 (c : Dev nD) : S100000x40.Idx → EReal := (dat5 (F := Ideal) V c).arrAt 3 cfg5.N

/-- Region 5's input scaled by the norms and shifted by the bias, as one function of the whole arrays. -/
private def G5 (c : Dev nD) : S100000x40.Idx → EReal :=
  fun I => x5 V c I * n5 V c (ix2 (I 0 : Fin 100000) (0 : Fin 1)) + b5 V c (ix2 (0 : Fin 1) (I 1 : Fin 40))

/-- Region 5's index maps over the grid: the row blocks and the norm blocks move with the point, the bias stays. -/
private theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` of region 5 writes back is block `t` of that function. -/
private theorem flushed5_eq (c : Dev nD) (t : Fin cfg5.N) :
    (dat5 (F := Ideal) V c).flushed 3 t = ((cfg5.win 3).blk t).view.read (Elt Ideal) (G5 V c) := by
  show (cfg5.win 3).cut (grid5.coords t) ((dat5 (F := Ideal) V c).after 3 t) = _
  rw [after5_3]
  unfold out5_3
  rw [View.canon_unit_zero hz]
  simp only [View.ld_unit_zero (S := S2000x40) hz, View.ld_unit_zero (S := S2000x1) hz, View.ld_unit_zero (S := S1x40) hz]
  obtain ⟨e0, e1, e2, e3, e4, e5, e6, e7⟩ := idx_facts5 t
  funext j
  obtain ⟨p, q, rfl⟩ : ∃ (p : Fin 2000) (q : Fin 40), j = ix2 p q := ⟨j 0, j 1, eq_ix2 j⟩
  refine (pay5_apply (iblk5 V c 0 t) (iblk5 V c 1 t) (iblk5 V c 2 t) p q).trans ?_
  show x5 V c (((cfg5.win 0).blk t).view.emb (ix2 p q)) * n5 V c (((cfg5.win 1).blk t).view.emb (ix2 p (0 : Fin 1)))
      + b5 V c (((cfg5.win 2).blk t).view.emb (ix2 (0 : Fin 1) q))
    = G5 V c (((cfg5.win 3).blk t).view.emb (ix2 p q))
  unfold G5
  have h0 : ((cfg5.win 0).blk t).view.emb (ix2 p q) = ((cfg5.win 3).blk t).view.emb (ix2 p q) := by
    funext a; apply Fin.ext
    match a with
    | ⟨0, _⟩ => show win5_0.index t (0 : Fin 2) * 2000 + 1 * p.val = win5_3.index t (0 : Fin 2) * 2000 + 1 * p.val; omega
    | ⟨1, _⟩ => show win5_0.index t (1 : Fin 2) * 40 + 1 * q.val = win5_3.index t (1 : Fin 2) * 40 + 1 * q.val; omega
  have h1 : ((cfg5.win 1).blk t).view.emb (ix2 p (0 : Fin 1)) = ix2 ((((cfg5.win 3).blk t).view.emb (ix2 p q)) 0 : Fin 100000) (0 : Fin 1) := by
    funext a; apply Fin.ext
    match a with
    | ⟨0, _⟩ => show win5_1.index t (0 : Fin 2) * 2000 + 1 * p.val = win5_3.index t (0 : Fin 2) * 2000 + 1 * p.val; omega
    | ⟨1, _⟩ => show win5_1.index t (1 : Fin 2) * 1 + 1 * 0 = 0; omega
  have h2 : ((cfg5.win 2).blk t).view.emb (ix2 (0 : Fin 1) q) = ix2 (0 : Fin 1) ((((cfg5.win 3).blk t).view.emb (ix2 p q)) 1 : Fin 40) := by
    funext a; apply Fin.ext
    match a with
    | ⟨0, _⟩ => show win5_2.index t (0 : Fin 2) * 1 + 1 * 0 = 0; omega
    | ⟨1, _⟩ => show win5_2.index t (1 : Fin 2) * 40 + 1 * q.val = win5_3.index t (1 : Fin 2) * 40 + 1 * q.val; omega
  exact congrArg₂ (· + ·) (congrArg₂ (· * ·) (congrArg (x5 V c) h0) (congrArg (n5 V c) h1)) (congrArg (b5 V c) h2)

/-- An index of region 5's output array is in point `t`'s block iff each coordinate is in the block's range on its axis. -/
private theorem mem_blk5 (t : Fin cfg5.N) (i : S100000x40.Idx) :
    i ∈ ((cfg5.win 3).blk t).view.set ↔ ∀ a : Fin 2, win5_3.index t a * S2000x40.size a ≤ (i a).val ∧ (i a).val < win5_3.index t a * S2000x40.size a + S2000x40.size a := by
  show i ∈ ((View.whole main_v73).slice (win5_3.rect t)).set ↔ _
  rw [View.set_slice_whole, Rect.mem_set_unit]
  exact Iff.rfl

/-- Every row of region 5's output array is in the block of the point its row divided by 2000 names. -/
private theorem cover5 (i : S100000x40.Idx) : ∃ t : Fin cfg5.N, (cfg5.win 3).flush t = true ∧ i ∈ ((cfg5.win 3).blk t).view.set := by
  have hi0 : (i 0).val < 100000 := (i 0).isLt
  have hi1 : (i 1).val < 40 := (i 1).isLt
  have ht : (i 0).val / 2000 < cfg5.N := by show _ < 50; omega
  refine ⟨⟨(i 0).val / 2000, ht⟩, flush5_3 _, ?_⟩
  rw [mem_blk5]
  obtain ⟨-, -, -, -, -, -, e6, e7⟩ := idx_facts5 ⟨(i 0).val / 2000, ht⟩
  intro a
  match a with
  | ⟨0, _⟩ =>
    show win5_3.index ⟨(i 0).val / 2000, ht⟩ (0 : Fin 2) * 2000 ≤ (i 0).val ∧ (i 0).val < win5_3.index ⟨(i 0).val / 2000, ht⟩ (0 : Fin 2) * 2000 + 2000
    rw [e6]; show (i 0).val / 2000 * 2000 ≤ (i 0).val ∧ (i 0).val < (i 0).val / 2000 * 2000 + 2000; omega
  | ⟨1, _⟩ =>
    show win5_3.index ⟨(i 0).val / 2000, ht⟩ (1 : Fin 2) * 40 ≤ (i 1).val ∧ (i 1).val < win5_3.index ⟨(i 0).val / 2000, ht⟩ (1 : Fin 2) * 40 + 40
    rw [e7]; omega

/-- Region 5 (a finalize): entry (i, j) is input (i, j) times the norm of row i plus the bias of column j. -/
theorem out5 (c : Dev nD) (i : Fin 100000) (j : Fin 40) :
    o5 V c (ix2 i j) = x5 V c (ix2 i j) * n5 V c (ix2 i (0 : Fin 1)) + b5 V c (ix2 (0 : Fin 1) j) := by
  have h := (dat5 (F := Ideal) V c).arrAt_eq_of_cover 3 (G5 V c) (fun t _ => flushed5_eq V c t) (cover5)
  exact congrFun h (ix2 i j)

end Cert.KernelIdeal.RegVal

end
-- ==== Proof.LibGatherRows.lean ====
/-
  A ROW GATHER read at an entry. The gather that takes whole rows of an [N × C] table — one start index per result row,
  kept in an [n × 1] column; the table's row axis collapsed and start-indexed, its column axis the one offset axis; no
  batching axes — reads, at result entry (e, k), the table's entry (row e, k): the row depends on the result's row
  alone (through the column's word at row `e`, read signed and clamped into the table), and the column is kept.
-/
import Idealize.ShloMosaic.PureOps.ShapeOps
import Idealize.ShloMosaic.Lib.ValueIdx

namespace Idealize.ShloMosaic.GatherRows

open Idealize.ShloMosaic Idealize.ShloMosaic.ValueIdx

variable {N C n w : Nat}

/-- The table row that result row `e` reads: the start index at row `e` of the column, signed, clamped into the table. -/
def row (d : GatherDims ⟨2, ![N, C]⟩ ⟨2, ![n, 1]⟩ ⟨2, ![n, C]⟩) (idx : IVec ⟨2, ![n, 1]⟩ w) (hN : 0 < N) (e : Fin n) : Fin N :=
  ⟨min (idx (ix2 e (0 : Fin 1))).toInt.toNat (N - 1), by omega⟩

/-- An entry of a list that is a singleton is that singleton's element, at whatever position it is read. -/
private theorem getElem_of_eq_singleton {β : Type} {l : List β} {b : β} (h : l = [b]) (i : Nat) (hi : i < l.length) :
    l[i] = b := by
  subst h
  have : i = 0 := by simpa using hi
  subst this
  rfl

/-- Result entry (e, k) of the row gather is the table's entry (row e, k). -/
theorem gather_apply {α : Type} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (k : Fin C) :
    Host.gather d x idx (ix2 e k) = x (ix2 (row d idx hN e) k) := by
  unfold Host.gather
  congr 1
  funext a
  apply Fin.ext
  have hb : ∀ a, a ∉ d.operandBatchingDims := by rw [hob]; intro a; exact List.not_mem_nil
  -- the result's batch axes: the one axis that is not an offset axis
  have hbd : d.batchDims = [0] := by
    show (⟨2, ![n, C]⟩ : Shape).kept d.offsetDims = [0]
    rw [hoff]; rfl
  -- the table's kept axes: the one axis that is not collapsed
  have hsk : d.sKept = [1] := by
    show (⟨2, ![N, C]⟩ : Shape).kept (d.collapsedSliceDims ++ d.operandBatchingDims) = [1]
    rw [hcoll, hob]; rfl
  -- the start index of result row `e` sits at (e, 0) of the column, whichever component is asked for
  have hsi : ∀ c, d.siIdx (ix2 e k) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show c.val = 0
      have hlen : d.startIndexMap.length = 1 := by rw [hsim]; rfl
      have hc : c.val < d.startIndexMap.length := c.isLt
      omega
  have ha : a = 0 ∨ a = 1 := by
    rcases a with ⟨v, hv⟩
    change v < 2 at hv
    rcases (by omega : v = 0 ∨ v = 1) with rfl | rfl
    · left; rfl
    · right; rfl
  rcases ha with rfl | rfl
  · -- the row axis: collapsed and start-indexed; no batching, no offset; the clamp leaves room for a slice of one row
    have hk : (0 : Fin 2) ∉ d.sKept := by rw [hsk]; simp
    have hm : (0 : Fin 2) ∈ d.startIndexMap := by rw [hsim]; exact List.mem_singleton.mpr rfl
    simp only [GatherDims.operandIdx, GatherDims.batchCoord_eq_zero _ _ _ (hb _), GatherDims.offCoord_eq_zero _ _ _ hk,
      Nat.add_zero, GatherDims.start, dif_pos hm, hsi]
    rw [hss]
    rfl
  · -- the column axis: not start-indexed (start 0), no batching; the one offset axis carries the result's column
    have hk : (1 : Fin 2) ∈ d.sKept := by rw [hsk]; simp
    have hm : (1 : Fin 2) ∉ d.startIndexMap := by rw [hsim]; simp
    simp only [GatherDims.operandIdx, GatherDims.batchCoord_eq_zero _ _ _ (hb _), GatherDims.offCoord, dif_pos hk,
      Nat.add_zero, GatherDims.start, dif_neg hm, Nat.zero_add]
    rw [getElem_of_eq_singleton hoff]
    rfl

end Idealize.ShloMosaic.GatherRows
-- ==== Proof.LibGatherVec.lean ====
/-
  A GATHER OF ENTRIES OF A VECTOR read at an entry. The gather that takes single entries of a length-N table — one start
  index per result entry, kept in an [n × 1] column; the table's one axis collapsed and start-indexed; no offset axes, no
  batching axes — reads, at result entry e, the table's entry at the column's word at row `e`, read signed and clamped
  into the table.
-/
import Idealize.ShloMosaic.PureOps.ShapeOps
import Idealize.ShloMosaic.Lib.ValueIdx

namespace Idealize.ShloMosaic.GatherVec

open Idealize.ShloMosaic Idealize.ShloMosaic.ValueIdx

variable {N n w : Nat}

/-- An entry of a list that is a singleton is that singleton's element, at whatever position it is read. -/
private theorem getElem_of_eq_singleton {β : Type} {l : List β} {b : β} (h : l = [b]) (i : Nat) (hi : i < l.length) :
    l[i] = b := by
  subst h
  have : i = 0 := by simpa using hi
  subst this
  rfl

/-- Result entry e of the entry gather is the table's entry at the clamped start index of row e. -/
theorem gather_apply {α : Type} (d : GatherDims ⟨1, ![N]⟩ ⟨2, ![n, 1]⟩ ⟨1, ![n]⟩)
    (hoff : d.offsetDims = []) (hcoll : d.collapsedSliceDims = [0]) (hob : d.operandBatchingDims = [])
    (hsb : d.startIndicesBatchingDims = []) (hsim : d.startIndexMap = [0]) (hivd : d.indexVectorDim = 1)
    (hss : d.sliceSizes = ![1]) (hN : 0 < N)
    (x : (⟨1, ![N]⟩ : Shape).Idx → α) (idx : IVec ⟨2, ![n, 1]⟩ w) (e : Fin n) :
    Host.gather d x idx (ix1 e)
      = x (ix1 (⟨min (idx (ix2 e (0 : Fin 1))).toInt.toNat (N - 1), by omega⟩ : Fin N)) := by
  unfold Host.gather
  congr 1
  funext a
  apply Fin.ext
  have hb : ∀ a, a ∉ d.operandBatchingDims := by rw [hob]; intro a; exact List.not_mem_nil
  -- the result's batch axes: its one axis, there being no offset axis
  have hbd : d.batchDims = [0] := by
    show (⟨1, ![n]⟩ : Shape).kept d.offsetDims = [0]
    rw [hoff]; rfl
  -- the table's kept axes: none, its one axis being collapsed
  have hsk : d.sKept = [] := by
    show (⟨1, ![N]⟩ : Shape).kept (d.collapsedSliceDims ++ d.operandBatchingDims) = []
    rw [hcoll, hob]; rfl
  -- the start index of result entry `e` sits at (e, 0) of the column, whichever component is asked for
  have hsi : ∀ c, d.siIdx (ix1 e) c = ix2 e (0 : Fin 1) := by
    intro c
    funext b
    match b with
    | ⟨0, _⟩ =>
      unfold GatherDims.siIdx
      rw [dif_neg (by rw [hivd]; simp)]
      unfold GatherDims.siCoord
      apply Fin.ext
      simp only [Fin.val_cast]
      rw [getElem_of_eq_singleton hbd]
      rfl
    | ⟨1, _⟩ =>
      unfold GatherDims.siIdx
      rw [dif_pos (by rw [hivd])]
      apply Fin.ext
      show c.val = 0
      have hlen : d.startIndexMap.length = 1 := by rw [hsim]; rfl
      have hc : c.val < d.startIndexMap.length := c.isLt
      omega
  have ha : a = 0 := by
    rcases a with ⟨v, hv⟩
    change v < 1 at hv
    apply Fin.ext
    show v = 0
    omega
  subst ha
  -- the one axis: collapsed and start-indexed; no batching, no offset; the clamp leaves room for a slice of one entry
  have hk : (0 : Fin 1) ∉ d.sKept := by rw [hsk]; simp
  have hm : (0 : Fin 1) ∈ d.startIndexMap := by rw [hsim]; exact List.mem_singleton.mpr rfl
  simp only [GatherDims.operandIdx, GatherDims.batchCoord_eq_zero _ _ _ (hb _), GatherDims.offCoord_eq_zero _ _ _ hk,
    Nat.add_zero, GatherDims.start, dif_pos hm, hsi]
  rw [hss]
  rfl

end Idealize.ShloMosaic.GatherVec
-- ==== Proof.LibScatterRows.lean ====
/-
  A ROW SCATTER-ADD read at an entry. The scatter that adds whole rows of an [n × C] table of updates into an [N × C]
  operand — one start index per update row, kept in an [n × 1] column; the operand's row axis inserted and start-indexed,
  its column axis the one window axis — holds, at operand entry (i, c), the operand's entry plus the sum of the updates'
  entries (e, c) over the update rows `e` whose start index, read signed and NOT clamped, is `i`: an update row whose
  start index names no operand row contributes nothing, and the column is kept.
-/
import Idealize.ShloMosaic.PureOps.Ideal
import Idealize.ShloMosaic.Lib.ValueIdx

noncomputable section

namespace Idealize.ShloMosaic.ScatterRows

open Idealize.ShloMosaic Idealize.ShloMosaic.ValueIdx

variable {N C n w : Nat}

/-- An entry of a list that is a singleton is that singleton's element, at whatever position it is read. -/
private theorem getElem_of_eq_singleton {β : Type} {l : List β} {b : β} (h : l = [b]) (i : Nat) (hi : i < l.length) :
    l[i] = b := by
  subst h
  have : i = 0 := by simpa using hi
  subst this
  rfl

section Axes

variable (d : ScatterDims ⟨2, ![N, C]⟩ ⟨2, ![n, 1]⟩ ⟨2, ![n, C]⟩)

/-- The operand's kept axes: the one axis that is not inserted, the column axis. -/
private theorem sKept_eq (hiw : d.insertedWindowDims = [0]) : d.sKept = [1] := by
  show (⟨2, ![N, C]⟩ : Shape).kept d.insertedWindowDims = [1]
  rw [hiw]; rfl

/-- The updates' scatter axes: the one axis that is not a window axis, the row axis. -/
private theorem uScatter_eq (huw : d.updateWindowDims = [1]) : d.uScatter = [0] := by
  show (⟨2, ![n, C]⟩ : Shape).kept d.updateWindowDims = [0]
  rw [huw]; rfl

/-- The scatter indices' axes but the index vector's: the row axis. -/
private theorem siKept_eq (hivd : d.indexVectorDim = 1) : d.siKept = [0] := by
  show (List.finRange 2).filter (fun b : Fin 2 => b.val ≠ d.indexVectorDim) = [0]
  rw [hivd]; rfl

/-- The start index of update row `e` sits at (e, 0) of the column, whichever component is asked for. -/
private theorem siIdx_eq (huw : d.updateWindowDims = [1]) (hsd : d.scatterDimsToOperandDims = [0]) (hivd : d.indexVectorDim = 1)
    (e : Fin n) (k : Fin C) (q : Fin d.scatterDimsToOperandDims.length) :
    d.siIdx (ix2 e k) q = ix2 e (0 : Fin 1) := by
  funext b
  match b with
  | ⟨0, _⟩ =>
    unfold ScatterDims.siIdx
    rw [dif_neg (by rw [hivd]; simp)]
    unfold ScatterDims.siCoord
    apply Fin.ext
    simp only [Fin.val_cast]
    rw [getElem_of_eq_singleton (uScatter_eq d huw)]
    rfl
  | ⟨1, _⟩ =>
    unfold ScatterDims.siIdx
    rw [dif_pos (by rw [hivd])]
    apply Fin.ext
    show q.val = 0
    have hlen : d.scatterDimsToOperandDims.length = 1 := by rw [hsd]; rfl
    have hq : q.val < d.scatterDimsToOperandDims.length := q.isLt
    omega

/-- On the row axis the window starts at the signed word at (e, 0) of the column. -/
private theorem start_zero (huw : d.updateWindowDims = [1]) (hsd : d.scatterDimsToOperandDims = [0]) (hivd : d.indexVectorDim = 1)
    (idx : IVec ⟨2, ![n, 1]⟩ w) (e : Fin n) (k : Fin C) :
    d.start (ix2 e k) idx 0 = (idx (ix2 e (0 : Fin 1))).toInt := by
  have hm : (0 : Fin 2) ∈ d.scatterDimsToOperandDims := by rw [hsd]; exact List.mem_singleton.mpr rfl
  unfold ScatterDims.start
  rw [dif_pos hm, siIdx_eq d huw hsd hivd]

/-- On the column axis, which the map does not name, the window starts at 0. -/
private theorem start_one (hsd : d.scatterDimsToOperandDims = [0]) (idx : IVec ⟨2, ![n, 1]⟩ w) (j : (⟨2, ![n, C]⟩ : Shape).Idx) :
    d.start j idx 1 = 0 := by
  have hm : (1 : Fin 2) ∉ d.scatterDimsToOperandDims := by rw [hsd]; simp
  unfold ScatterDims.start
  rw [dif_neg hm]

/-- On the row axis, an inserted one, the window coordinate is 0. -/
private theorem window_zero (hiw : d.insertedWindowDims = [0]) (j : (⟨2, ![n, C]⟩ : Shape).Idx) : d.window j 0 = 0 := by
  have hk : (0 : Fin 2) ∉ d.sKept := by rw [sKept_eq d hiw]; simp
  unfold ScatterDims.window
  rw [dif_neg hk]

/-- On the column axis the window coordinate is the update's column. -/
private theorem window_one (huw : d.updateWindowDims = [1]) (hiw : d.insertedWindowDims = [0]) (e : Fin n) (k : Fin C) :
    d.window (ix2 e k) 1 = k.val := by
  have hk : (1 : Fin 2) ∈ d.sKept := by rw [sKept_eq d hiw]; simp
  unfold ScatterDims.window
  rw [dif_pos hk, getElem_of_eq_singleton huw]
  rfl

/-- Update entry (e, k) lands at operand entry (i, c) exactly when its start index is `i` and its column is `c`. -/
private theorem resultIdx?_eq_some_iff (huw : d.updateWindowDims = [1]) (hiw : d.insertedWindowDims = [0])
    (hsd : d.scatterDimsToOperandDims = [0]) (hivd : d.indexVectorDim = 1)
    (idx : IVec ⟨2, ![n, 1]⟩ w) (e : Fin n) (k : Fin C) (i : Fin N) (c : Fin C) :
    d.resultIdx? (ix2 e k) idx = some (ix2 i c) ↔ (idx (ix2 e (0 : Fin 1))).toInt = (i.val : Int) ∧ k = c := by
  have h0 : d.start (ix2 e k) idx 0 + d.window (ix2 e k) 0 = (idx (ix2 e (0 : Fin 1))).toInt := by
    rw [start_zero d huw hsd hivd, window_zero d hiw]; simp
  have h1 : d.start (ix2 e k) idx 1 + d.window (ix2 e k) 1 = (k.val : Int) := by
    rw [start_one d hsd, window_one d huw hiw]; simp
  have hN : (⟨2, ![N, C]⟩ : Shape).size 0 = N := rfl
  have hC : (⟨2, ![N, C]⟩ : Shape).size 1 = C := rfl
  have hi : i.val < N := i.isLt
  have hkC : k.val < C := k.isLt
  unfold ScatterDims.resultIdx?
  split
  · rename_i h
    rw [Option.some.injEq]
    constructor
    · intro hf
      have e0 := congrArg Fin.val (congrFun hf 0)
      have e1 := congrArg Fin.val (congrFun hf 1)
      have p0 := (h 0).1
      simp only [h0] at e0 p0
      simp only [h1] at e1
      change (idx (ix2 e (0 : Fin 1))).toInt.toNat = i.val at e0
      change (k.val : Int).toNat = c.val at e1
      refine ⟨by omega, Fin.ext (by omega)⟩
    · rintro ⟨hr, rfl⟩
      funext a
      match a with
      | ⟨0, _⟩ =>
        apply Fin.ext
        show (d.start (ix2 e k) idx 0 + d.window (ix2 e k) 0).toNat = i.val
        rw [h0, hr]; simp
      | ⟨1, _⟩ =>
        apply Fin.ext
        show (d.start (ix2 e k) idx 1 + d.window (ix2 e k) 1).toNat = k.val
        rw [h1]; simp
  · rename_i h
    constructor
    · intro hf; exact absurd hf (by simp)
    · rintro ⟨hr, rfl⟩
      exfalso
      apply h
      intro a
      match a with
      | ⟨0, _⟩ =>
        show 0 ≤ d.start (ix2 e k) idx 0 + d.window (ix2 e k) 0 ∧ d.start (ix2 e k) idx 0 + d.window (ix2 e k) 0 < ((⟨2, ![N, C]⟩ : Shape).size 0 : Int)
        rw [h0, hr, hN]; omega
      | ⟨1, _⟩ =>
        show 0 ≤ d.start (ix2 e k) idx 1 + d.window (ix2 e k) 1 ∧ d.start (ix2 e k) idx 1 + d.window (ix2 e k) 1 < ((⟨2, ![N, C]⟩ : Shape).size 1 : Int)
        rw [h1, hC]; omega

end Axes

/-- Operand entry (i, c) of the row scatter-add: the operand's entry plus the updates of the rows that land on row `i`. -/
theorem scatterAdd_apply (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (c : Fin C) :
    Ideal.hostScatterAdd d x idx upd (ix2 i c)
      = x (ix2 i c) + ∑ e ∈ Finset.univ.filter (fun e : Fin n => (idx (ix2 e (0 : Fin 1))).toInt = (i.val : Int)), upd (ix2 e c) := by
  unfold Ideal.hostScatterAdd
  congr 1
  symm
  -- the update entries that land on (i, c) are the entries (e, c) of the rows `e` whose start index is `i`
  apply Finset.sum_bij (fun e _ => ix2 e c)
  · intro e he
    have hr := (Finset.mem_filter.1 he).2
    exact Finset.mem_filter.2 ⟨Finset.mem_univ _, (resultIdx?_eq_some_iff d huw hiw hsd hivd idx e c i c).2 ⟨hr, rfl⟩⟩
  · intro a _ b _ hab
    exact congrFun hab 0
  · intro j hj
    obtain ⟨e, k, rfl⟩ : ∃ e k, j = ix2 e k := ⟨j 0, j 1, eq_ix2 j⟩
    obtain ⟨hr, rfl⟩ := (resultIdx?_eq_some_iff d huw hiw hsd hivd idx e k i c).1 (Finset.mem_filter.1 hj).2
    exact ⟨e, Finset.mem_filter.2 ⟨Finset.mem_univ _, hr⟩, rfl⟩
  · intro e _
    rfl

end Idealize.ShloMosaic.ScatterRows

end
-- ==== Proof.LibMask.lean ====
/-
  A FILLED TAKE whose indices are all in range is the plain gather. Three small facts:
  a `select` under a mask that is 1 everywhere is its first branch; a reduce by `and` of words that are all 1, from 1,
  is 1; and for a 32-bit word `a` with `0 ≤ a < 100000` (signed) the wrap of negatives leaves `a` alone and the
  range test `0 ≤ a ≤ 99999` holds.
-/
import Idealize.ShloMosaic.PureOps.Reduce
import Idealize.ShloMosaic.PureOps.Vector
import Idealize.ShloMosaic.Lib.Affine
import Idealize.ShloMosaic.Lib.ValueIdx

namespace Idealize.ShloMosaic.TakeMask

open Idealize.ShloMosaic

/-- Under a mask that is 1 at every index a `select` is its first branch. -/
theorem select_of_all_one {s : Shape} {α : Type} (c : IVec s 1) (a b : s.Idx → α) (h : ∀ i, c i = 1#1) :
    select c a b = a := by
  funext i
  show Scalar.select (c i) (a i) (b i) = a i
  rw [h i]
  exact ValueIdx.select_one _ _

/-- A left fold by `and` from 1 over any list of positions, when the word at every position is 1, stays 1. -/
private theorem foldl_andi_of_all_one {ι : Type} (x : ι → BitVec 1) (hx : ∀ i, x i = 1#1) (l : List ι) :
    l.foldl (fun r i => IntOp.andi r (x i)) 1#1 = 1#1 := by
  induction l with
  | nil => rfl
  | cons a l ih =>
    rw [List.foldl_cons, hx a]
    have h11 : IntOp.andi 1#1 1#1 = 1#1 := by decide
    rw [h11]
    exact ih

/-- A reduce by `and` from 1 of words that are all 1 is 1. -/
theorem reduce_andi_of_all_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl, hinit]
  exact foldl_andi_of_all_one x hx _

/-- A word in `[0, 100000)` is not negative: the wrap `a < 0 ? a + 100000 : a` is `a`. -/
theorem wrap_eq_self (a : BitVec 32) (h0 : IntOp.cmpi .sge a 0#32 = 1#1) :
    Scalar.select (IntOp.cmpi .slt a 0#32) (IntOp.addi a 100000#32) a = a := by
  have hz : (0#32 : BitVec 32).toInt = 0 := by decide
  have hge : (0#32 : BitVec 32).toInt ≤ a.toInt := IntOp.cmpi_sge.mp h0
  have hlt : ¬ IntOp.cmpi .slt a 0#32 = 1#1 := by
    rw [IntOp.cmpi_slt]
    omega
  rw [ValueIdx.eq_zero_of_ne_one hlt]
  exact ValueIdx.select_zero _ _

/-- A word in `[0, 100000)` passes the range test `0 ≤ a ∧ a ≤ 99999`. -/
theorem inrange_of_pre (a : BitVec 32) (h0 : IntOp.cmpi .sge a 0#32 = 1#1) (h1 : IntOp.cmpi .slt a 100000#32 = 1#1) :
    IntOp.andi (IntOp.cmpi .sge a 0#32) (IntOp.cmpi .sle a 99999#32) = 1#1 := by
  rw [IntOp.andi_eq_one]
  refine ⟨h0, ?_⟩
  rw [IntOp.cmpi_sle]
  have hlt : a.toInt < (100000#32 : BitVec 32).toInt := IntOp.cmpi_slt.mp h1
  have e1 : (100000#32 : BitVec 32).toInt = 100000 := by decide
  have e2 : (99999#32 : BitVec 32).toInt = 99999 := by decide
  omega

end Idealize.ShloMosaic.TakeMask
-- ==== Proof.LibTRef.lean ====
/-
  A typed reference's two transports cancel. A module-local function's operation reads each operand by carrying the
  buffer's contents to the value's type and writes its result by carrying it back; the value's type IS the buffer's, so a
  result read by the next operation is the value itself.
-/
import Idealize.ShloMosaic.Lib.StableHlo

namespace Idealize.ShloMosaic.StableHlo.TRef

/-- Contents carried to a buffer's own type and back are themselves. -/
theorem ofBuf_toBuf {sig : RefSig} {T : BufTy} {Val : EltTy → Type} (x : TRef sig T) (v : T.Contents Val) :
    x.ofBuf (x.toBuf v) = v := by
  obtain ⟨r, h, h2, h3⟩ := x
  subst h
  rfl

end Idealize.ShloMosaic.StableHlo.TRef
-- ==== Proof.KLayer1.lean ====
/-
  LAYER 1 OF THE KERNEL PROGRAM, from the arrays it starts from to the features its finalize region leaves.

  The transform region leaves y = h · W. On the host the rows of y are taken at the edges' source words (negative words
  wrapped, words out of range filled: under the precondition every source word is a node's number, so the wrap does
  nothing, the range mask is 1 everywhere and the take is the plain row gather), each taken row is scaled by the source
  norm gathered at the same word, the scaled rows are summed into zeros at the rows the destination words name, the
  destination norm is reshaped to a column and the bias to a row, and the finalize region scales row i by the norm of
  node i, adds the bias and rectifies. Entry by entry this is the layer with the weights applied before the edges are
  followed.
-/
import proofs.«421580_j45810121179684_1_alg».proof.Proof.KDefs
import proofs.«421580_j45810121179684_1_alg».proof.Proof.KRegions
import proofs.«421580_j45810121179684_1_alg».proof.Proof.LibGatherRows
import proofs.«421580_j45810121179684_1_alg».proof.Proof.LibGatherVec
import proofs.«421580_j45810121179684_1_alg».proof.Proof.LibScatterRows
import proofs.«421580_j45810121179684_1_alg».proof.Proof.LibMask
import proofs.«421580_j45810121179684_1_alg».proof.Proof.LibTRef

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The host stretches' terms, named -/

/-- A vector as a column: entry (e, 0) is the vector's entry e. -/
private def colOf {α : Type} (x : S1600000.Idx → α) : S1600000x1.Idx → α :=
  broadcastInDim S1600000x1 ![0] bcast_S1600000_S1600000x1_0 x

/-- The source words with the negative ones wrapped: a < 0 ? a + 100000 : a. -/
private def wrapOf (a1 : IVec S1600000 32) : IVec S1600000 32 :=
  select (cmpi .slt a1 (broadcastInDim S1600000 ![] bcast_S_S1600000 (constantI S_ 32 0#32)))
    (addi a1 (broadcastInDim S1600000 ![] bcast_S_S1600000 (constantI S_ 32 100000#32))) a1

/-- The range test 0 ≤ idx ≤ 99999 of a column of indices, reduced by and along the column's unit axis and spread along
    the 128 columns. -/
private def maskOf (col : IVec S1600000x1 32) : IVec S1600000x128 1 :=
  broadcastInDim S1600000x128 ![0] bcast_S1600000_S1600000x128_0
    (Host.reduce IntOp.andi
      (andi (cmpi .sge col (broadcastInDim S1600000x1 ![] bcast_S_S1600000x1 (constantI S_ 32 0#32)))
        (cmpi .sle col (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- The filled take of rows of y at the wrapped source words: the gathered rows where the index is in range, the
    fill word elsewhere. -/
private def takeOf (y : S100000x128.Idx → EReal) (a1 : IVec S1600000 32) : S1600000x128.Idx → EReal :=
  select (maskOf (colOf (wrapOf a1)))
    (Host.gather gather_S100000x128_S1600000x1_S1600000x128_1_0_n_n_0_1_1128 y (colOf (wrapOf a1)))
    (broadcastInDim S1600000x128 ![] bcast_S_S1600000x128 (constant (F := Ideal) S_ .f32 0x7FC00000#32))

/-- The source norm of every edge, spread along the 128 columns. -/
private def gnormOf (ns : S100000.Idx → EReal) (a1 : IVec S1600000 32) : S1600000x128.Idx → EReal :=
  broadcastInDim S1600000x128 ![0, 1] bcast_S1600000x1_S1600000x128_0_1
    (colOf (Host.gather gather_S100000_S1600000x1_S1600000_n_0_n_n_0_1_1 ns (colOf (wrapOf a1))))

/-- Rows of updates summed at the rows their destination words name, from zeros. -/
private def aggOf (ys : S1600000x128.Idx → EReal) (a2 : IVec S1600000 32) : S100000x128.Idx → EReal :=
  Host.scatterAdd (F := Ideal) scatter_S100000x128_S1600000x1_S1600000x128_1_0_0_1
    (broadcastInDim S100000x128 ![] bcast_S_S100000x128 (constant (F := Ideal) S_ .f32 0x00000000#32))
    (colOf a2) ys

/-! ## A typed reference at its own buffer's type carries contents unchanged -/

private theorem ofBuf_arg1 (h1 h2 h3) (v : IVec S1600000 32) :
    (StableHlo.TRef.of main_arg1 h1 h2 h3 : StableHlo.TRef sig ⟨S1600000, .i32⟩).ofBuf (Val := Elt Ideal) v = v := rfl
private theorem ofBuf_v20 (h1 h2 h3) (v : S100000x128.Idx → EReal) :
    (StableHlo.TRef.of main_v20 h1 h2 h3 : StableHlo.TRef sig ⟨S100000x128, .f32⟩).ofBuf (Val := Elt Ideal) v = v := rfl
private theorem toBuf_v21 (h1 h2 h3) (v : S1600000x128.Idx → EReal) :
    (StableHlo.TRef.of main_v21 h1 h2 h3 : StableHlo.TRef sig ⟨S1600000x128, .f32⟩).toBuf (Val := Elt Ideal) v = v := rfl

/-! ## What the two host stretches leave, as those terms -/

private theorem ops1_v21 (V : Valuation τ sig (Elt Ideal)) :
    (StableHlo.after hostOps1 V (Proc.devRef .tc main_v21) : S1600000x128.Idx → EReal)
      = takeOf (V (Proc.devRef .tc main_v20)) (V (Proc.devRef .tc main_arg1)) := by
  after_results_simp
  simp only [StableHlo.TRef.ofBuf_toBuf]
  rw [toBuf_v21]
  simp only [ofBuf_arg1, ofBuf_v20]
  rfl

private theorem ops11_v34 (V : Valuation τ sig (Elt Ideal)) :
    (StableHlo.after hostOps1_1 V (Proc.devRef .tc main_v34) : S100000x128.Idx → EReal)
      = aggOf (mulf (F := Ideal) (φ := .f32) (V (Proc.devRef .tc main_v21))
          (gnormOf (V (Proc.devRef .tc main_v9)) (V (Proc.devRef .tc main_arg1)))) (V (Proc.devRef .tc main_arg2)) := by
  after_results_simp
  rfl

private theorem ops11_v35 (V : Valuation τ sig (Elt Ideal)) :
    (StableHlo.after hostOps1_1 V (Proc.devRef .tc main_v35) : S100000x1.Idx → EReal)
      = shapeCast S100000x1 (V (Proc.devRef .tc main_v19) : S100000.Idx → EReal) shapeCasts_S100000_S100000x1 := by
  after_results_simp
  rfl

private theorem ops11_v36 (V : Valuation τ sig (Elt Ideal)) :
    (StableHlo.after hostOps1_1 V (Proc.devRef .tc main_v36) : S1x128.Idx → EReal)
      = shapeCast S1x128 (V (Proc.devRef .tc main_arg4) : S128.Idx → EReal) shapeCasts_S128_S1x128 := by
  after_results_simp
  rfl

/-! ## Buffers the host stretches leave alone -/

private theorem pre_arg0 (V : Valuation τ sig (Elt Ideal)) :
    StableHlo.after hostOps0_3 (StableHlo.after hostOps0_2 (StableHlo.after hostOps0_1 (StableHlo.after hostOps0 V)))
      (Proc.devRef .tc main_arg0) = V (Proc.devRef .tc main_arg0) := by
  after_results_simp
private theorem pre_arg1 (V : Valuation τ sig (Elt Ideal)) :
    StableHlo.after hostOps0_3 (StableHlo.after hostOps0_2 (StableHlo.after hostOps0_1 (StableHlo.after hostOps0 V)))
      (Proc.devRef .tc main_arg1) = V (Proc.devRef .tc main_arg1) := by
  after_results_simp
private theorem pre_arg2 (V : Valuation τ sig (Elt Ideal)) :
    StableHlo.after hostOps0_3 (StableHlo.after hostOps0_2 (StableHlo.after hostOps0_1 (StableHlo.after hostOps0 V)))
      (Proc.devRef .tc main_arg2) = V (Proc.devRef .tc main_arg2) := by
  after_results_simp
private theorem pre_arg3 (V : Valuation τ sig (Elt Ideal)) :
    StableHlo.after hostOps0_3 (StableHlo.after hostOps0_2 (StableHlo.after hostOps0_1 (StableHlo.after hostOps0 V)))
      (Proc.devRef .tc main_arg3) = V (Proc.devRef .tc main_arg3) := by
  after_results_simp
private theorem pre_arg4 (V : Valuation τ sig (Elt Ideal)) :
    StableHlo.after hostOps0_3 (StableHlo.after hostOps0_2 (StableHlo.after hostOps0_1 (StableHlo.after hostOps0 V)))
      (Proc.devRef .tc main_arg4) = V (Proc.devRef .tc main_arg4) := by
  after_results_simp

private theorem ops1_arg1 (V : Valuation τ sig (Elt Ideal)) :
    StableHlo.after hostOps1 V (Proc.devRef .tc main_arg1) = V (Proc.devRef .tc main_arg1) := by
  after_results_simp
private theorem ops1_arg2 (V : Valuation τ sig (Elt Ideal)) :
    StableHlo.after hostOps1 V (Proc.devRef .tc main_arg2) = V (Proc.devRef .tc main_arg2) := by
  after_results_simp
private theorem ops1_arg4 (V : Valuation τ sig (Elt Ideal)) :
    StableHlo.after hostOps1 V (Proc.devRef .tc main_arg4) = V (Proc.devRef .tc main_arg4) := by
  after_results_simp
private theorem ops1_v9 (V : Valuation τ sig (Elt Ideal)) :
    StableHlo.after hostOps1 V (Proc.devRef .tc main_v9) = V (Proc.devRef .tc main_v9) := by
  after_results_simp
private theorem ops1_v19 (V : Valuation τ sig (Elt Ideal)) :
    StableHlo.after hostOps1 V (Proc.devRef .tc main_v19) = V (Proc.devRef .tc main_v19) := by
  after_results_simp

/-! ## Reads at an entry -/

/-- A broadcast of an array whose every entry is c reads c everywhere. -/
private theorem broadcastInDim_of_forall {s t : Shape} {α : Type} (dims : Fin s.rank → Fin t.rank)
    (h : s.BroadcastsInDim t dims) (x : s.Idx → α) (c : α) (hx : ∀ k, x k = c) (j : t.Idx) :
    broadcastInDim t dims h x j = c := by
  unfold broadcastInDim
  exact hx _

/-- A vector as a column, read at (e, u): the vector's entry e. -/
private theorem colOf_apply {α : Type} (x : S1600000.Idx → α) (e : Fin 1600000) (u : Fin 1) :
    colOf x (ix2 e u) = x (ix1 e) :=
  broadcastInDim_apply _ bcast_S1600000_S1600000x1_0 x (ix2 e u) (ix1 e) (fun a => match a with
    | ⟨0, _⟩ => by show e.val = if (1600000 : Nat) = 1 then 0 else e.val; rw [if_neg (by decide)])

/-- Source words that are not negative are left alone by the wrap. -/
private theorem wrapOf_eq (a1 : IVec S1600000 32) (h0 : ∀ e, IntOp.cmpi .sge (a1 e) 0#32 = 1#1) : wrapOf a1 = a1 := by
  funext i
  show Scalar.select (IntOp.cmpi .slt (a1 i) (broadcastInDim S1600000 ![] bcast_S_S1600000 (constantI S_ 32 0#32) i))
      (IntOp.addi (a1 i) (broadcastInDim S1600000 ![] bcast_S_S1600000 (constantI S_ 32 100000#32) i)) (a1 i) = a1 i
  rw [broadcastInDim_scalar_apply, broadcastInDim_scalar_apply]
  exact TakeMask.wrap_eq_self _ (h0 i)

/-- The upper bound 99999, a one-word array spread to the column, reads 99999 everywhere. -/
private theorem hi_apply (q : S1600000x1.Idx) :
    broadcastInDim S1600000x1 ![0, 1] bcast_S1x1_S1600000x1_0_1
      (broadcastInDim S1x1 ![1] bcast_S1_S1x1_1 (constantI S1 32 99999#32)) q = 99999#32 :=
  broadcastInDim_of_forall _ _ (broadcastInDim S1x1 ![1] bcast_S1_S1x1_1 (constantI S1 32 99999#32)) _
    (fun k => broadcastInDim_of_forall _ _ (constantI S1 32 99999#32) _ (fun _ => rfl) k) q

/-- Over source words in [0, 100000) the range mask is 1 everywhere. -/
private theorem maskOf_one (a1 : IVec S1600000 32) (h0 : ∀ e, IntOp.cmpi .sge (a1 e) 0#32 = 1#1)
    (h1 : ∀ e, IntOp.cmpi .slt (a1 e) 100000#32 = 1#1) (i : S1600000x128.Idx) : maskOf (colOf a1) i = 1#1 := by
  unfold maskOf
  refine broadcastInDim_of_forall _ _ _ 1#1 (fun k => ?_) i
  refine TakeMask.reduce_andi_of_all_one _ _ _ _ (fun _ => rfl) (fun q => ?_) k
  obtain ⟨e, u, rfl⟩ : ∃ e u, q = ix2 e u := ⟨q 0, q 1, eq_ix2 q⟩
  show IntOp.andi
      (IntOp.cmpi .sge (colOf a1 (ix2 e u)) (broadcastInDim S1600000x1 ![] bcast_S_S1600000x1 (constantI S_ 32 0#32) (ix2 e u)))
      (IntOp.cmpi .sle (colOf a1 (ix2 e u)) (broadcastInDim S1600000x1 ![0, 1] bcast_S1x1_S1600000x1_0_1
          (broadcastInDim S1x1 ![1] bcast_S1_S1x1_1 (constantI S1 32 99999#32)) (ix2 e u))) = 1#1
  rw [colOf_apply, broadcastInDim_scalar_apply, hi_apply]
  exact TakeMask.inrange_of_pre _ (h0 _) (h1 _)

/-- The table row an edge reads is the node its source word names. -/
private theorem row_eq (d : GatherDims S100000x128 S1600000x1 S1600000x128) (a1 : IVec S1600000 32) (hN : 0 < 100000)
    (e : Fin 1600000) : GatherRows.row d (colOf a1) hN e = Gcn.srcNode a1 e := by
  apply Fin.ext
  show min (colOf a1 (ix2 e (0 : Fin 1))).toInt.toNat (100000 - 1) = min (a1 (ix1 e)).toInt.toNat (100000 - 1)
  rw [colOf_apply]

/-- THE TAKE at (e, j), source words in range: row (source node of e) of the table, column j. -/
private theorem takeOf_apply (y : S100000x128.Idx → EReal) (a1 : IVec S1600000 32)
    (h0 : ∀ e, IntOp.cmpi .sge (a1 e) 0#32 = 1#1) (h1 : ∀ e, IntOp.cmpi .slt (a1 e) 100000#32 = 1#1)
    (e : Fin 1600000) (j : Fin 128) : takeOf y a1 (ix2 e j) = y (ix2 (Gcn.srcNode a1 e) j) := by
  unfold takeOf
  rw [wrapOf_eq a1 h0, TakeMask.select_of_all_one _ _ _ (maskOf_one a1 h0 h1),
    GatherRows.gather_apply _ rfl rfl rfl rfl rfl rfl rfl (by decide) y (colOf a1) e j, row_eq]

/-- THE GATHERED SOURCE NORM at (e, j), source words not negative: the norm of the source node of e. -/
private theorem gnormOf_apply (ns : S100000.Idx → EReal) (a1 : IVec S1600000 32)
    (h0 : ∀ e, IntOp.cmpi .sge (a1 e) 0#32 = 1#1) (e : Fin 1600000) (j : Fin 128) :
    gnormOf ns a1 (ix2 e j) = ns (ix1 (Gcn.srcNode a1 e)) := by
  unfold gnormOf
  rw [wrapOf_eq a1 h0,
    broadcastInDim_apply _ bcast_S1600000x1_S1600000x128_0_1 _ (ix2 e j) (ix2 e (0 : Fin 1)) (fun a => match a with
      | ⟨0, _⟩ => by show e.val = if (1600000 : Nat) = 1 then 0 else e.val; rw [if_neg (by decide)]
      | ⟨1, _⟩ => by show (0 : Nat) = if (1 : Nat) = 1 then 0 else j.val; rw [if_pos rfl]),
    colOf_apply,
    GatherVec.gather_apply _ rfl rfl rfl rfl rfl rfl rfl (by decide) ns (colOf a1) e]
  congr 2
  apply Fin.ext
  show min (colOf a1 (ix2 e (0 : Fin 1))).toInt.toNat (100000 - 1) = min (a1 (ix1 e)).toInt.toNat (100000 - 1)
  rw [colOf_apply]

/-- On the extended reals the host's scatter-add is the exact sum of the colliding updates. -/
private theorem aggOf_eq (ys : S1600000x128.Idx → EReal) (a2 : IVec S1600000 32) :
    aggOf ys a2 = Ideal.hostScatterAdd scatter_S100000x128_S1600000x1_S1600000x128_1_0_0_1
      (broadcastInDim S100000x128 ![] bcast_S_S100000x128 (constant (F := Ideal) S_ .f32 0x00000000#32)) (colOf a2) ys :=
  Ideal.hostScatterAdd_def scatter_S100000x128_S1600000x1_S1600000x128_1_0_0_1 .single
    (broadcastInDim S100000x128 ![] bcast_S_S100000x128 (constant (F := Ideal) S_ .f32 0x00000000#32)) (colOf a2) ys

/-- THE SUM AT THE DESTINATIONS at (i, j): over the edges into node i, the updates' entry (e, j). -/
private theorem aggOf_apply (ys : S1600000x128.Idx → EReal) (a2 : IVec S1600000 32) (i : Fin 100000) (j : Fin 128) :
    aggOf ys a2 (ix2 i j) = ∑ e ∈ Gcn.inEdges (Gcn.dstInt a2) i, ys (ix2 e j) := by
  have hs := ScatterRows.scatterAdd_apply scatter_S100000x128_S1600000x1_S1600000x128_1_0_0_1 rfl rfl rfl rfl
    (broadcastInDim S100000x128 ![] bcast_S_S100000x128 (constant (F := Ideal) S_ .f32 0x00000000#32)) (colOf a2) ys i j
  -- the operand is zero everywhere, and 0 + s = s
  rw [broadcastInDim_scalar_apply, constant_apply, Ideal.ofBits_zero_f32, zero_add] at hs
  rw [aggOf_eq, hs]
  -- the edges whose destination word, read in the column, is i are the edges into node i
  unfold Gcn.inEdges Gcn.dstInt
  exact Finset.sum_congr (Finset.filter_congr fun e _ => by rw [colOf_apply]) fun _ _ => rfl

/-! ## A vector reshaped to a column, or to a row, read at an entry -/

/-- The destination norms reshaped to a column read, at row i, the norm of node i. -/
private theorem colCast_apply (x : S100000.Idx → EReal) (i : Fin 100000) (u : Fin 1) :
    shapeCast S100000x1 x shapeCasts_S100000_S100000x1 (ix2 i u) = x (ix1 i) :=
  shapeCast_apply x _ _ _ (by
    have hu : u.val = 0 := by omega
    rw [Shape.rowMajor_val_two, Shape.rowMajor_val_one]
    show i.val = i.val * 1 + u.val
    rw [hu, Nat.mul_one, Nat.add_zero])

/-- The bias reshaped to a row reads, at column j, the bias of column j. -/
private theorem rowCast_apply (x : S128.Idx → EReal) (u : Fin 1) (j : Fin 128) :
    shapeCast S1x128 x shapeCasts_S128_S1x128 (ix2 u j) = x (ix1 j) :=
  shapeCast_a_1a_apply x _ u j

/-! ## The arrays along the run, from the launch to the finalize region's entry -/

/-- What the transform region leaves in its output array. -/
private abbrev yArr (c : Dev nD) : S100000x128.Idx → EReal := W5 (F := Ideal) m ρ c (Proc.devRef .tc main_v20)

/-- The node features and the first weights as the transform region finds them. -/
private abbrev x0Arr (c : Dev nD) : S100000x128.Idx → EReal := W4 (F := Ideal) m ρ c (Proc.devRef .tc main_arg0)
private abbrev w0Arr (c : Dev nD) : S128x128.Idx → EReal := W4 (F := Ideal) m ρ c (Proc.devRef .tc main_arg3)

/-- The transform region finds the node features and the first weights as launched. -/
private theorem x0Arr_eq (c : Dev nD) : x0Arr m ρ c = A0 m c := pre_arg0 (W0 (F := Ideal) m ρ c)
private theorem w0Arr_eq (c : Dev nD) : w0Arr m ρ c = A3 m c := pre_arg3 (W0 (F := Ideal) m ρ c)

/-- THE TRANSFORM at (i, j): the sum over k of feature (i, k) times weight (k, j). -/
private theorem yArr_apply (c : Dev nD) (i : Fin 100000) (j : Fin 128) :
    yArr m ρ c (ix2 i j) = ∑ k : Fin 128, A0 m c (ix2 i k) * A3 m c (ix2 k j) := by
  have e : yArr m ρ c = RegVal.o0 (V4 (F := Ideal) m ρ) c := W5_arr m ρ c 2
  rw [e, RegVal.out0 (V4 (F := Ideal) m ρ) c i j]
  show ∑ k : Fin 128, x0Arr m ρ c (ix2 i k) * w0Arr m ρ c (ix2 k j) = _
  rw [x0Arr_eq, w0Arr_eq]

/-- After the transform region the edges' words and the first bias are still as launched, and the two norms as the
    region found them: the region writes its output array only. -/
private theorem W5_arg1 (c : Dev nD) :
    (W5 (F := Ideal) m ρ c (Proc.devRef .tc main_arg1) : IVec S1600000 32) = A1 m c :=
  (W5_of_ne m ρ c main_arg1 (by decide)).trans (pre_arg1 (W0 (F := Ideal) m ρ c))
private theorem W5_arg2 (c : Dev nD) :
    (W5 (F := Ideal) m ρ c (Proc.devRef .tc main_arg2) : IVec S1600000 32) = A2 m c :=
  (W5_of_ne m ρ c main_arg2 (by decide)).trans (pre_arg2 (W0 (F := Ideal) m ρ c))
private theorem W5_arg4 (c : Dev nD) :
    (W5 (F := Ideal) m ρ c (Proc.devRef .tc main_arg4) : S128.Idx → EReal) = A4 m c :=
  (W5_of_ne m ρ c main_arg4 (by decide)).trans (pre_arg4 (W0 (F := Ideal) m ρ c))
private theorem W5_v9 (c : Dev nD) :
    (W5 (F := Ideal) m ρ c (Proc.devRef .tc main_v9) : S100000.Idx → EReal) = nsArr m ρ c :=
  W5_of_ne m ρ c main_v9 (by decide)
private theorem W5_v19 (c : Dev nD) :
    (W5 (F := Ideal) m ρ c (Proc.devRef .tc main_v19) : S100000.Idx → EReal) = ndArr m ρ c :=
  W5_of_ne m ρ c main_v19 (by decide)

/-- After the take's stretch: the taken rows, and the buffers the stretch leaves alone. -/
private theorem W6_v21 (c : Dev nD) :
    (W6 (F := Ideal) m ρ c (Proc.devRef .tc main_v21) : S1600000x128.Idx → EReal) = takeOf (yArr m ρ c) (A1 m c) :=
  (ops1_v21 (W5 (F := Ideal) m ρ c)).trans (congrArg (takeOf (yArr m ρ c)) (W5_arg1 m ρ c))
private theorem W6_arg1 (c : Dev nD) :
    (W6 (F := Ideal) m ρ c (Proc.devRef .tc main_arg1) : IVec S1600000 32) = A1 m c :=
  (ops1_arg1 (W5 (F := Ideal) m ρ c)).trans (W5_arg1 m ρ c)
private theorem W6_arg2 (c : Dev nD) :
    (W6 (F := Ideal) m ρ c (Proc.devRef .tc main_arg2) : IVec S1600000 32) = A2 m c :=
  (ops1_arg2 (W5 (F := Ideal) m ρ c)).trans (W5_arg2 m ρ c)
private theorem W6_arg4 (c : Dev nD) :
    (W6 (F := Ideal) m ρ c (Proc.devRef .tc main_arg4) : S128.Idx → EReal) = A4 m c :=
  (ops1_arg4 (W5 (F := Ideal) m ρ c)).trans (W5_arg4 m ρ c)
private theorem W6_v9 (c : Dev nD) :
    (W6 (F := Ideal) m ρ c (Proc.devRef .tc main_v9) : S100000.Idx → EReal) = nsArr m ρ c :=
  (ops1_v9 (W5 (F := Ideal) m ρ c)).trans (W5_v9 m ρ c)
private theorem W6_v19 (c : Dev nD) :
    (W6 (F := Ideal) m ρ c (Proc.devRef .tc main_v19) : S100000.Idx → EReal) = ndArr m ρ c :=
  (ops1_v19 (W5 (F := Ideal) m ρ c)).trans (W5_v19 m ρ c)

/-- What the finalize region finds: the summed messages, the destination norms as a column, the bias as a row. -/
private theorem x1_eq (c : Dev nD) :
    RegVal.x1 (V7 (F := Ideal) m ρ) c
      = aggOf (mulf (F := Ideal) (φ := .f32) (takeOf (yArr m ρ c) (A1 m c)) (gnormOf (nsArr m ρ c) (A1 m c))) (A2 m c) := by
  refine (ops11_v34 (W6 (F := Ideal) m ρ c)).trans ?_
  rw [W6_v21, W6_v9, W6_arg1, W6_arg2]
private theorem n1_eq (c : Dev nD) :
    RegVal.n1 (V7 (F := Ideal) m ρ) c = shapeCast S100000x1 (ndArr m ρ c) shapeCasts_S100000_S100000x1 := by
  refine (ops11_v35 (W6 (F := Ideal) m ρ c)).trans ?_
  rw [W6_v19]
private theorem b1_eq (c : Dev nD) :
    RegVal.b1 (V7 (F := Ideal) m ρ) c = shapeCast S1x128 (A4 m c) shapeCasts_S128_S1x128 := by
  refine (ops11_v36 (W6 (F := Ideal) m ρ c)).trans ?_
  rw [W6_arg4]

/-- Layer 1: the transform region, the gather along the edges scaled by the source norm, the sum at the destinations,
    and the finalize region, entry by entry. -/
theorem layer1 (c : Dev nD) (hG : Good m c) :
    Gcn.mat (h1Arr m ρ c) = Gcn.relu (Gcn.layerK (Gcn.vec (nsArr m ρ c)) (Gcn.vec (ndArr m ρ c)) (Gcn.srcNode (A1 m c)) (Gcn.dstInt (A2 m c))
      (Gcn.mat (A3 m c)) (Gcn.vec (A4 m c)) (Gcn.mat (A0 m c))) := by
  funext i j
  show h1Arr m ρ c (ix2 i j)
    = max ((∑ e ∈ Gcn.inEdges (Gcn.dstInt (A2 m c)) i,
        (∑ k : Fin 128, A0 m c (ix2 (Gcn.srcNode (A1 m c) e) k) * A3 m c (ix2 k j))
          * nsArr m ρ c (ix1 (Gcn.srcNode (A1 m c) e))) * ndArr m ρ c (ix1 i) + A4 m c (ix1 j)) 0
  -- the finalize region: its output at (i, j) from its three inputs
  have e8 : h1Arr m ρ c = RegVal.o1 (V7 (F := Ideal) m ρ) c := W8_arr m ρ c 3
  rw [e8, RegVal.out1 (V7 (F := Ideal) m ρ) c i j, x1_eq, n1_eq, b1_eq, aggOf_apply, colCast_apply, rowCast_apply]
  -- under the sum over the edges into node i: the take reads the transformed features at the edge's source node, the
  -- gathered norm the source norm there
  have hsum : (∑ e ∈ Gcn.inEdges (Gcn.dstInt (A2 m c)) i,
        mulf (F := Ideal) (φ := .f32) (takeOf (yArr m ρ c) (A1 m c)) (gnormOf (nsArr m ρ c) (A1 m c)) (ix2 e j))
      = ∑ e ∈ Gcn.inEdges (Gcn.dstInt (A2 m c)) i,
          (∑ k : Fin 128, A0 m c (ix2 (Gcn.srcNode (A1 m c) e) k) * A3 m c (ix2 k j))
            * nsArr m ρ c (ix1 (Gcn.srcNode (A1 m c) e)) := by
    refine Finset.sum_congr rfl fun e _ => ?_
    rw [mulf_apply, takeOf_apply _ _ hG.src_ge hG.src_lt, gnormOf_apply _ _ hG.src_ge, yArr_apply]
  rw [hsum]

end Cert.KernelIdeal.Val

end
-- ==== Proof.KLayer2.lean ====
/-
  LAYER 2 OF THE KERNEL PROGRAM, from the arrays it starts from to the features its finalize region leaves.

  The layer is: the transform region (features times weights), then on the host a take of the transformed rows along
  the edges' source words, each taken row scaled by the source norm of its node, the scaled rows summed into the rows
  the destination words name, and last the finalize region (times the destination norm, plus the bias, rectified).
  The take wraps negative words by the number of nodes, tests the wrapped word against the table's range and fills the
  rows that fail; under the precondition every source word is a node's number, so the wrap does nothing, every row
  passes, and the take is the plain gather of row (source node of edge e).
-/
import proofs.«421580_j45810121179684_1_alg».proof.Proof.KDefs
import proofs.«421580_j45810121179684_1_alg».proof.Proof.KRegions
import proofs.«421580_j45810121179684_1_alg».proof.Proof.LibGatherRows
import proofs.«421580_j45810121179684_1_alg».proof.Proof.LibGatherVec
import proofs.«421580_j45810121179684_1_alg».proof.Proof.LibScatterRows
import proofs.«421580_j45810121179684_1_alg».proof.Proof.LibMask
import proofs.«421580_j45810121179684_1_alg».proof.Proof.LibTRef
import Idealize.ShloMosaic.Lib.StableHlo.Run
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

/-! ## The host operations one at a time, each read at an entry of arrays given by name -/

/-- A vector kept as a column reads, at row `e`, the vector at `e`. -/
private theorem col_apply {α : Type} (v : S1600000.Idx → α) (e : Fin 1600000) (u : Fin 1) :
    broadcastInDim S1600000x1 ![0] bcast_S1600000_S1600000x1_0 v (ix2 e u) = v (ix1 e) :=
  broadcastInDim_apply _ bcast_S1600000_S1600000x1_0 v (ix2 e u) (ix1 e) (fun a => match a with
    | ⟨0, _⟩ => by show e.val = if (1600000 : Nat) = 1 then 0 else e.val; rw [if_neg (by decide)])

/-- A column laid along 128 columns reads, at (e, k), the column at row `e`. -/
private theorem wide_apply {α : Type} (v : S1600000x1.Idx → α) (e : Fin 1600000) (k : Fin 128) :
    broadcastInDim S1600000x128 ![0, 1] bcast_S1600000x1_S1600000x128_0_1 v (ix2 e k) = v (ix2 e (0 : Fin 1)) :=
  broadcastInDim_apply _ bcast_S1600000x1_S1600000x128_0_1 v (ix2 e k) (ix2 e (0 : Fin 1)) (fun a => match a with
    | ⟨0, _⟩ => by show e.val = if (1600000 : Nat) = 1 then 0 else e.val; rw [if_neg (by decide)]
    | ⟨1, _⟩ => by show 0 = if (1 : Nat) = 1 then 0 else k.val; rw [if_pos rfl])

/-- The row gather at (e, k): the table at (the column's word at row `e`, signed and clamped; k). -/
private theorem gatherRows_apply (y : S100000x128.Idx → EReal) (idx : IVec S1600000x1 32) (e : Fin 1600000) (k : Fin 128) :
    Host.gather gather_S100000x128_S1600000x1_S1600000x128_1_0_n_n_0_1_1128 y idx (ix2 e k)
      = y (ix2 (⟨min (idx (ix2 e (0 : Fin 1))).toInt.toNat (100000 - 1), Nat.lt_of_le_of_lt (Nat.min_le_right _ _) (by decide)⟩ : Fin 100000) k) :=
  GatherRows.gather_apply gather_S100000x128_S1600000x1_S1600000x128_1_0_n_n_0_1_1128 rfl rfl rfl rfl rfl rfl rfl
    (by decide) y idx e k

/-- The entry gather at e: the table at the column's word at row `e`, signed and clamped. -/
private theorem gatherVec_apply (ns : S100000.Idx → EReal) (idx : IVec S1600000x1 32) (e : Fin 1600000) :
    Host.gather gather_S100000_S1600000x1_S1600000_n_0_n_n_0_1_1 ns idx (ix1 e)
      = ns (ix1 (⟨min (idx (ix2 e (0 : Fin 1))).toInt.toNat (100000 - 1), Nat.lt_of_le_of_lt (Nat.min_le_right _ _) (by decide)⟩ : Fin 100000)) :=
  GatherVec.gather_apply gather_S100000_S1600000x1_S1600000_n_0_n_n_0_1_1 rfl rfl rfl rfl rfl rfl rfl
    (by decide) ns idx e

/-- The row scatter-add at (i, j): the operand's entry plus the update rows whose word is `i`. -/
private theorem scatterRows_apply (x : S100000x128.Idx → EReal) (idx : IVec S1600000x1 32) (upd : S1600000x128.Idx → EReal)
    (i : Fin 100000) (j : Fin 128) :
    Host.scatterAdd (F := Ideal) (φ := .f32) scatter_S100000x128_S1600000x1_S1600000x128_1_0_0_1 x idx upd (ix2 i j)
      = x (ix2 i j) + ∑ e ∈ Finset.univ.filter (fun e : Fin 1600000 => (idx (ix2 e (0 : Fin 1))).toInt = (i.val : Int)), upd (ix2 e j) := by
  unfold Host.scatterAdd
  rw [Ideal.hostScatterAdd_def]
  exact ScatterRows.scatterAdd_apply scatter_S100000x128_S1600000x1_S1600000x128_1_0_0_1 rfl rfl rfl rfl x idx upd i j

/-! ## The host operations between the two regions, composed -/

/-- The edges' source words, a negative one wrapped by the number of nodes. -/
private def wrapOf (a1 : IVec S1600000 32) : IVec S1600000 32 :=
  select (cmpi .slt a1 (broadcastInDim S1600000 ![] bcast_S_S1600000 (constantI S_ 32 0#32)))
    (addi a1 (broadcastInDim S1600000 ![] bcast_S_S1600000 (constantI S_ 32 100000#32))) a1

/-- The wrapped words as a column. -/
private def wrapCol (a1 : IVec S1600000 32) : IVec S1600000x1 32 :=
  broadcastInDim S1600000x1 ![0] bcast_S1600000_S1600000x1_0 (wrapOf a1)

/-- The take's range test on the column: the word is at least 0 and at most 99999. -/
private def rangeOf (col : IVec S1600000x1 32) : IVec S1600000x1 1 :=
  andi (cmpi .sge col (broadcastInDim S1600000x1 ![] bcast_S_S1600000x1 (constantI S_ 32 0#32)))
    (cmpi .sle col (broadcastInDim S1600000x1 ![0, 1] bcast_S1x1_S1600000x1_0_1
      (broadcastInDim S1x1 ![1] bcast_S1_S1x1_1 (constantI S1 32 99999#32))))

/-- The range test, one bit per edge. -/
private def takeMask (a1 : IVec S1600000 32) : IVec S1600000 1 :=
  Host.reduce IntOp.andi (rangeOf (wrapCol a1)) (constantI S_ 1 1#1) reducesTo_S1600000x1_S1600000_d1 h_S_

/-- The filled take of the rows of `y` along the edges' source words. -/
private def takeOf (y : S100000x128.Idx → EReal) (a1 : IVec S1600000 32) : S1600000x128.Idx → EReal :=
  select (broadcastInDim S1600000x128 ![0] bcast_S1600000_S1600000x128_0 (takeMask a1))
    (Host.gather gather_S100000x128_S1600000x1_S1600000x128_1_0_n_n_0_1_1128 y (wrapCol a1))
    (broadcastInDim S1600000x128 ![] bcast_S_S1600000x128 (constant (F := Ideal) S_ .f32 0x7FC00000#32))

/-- The source norm of each edge's source node, laid along the columns. -/
private def normOf (ns : S100000.Idx → EReal) (a1 : IVec S1600000 32) : S1600000x128.Idx → EReal :=
  broadcastInDim S1600000x128 ![0, 1] bcast_S1600000x1_S1600000x128_0_1
    (broadcastInDim S1600000x1 ![0] bcast_S1600000_S1600000x1_0
      (Host.gather gather_S100000_S1600000x1_S1600000_n_0_n_n_0_1_1 ns (wrapCol a1)))

/-- The scaled taken rows, summed into the rows the destination words name, from zero. -/
private def aggOf (y : S100000x128.Idx → EReal) (a1 a2 : IVec S1600000 32) (ns : S100000.Idx → EReal) :
    S100000x128.Idx → EReal :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 a2)
    (mulf (F := Ideal) (φ := .f32) (takeOf y a1) (normOf ns a1))

/-- Under the precondition the wrap does nothing. -/
private theorem wrapOf_apply (a1 : IVec S1600000 32) (h0 : ∀ e, IntOp.cmpi .sge (a1 e) 0#32 = 1#1)
    (e : Fin 1600000) : wrapOf a1 (ix1 e) = a1 (ix1 e) := by
  unfold wrapOf
  rw [select_apply]
  show Scalar.select (IntOp.cmpi .slt (a1 (ix1 e)) (broadcastInDim S1600000 ![] bcast_S_S1600000 (constantI S_ 32 0#32) (ix1 e)))
      (IntOp.addi (a1 (ix1 e)) (broadcastInDim S1600000 ![] bcast_S_S1600000 (constantI S_ 32 100000#32) (ix1 e))) (a1 (ix1 e))
    = a1 (ix1 e)
  rw [broadcastInDim_scalar_apply, broadcastInDim_scalar_apply]
  exact TakeMask.wrap_eq_self _ (h0 _)

/-- So the column holds the source words themselves. -/
private theorem wrapCol_apply (a1 : IVec S1600000 32) (h0 : ∀ e, IntOp.cmpi .sge (a1 e) 0#32 = 1#1)
    (e : Fin 1600000) (u : Fin 1) : wrapCol a1 (ix2 e u) = a1 (ix1 e) := by
  unfold wrapCol
  rw [col_apply, wrapOf_apply a1 h0]

/-- The range test at an entry is the two compares of the entry's word. -/
private theorem rangeOf_apply (col : IVec S1600000x1 32) (i : S1600000x1.Idx) :
    rangeOf col i = IntOp.andi (IntOp.cmpi .sge (col i) 0#32) (IntOp.cmpi .sle (col i) 99999#32) := rfl

/-- Under the precondition every edge passes the range test. -/
private theorem takeMask_one (a1 : IVec S1600000 32) (h0 : ∀ e, IntOp.cmpi .sge (a1 e) 0#32 = 1#1)
    (h1 : ∀ e, IntOp.cmpi .slt (a1 e) 100000#32 = 1#1) (j : S1600000.Idx) : takeMask a1 j = 1#1 := by
  unfold takeMask
  refine TakeMask.reduce_andi_of_all_one (rangeOf (wrapCol a1)) (constantI S_ 1 1#1) reducesTo_S1600000x1_S1600000_d1 h_S_
    (fun _ => rfl) (fun i => ?_) j
  obtain ⟨e, u, rfl⟩ : ∃ e u, i = ix2 e u := ⟨i 0, i 1, eq_ix2 i⟩
  rw [rangeOf_apply, wrapCol_apply a1 h0]
  exact TakeMask.inrange_of_pre _ (h0 _) (h1 _)

/-- Under the precondition the filled take reads, at (e, k), the table at (source node of e, k). -/
private theorem takeOf_apply (y : S100000x128.Idx → EReal) (a1 : IVec S1600000 32)
    (h0 : ∀ e, IntOp.cmpi .sge (a1 e) 0#32 = 1#1) (h1 : ∀ e, IntOp.cmpi .slt (a1 e) 100000#32 = 1#1)
    (e : Fin 1600000) (k : Fin 128) : takeOf y a1 (ix2 e k) = y (ix2 (Gcn.srcNode a1 e) k) := by
  unfold takeOf
  have hm : ∀ i, broadcastInDim S1600000x128 ![0] bcast_S1600000_S1600000x128_0 (takeMask a1) i = 1#1 := fun i => by
    unfold broadcastInDim
    exact takeMask_one a1 h0 h1 _
  rw [TakeMask.select_of_all_one _ _ _ hm, gatherRows_apply]
  have hs : (⟨min (wrapCol a1 (ix2 e (0 : Fin 1))).toInt.toNat (100000 - 1), Nat.lt_of_le_of_lt (Nat.min_le_right _ _) (by decide)⟩ : Fin 100000)
      = Gcn.srcNode a1 e := by
    apply Fin.ext
    show min (wrapCol a1 (ix2 e (0 : Fin 1))).toInt.toNat (100000 - 1) = min (a1 (ix1 e)).toInt.toNat (100000 - 1)
    rw [wrapCol_apply a1 h0]
  rw [hs]

/-- Under the precondition the gathered norm reads, at (e, k), the norm of the source node of e. -/
private theorem normOf_apply (ns : S100000.Idx → EReal) (a1 : IVec S1600000 32)
    (h0 : ∀ e, IntOp.cmpi .sge (a1 e) 0#32 = 1#1) (e : Fin 1600000) (k : Fin 128) :
    normOf ns a1 (ix2 e k) = ns (ix1 (Gcn.srcNode a1 e)) := by
  unfold normOf
  rw [wide_apply, col_apply, gatherVec_apply]
  have hs : (⟨min (wrapCol a1 (ix2 e (0 : Fin 1))).toInt.toNat (100000 - 1), Nat.lt_of_le_of_lt (Nat.min_le_right _ _) (by decide)⟩ : Fin 100000)
      = Gcn.srcNode a1 e := by
    apply Fin.ext
    show min (wrapCol a1 (ix2 e (0 : Fin 1))).toInt.toNat (100000 - 1) = min (a1 (ix1 e)).toInt.toNat (100000 - 1)
    rw [wrapCol_apply a1 h0]
  rw [hs]

/-- Under the precondition the summed messages read, at (i, j), the sum over the edges into node `i` of the taken entry
    times the source norm. -/
private theorem aggOf_apply (y : S100000x128.Idx → EReal) (a1 a2 : IVec S1600000 32) (ns : S100000.Idx → EReal)
    (h0 : ∀ e, IntOp.cmpi .sge (a1 e) 0#32 = 1#1) (h1 : ∀ e, IntOp.cmpi .slt (a1 e) 100000#32 = 1#1)
    (i : Fin 100000) (j : Fin 128) :
    aggOf y a1 a2 ns (ix2 i j)
      = ∑ e ∈ Gcn.inEdges (Gcn.dstInt a2) i, y (ix2 (Gcn.srcNode a1 e) j) * ns (ix1 (Gcn.srcNode a1 e)) := by
  unfold aggOf
  rw [scatterRows_apply, broadcastInDim_scalar_apply, constant_apply, Ideal.ofBits_zero_f32, zero_add]
  unfold Gcn.inEdges Gcn.dstInt
  refine Finset.sum_congr (Finset.filter_congr fun e _ => by rw [col_apply]) (fun e _ => ?_)
  rw [mulf_apply, takeOf_apply y a1 h0 h1, normOf_apply ns a1 h0]

/-! ## The two host stretches read off the program, at any contents of the buffers they start from -/

open Idealize.ShloMosaic.StableHlo in
set_option maxHeartbeats 16000000 in
/-- The summed messages after the two stretches: the operations' term over the transform's output, the source and
    destination words and the source norms. -/
private theorem read_agg (V : Valuation τ sig (Elt Ideal)) :
    (StableHlo.after (hostOps3_1 (F := Ideal)) (StableHlo.after hostOps3 V) (Proc.devRef .tc main_v52) : S100000x128.Idx → EReal)
      = aggOf (V (Proc.devRef .tc main_v38)) (V (Proc.devRef .tc main_arg1)) (V (Proc.devRef .tc main_arg2))
          (V (Proc.devRef .tc main_v9)) := by
  after_results_simp
  -- a value carried to its buffer's own type and back, or to the type it already has, is itself
  have c1 : ∀ v : (⟨S1600000, .i32⟩ : BufTy).Contents (Elt Ideal),
      (StableHlo.TRef.of main_arg1 : StableHlo.TRef sig ⟨S1600000, .i32⟩).ofBuf v = v := fun v => rfl
  have c2 : ∀ v : (⟨S100000x128, .f32⟩ : BufTy).Contents (Elt Ideal),
      (StableHlo.TRef.of main_v38 : StableHlo.TRef sig ⟨S100000x128, .f32⟩).ofBuf v = v := fun v => rfl
  have c3 : ∀ v : (⟨S1600000x128, .f32⟩ : BufTy).Contents (Elt Ideal),
      (StableHlo.TRef.of main_v39 : StableHlo.TRef sig ⟨S1600000x128, .f32⟩).toBuf v = v := fun v => rfl
  simp only [StableHlo.TRef.ofBuf_toBuf, c1, c2, c3]
  unfold aggOf takeOf normOf takeMask rangeOf wrapCol wrapOf
  rfl

open Idealize.ShloMosaic.StableHlo in
set_option maxHeartbeats 16000000 in
/-- The destination norms after the two stretches: the vector recast as a column. -/
private theorem read_ncol (V : Valuation τ sig (Elt Ideal)) :
    (StableHlo.after (hostOps3_1 (F := Ideal)) (StableHlo.after hostOps3 V) (Proc.devRef .tc main_v53) : S100000x1.Idx → EReal)
      = shapeCast S100000x1 (V (Proc.devRef .tc main_v19) : S100000.Idx → EReal) shapeCasts_S100000_S100000x1 := by
  after_results_simp
  rfl

open Idealize.ShloMosaic.StableHlo in
set_option maxHeartbeats 16000000 in
/-- The bias after the two stretches: the vector recast as a row. -/
private theorem read_brow (V : Valuation τ sig (Elt Ideal)) :
    (StableHlo.after (hostOps3_1 (F := Ideal)) (StableHlo.after hostOps3 V) (Proc.devRef .tc main_v54) : S1x128.Idx → EReal)
      = shapeCast S1x128 (V (Proc.devRef .tc main_arg6) : S128.Idx → EReal) shapeCasts_S128_S1x128 := by
  after_results_simp
  rfl

/-- A vector recast as a column reads, at row `i`, the vector at `i`. -/
private theorem shapeCast_col_apply {α : Type} (x : S100000.Idx → α) (i : Fin 100000) (u : Fin 1) :
    shapeCast S100000x1 x shapeCasts_S100000_S100000x1 (ix2 i u) = x (ix1 i) :=
  shapeCast_apply x shapeCasts_S100000_S100000x1 _ _ (by
    have hu : u.val = 0 := by omega
    rw [Shape.rowMajor_val_two, Shape.rowMajor_val_one]
    show i.val = i.val * 1 + u.val
    rw [hu, Nat.mul_one, Nat.add_zero])

/-! ## The buffers the layer reads but no segment before it writes -/

open Idealize.ShloMosaic.StableHlo in
set_option maxHeartbeats 16000000 in
/-- The four stretches before the first region write none of the arguments. -/
private theorem keepA (V : Valuation τ sig (Elt Ideal)) :
    let V' := StableHlo.after (hostOps0_3 (F := Ideal)) (StableHlo.after hostOps0_2 (StableHlo.after hostOps0_1 (StableHlo.after hostOps0 V)))
    V' (Proc.devRef .tc main_arg1) = V (Proc.devRef .tc main_arg1) ∧ V' (Proc.devRef .tc main_arg2) = V (Proc.devRef .tc main_arg2)
      ∧ V' (Proc.devRef .tc main_arg5) = V (Proc.devRef .tc main_arg5) ∧ V' (Proc.devRef .tc main_arg6) = V (Proc.devRef .tc main_arg6) := by
  intro V'
  refine ⟨?_, ?_, ?_, ?_⟩ <;> (show StableHlo.after _ _ _ = _) <;> after_results_simp

open Idealize.ShloMosaic.StableHlo in
set_option maxHeartbeats 16000000 in
/-- The two stretches between the first two regions write neither an argument nor a norm vector. -/
private theorem keepB (V : Valuation τ sig (Elt Ideal)) :
    let V' := StableHlo.after (hostOps1_1 (F := Ideal)) (StableHlo.after hostOps1 V)
    V' (Proc.devRef .tc main_arg1) = V (Proc.devRef .tc main_arg1) ∧ V' (Proc.devRef .tc main_arg2) = V (Proc.devRef .tc main_arg2)
      ∧ V' (Proc.devRef .tc main_arg5) = V (Proc.devRef .tc main_arg5) ∧ V' (Proc.devRef .tc main_arg6) = V (Proc.devRef .tc main_arg6)
      ∧ V' (Proc.devRef .tc main_v9) = V (Proc.devRef .tc main_v9) ∧ V' (Proc.devRef .tc main_v19) = V (Proc.devRef .tc main_v19) := by
  intro V'
  refine ⟨?_, ?_, ?_, ?_, ?_, ?_⟩ <;> (show StableHlo.after _ _ _ = _) <;> after_results_simp

variable (m : (ℓ : Loc nD τ sig) → Buf (Elt Ideal) ℓ) (ρ : Dev nD → PrngReg)

/-- The source words when the transform region is left are the launched ones. -/
private theorem W9_arg1 (c : Dev nD) : (W9 m ρ c (Proc.devRef .tc main_arg1) : IVec S1600000 32) = A1 m c :=
  calc (W9 m ρ c (Proc.devRef .tc main_arg1) : IVec S1600000 32)
    _ = W8 m ρ c (Proc.devRef .tc main_arg1) := W9_of_ne m ρ c main_arg1 (by decide)
    _ = W7 m ρ c (Proc.devRef .tc main_arg1) := W8_of_ne m ρ c main_arg1 (by decide)
    _ = W5 m ρ c (Proc.devRef .tc main_arg1) := (keepB (W5 m ρ c)).1
    _ = W4 m ρ c (Proc.devRef .tc main_arg1) := W5_of_ne m ρ c main_arg1 (by decide)
    _ = W0 m ρ c (Proc.devRef .tc main_arg1) := (keepA (W0 m ρ c)).1
    _ = A1 m c := rfl

/-- The destination words when the transform region is left are the launched ones. -/
private theorem W9_arg2 (c : Dev nD) : (W9 m ρ c (Proc.devRef .tc main_arg2) : IVec S1600000 32) = A2 m c :=
  calc (W9 m ρ c (Proc.devRef .tc main_arg2) : IVec S1600000 32)
    _ = W8 m ρ c (Proc.devRef .tc main_arg2) := W9_of_ne m ρ c main_arg2 (by decide)
    _ = W7 m ρ c (Proc.devRef .tc main_arg2) := W8_of_ne m ρ c main_arg2 (by decide)
    _ = W5 m ρ c (Proc.devRef .tc main_arg2) := (keepB (W5 m ρ c)).2.1
    _ = W4 m ρ c (Proc.devRef .tc main_arg2) := W5_of_ne m ρ c main_arg2 (by decide)
    _ = W0 m ρ c (Proc.devRef .tc main_arg2) := (keepA (W0 m ρ c)).2.1
    _ = A2 m c := rfl

/-- The layer's bias when the transform region is left is the launched one. -/
private theorem W9_arg6 (c : Dev nD) : (W9 m ρ c (Proc.devRef .tc main_arg6) : S128.Idx → EReal) = A6 m c :=
  calc (W9 m ρ c (Proc.devRef .tc main_arg6) : S128.Idx → EReal)
    _ = W8 m ρ c (Proc.devRef .tc main_arg6) := W9_of_ne m ρ c main_arg6 (by decide)
    _ = W7 m ρ c (Proc.devRef .tc main_arg6) := W8_of_ne m ρ c main_arg6 (by decide)
    _ = W5 m ρ c (Proc.devRef .tc main_arg6) := (keepB (W5 m ρ c)).2.2.2.1
    _ = W4 m ρ c (Proc.devRef .tc main_arg6) := W5_of_ne m ρ c main_arg6 (by decide)
    _ = W0 m ρ c (Proc.devRef .tc main_arg6) := (keepA (W0 m ρ c)).2.2.2
    _ = A6 m c := rfl

/-- The layer's weights when the transform region is entered are the launched ones. -/
private theorem W8_arg5 (c : Dev nD) : (W8 m ρ c (Proc.devRef .tc main_arg5) : S128x128.Idx → EReal) = A5 m c :=
  calc (W8 m ρ c (Proc.devRef .tc main_arg5) : S128x128.Idx → EReal)
    _ = W7 m ρ c (Proc.devRef .tc main_arg5) := W8_of_ne m ρ c main_arg5 (by decide)
    _ = W5 m ρ c (Proc.devRef .tc main_arg5) := (keepB (W5 m ρ c)).2.2.1
    _ = W4 m ρ c (Proc.devRef .tc main_arg5) := W5_of_ne m ρ c main_arg5 (by decide)
    _ = W0 m ρ c (Proc.devRef .tc main_arg5) := (keepA (W0 m ρ c)).2.2.1
    _ = A5 m c := rfl

/-- The source norms when the transform region is left are the ones the first transform region found. -/
private theorem W9_v9 (c : Dev nD) : (W9 m ρ c (Proc.devRef .tc main_v9) : S100000.Idx → EReal) = nsArr m ρ c :=
  calc (W9 m ρ c (Proc.devRef .tc main_v9) : S100000.Idx → EReal)
    _ = W8 m ρ c (Proc.devRef .tc main_v9) := W9_of_ne m ρ c main_v9 (by decide)
    _ = W7 m ρ c (Proc.devRef .tc main_v9) := W8_of_ne m ρ c main_v9 (by decide)
    _ = W5 m ρ c (Proc.devRef .tc main_v9) := (keepB (W5 m ρ c)).2.2.2.2.1
    _ = nsArr m ρ c := W5_of_ne m ρ c main_v9 (by decide)

/-- The destination norms when the transform region is left are the ones the first transform region found. -/
private theorem W9_v19 (c : Dev nD) : (W9 m ρ c (Proc.devRef .tc main_v19) : S100000.Idx → EReal) = ndArr m ρ c :=
  calc (W9 m ρ c (Proc.devRef .tc main_v19) : S100000.Idx → EReal)
    _ = W8 m ρ c (Proc.devRef .tc main_v19) := W9_of_ne m ρ c main_v19 (by decide)
    _ = W7 m ρ c (Proc.devRef .tc main_v19) := W8_of_ne m ρ c main_v19 (by decide)
    _ = W5 m ρ c (Proc.devRef .tc main_v19) := (keepB (W5 m ρ c)).2.2.2.2.2
    _ = ndArr m ρ c := W5_of_ne m ρ c main_v19 (by decide)

/-! ## The layer, entry by entry -/

/-- What the transform region leaves in its output array. -/
private abbrev yArr (c : Dev nD) : S100000x128.Idx → EReal := W9 m ρ c (Proc.devRef .tc main_v38)

/-- The transform region's output at (s, j): row `s` of the previous layer's features against column `j` of the weights. -/
private theorem y_apply (c : Dev nD) (s : Fin 100000) (j : Fin 128) :
    yArr m ρ c (ix2 s j) = ∑ k : Fin 128, h1Arr m ρ c (ix2 s k) * A5 m c (ix2 k j) := by
  have e : yArr m ρ c = RegVal.o2 (V8 m ρ) c := W9_arr m ρ c 2
  have hw : RegVal.w2 (V8 m ρ) c = A5 m c := W8_arg5 m ρ c
  calc yArr m ρ c (ix2 s j)
      = RegVal.o2 (V8 m ρ) c (ix2 s j) := congrFun e _
    _ = ∑ k : Fin 128, RegVal.x2 (V8 m ρ) c (ix2 s k) * RegVal.w2 (V8 m ρ) c (ix2 k j) := RegVal.out2 _ c s j
    _ = ∑ k : Fin 128, h1Arr m ρ c (ix2 s k) * A5 m c (ix2 k j) := by rw [hw]

/-- The finalize region's first input: the summed messages. -/
private theorem x3_eq (c : Dev nD) :
    RegVal.x3 (V11 m ρ) c = aggOf (yArr m ρ c) (A1 m c) (A2 m c) (nsArr m ρ c) := by
  have h := read_agg (W9 m ρ c)
  rw [W9_arg1 m ρ c, W9_arg2 m ρ c, W9_v9 m ρ c] at h
  exact h

/-- The finalize region's second input: the destination norms as a column. -/
private theorem n3_eq (c : Dev nD) :
    RegVal.n3 (V11 m ρ) c = shapeCast S100000x1 (ndArr m ρ c) shapeCasts_S100000_S100000x1 := by
  have h := read_ncol (W9 m ρ c)
  rw [W9_v19 m ρ c] at h
  exact h

/-- The finalize region's third input: the bias as a row. -/
private theorem b3_eq (c : Dev nD) :
    RegVal.b3 (V11 m ρ) c = shapeCast S1x128 (A6 m c) shapeCasts_S128_S1x128 := by
  have h := read_brow (W9 m ρ c)
  rw [W9_arg6 m ρ c] at h
  exact h

/-- Layer 2: the transform region, the gather along the edges scaled by the source norm, the sum at the destinations,
    and the finalize region, entry by entry. -/
theorem layer2 (c : Dev nD) (hG : Good m c) :
    Gcn.mat (h2Arr m ρ c) = Gcn.relu (Gcn.layerK (Gcn.vec (nsArr m ρ c)) (Gcn.vec (ndArr m ρ c)) (Gcn.srcNode (A1 m c)) (Gcn.dstInt (A2 m c))
      (Gcn.mat (A5 m c)) (Gcn.vec (A6 m c)) (Gcn.mat (h1Arr m ρ c))) := by
  funext i j
  -- the finalize region's output, from its three inputs
  have e3 : h2Arr m ρ c = RegVal.o3 (V11 m ρ) c := W12_arr m ρ c 3
  -- the summed messages at (i, j)
  have hx : RegVal.x3 (V11 m ρ) c (ix2 i j)
      = ∑ e ∈ Gcn.inEdges (Gcn.dstInt (A2 m c)) i,
          (∑ k : Fin 128, h1Arr m ρ c (ix2 (Gcn.srcNode (A1 m c) e) k) * A5 m c (ix2 k j))
            * nsArr m ρ c (ix1 (Gcn.srcNode (A1 m c) e)) := by
    rw [x3_eq, aggOf_apply _ _ _ _ hG.src_ge hG.src_lt]
    exact Finset.sum_congr rfl fun e _ => by rw [y_apply]
  -- the destination norm of node i
  have hn : RegVal.n3 (V11 m ρ) c (ix2 i (0 : Fin 1)) = ndArr m ρ c (ix1 i) := by
    rw [n3_eq, shapeCast_col_apply]
  -- the bias of column j
  have hb : RegVal.b3 (V11 m ρ) c (ix2 (0 : Fin 1) j) = A6 m c (ix1 j) := by
    rw [b3_eq, shapeCast_a_1a_apply]
  calc Gcn.mat (h2Arr m ρ c) i j
      = RegVal.o3 (V11 m ρ) c (ix2 i j) := congrFun e3 _
    _ = max (RegVal.x3 (V11 m ρ) c (ix2 i j) * RegVal.n3 (V11 m ρ) c (ix2 i (0 : Fin 1)) + RegVal.b3 (V11 m ρ) c (ix2 (0 : Fin 1) j)) 0 :=
        RegVal.out3 _ c i j
    _ = _ := by rw [hx, hn, hb]; rfl

end Cert.KernelIdeal.Val

end
-- ==== Proof.KLayer3.lean ====
/-
  LAYER 3 OF THE KERNEL PROGRAM, from the arrays it starts from to the features its finalize region leaves.

  The transform region multiplies the previous layer's features by the weights. On the host the rows of the product are
  taken along the edges (negative source words wrapped, rows whose index is out of range filled: under the precondition
  every source word names a node, so the wrap does nothing, the range test passes everywhere and the take is the plain row
  gather), each row is scaled by the source norm gathered at the same word, and the rows are summed into zeros at the rows
  the destination words name. The finalize region scales row i of the sums by the destination norm of node i and adds the
  bias. Each step is first read at an entry as a function of ABSTRACT arrays; the program's buffers are then identified
  with those functions of the buffers the layer starts from, and the entries are put together under the sum over the
  edges that end at node i.
-/
import proofs.«421580_j45810121179684_1_alg».proof.Proof.KDefs
import proofs.«421580_j45810121179684_1_alg».proof.Proof.KRegions
import proofs.«421580_j45810121179684_1_alg».proof.Proof.LibGatherRows
import proofs.«421580_j45810121179684_1_alg».proof.Proof.LibGatherVec
import proofs.«421580_j45810121179684_1_alg».proof.Proof.LibScatterRows
import proofs.«421580_j45810121179684_1_alg».proof.Proof.LibMask
import proofs.«421580_j45810121179684_1_alg».proof.Proof.LibTRef

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Broadcasts and reshapes read at an entry -/

section Layout

variable {α : Type} {n C : Nat}

/-- A vector laid out as a column reads, at row `e`, the vector at `e`. -/
private theorem col_apply (hn : n ≠ 1) (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) :=
  broadcastInDim_apply _ h x _ (ix1 e) fun a => match a with
    | ⟨0, _⟩ => by show e.val = if n = 1 then 0 else e.val; rw [if_neg hn]

/-- A vector repeated along the columns reads, at (e, k), the vector at `e`. -/
private theorem rows_apply (hn : n ≠ 1) (h : (⟨1, ![n]⟩ : Shape).BroadcastsInDim ⟨2, ![n, C]⟩ ![0])
    (x : (⟨1, ![n]⟩ : Shape).Idx → α) (e : Fin n) (k : Fin C) :
    broadcastInDim ⟨2, ![n, C]⟩ ![0] h x (ix2 e k) = x (ix1 e) :=
  broadcastInDim_apply _ h x _ (ix1 e) fun a => match a with
    | ⟨0, _⟩ => by show e.val = if n = 1 then 0 else e.val; rw [if_neg hn]

/-- A column repeated along the columns reads, at (e, k), the column at row `e`. -/
private theorem wide_apply (hn : n ≠ 1) (h : (⟨2, ![n, 1]⟩ : Shape).BroadcastsInDim ⟨2, ![n, C]⟩ ![0, 1])
    (x : (⟨2, ![n, 1]⟩ : Shape).Idx → α) (e : Fin n) (k : Fin C) :
    broadcastInDim ⟨2, ![n, C]⟩ ![0, 1] h x (ix2 e k) = x (ix2 e (0 : Fin 1)) :=
  broadcastInDim_apply _ h x _ (ix2 e (0 : Fin 1)) fun a => match a with
    | ⟨0, _⟩ => by show e.val = if n = 1 then 0 else e.val; rw [if_neg hn]
    | ⟨1, _⟩ => by show 0 = if (1 : Nat) = 1 then 0 else k.val; rw [if_pos rfl]

/-- A vector reshaped to a column reads, at row `i`, the vector at `i`. -/
private theorem shapeCast_a_a1_apply (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The host steps of one layer, as functions of the arrays they read, and what they hold at an entry -/

section Steps

/-- The wrap of negative source words: `a < 0 ? a + 100000 : a`. -/
private abbrev wrapI (a : IVec S1600000 32) : IVec S1600000 32 :=
  select (cmpi .slt a (broadcastInDim S1600000 ![] bcast_S_S1600000 (constantI S_ 32 0#32)))
    (addi a (broadcastInDim S1600000 ![] bcast_S_S1600000 (constantI S_ 32 100000#32))) a

/-- Source words that are not negative are left alone by the wrap. -/
private theorem wrapI_eq (a : IVec S1600000 32) (h0 : ∀ e, IntOp.cmpi .sge (a e) 0#32 = 1#1) : wrapI a = a := by
  funext e
  exact TakeMask.wrap_eq_self (a e) (h0 e)

/-- The words as a column of start indices. -/
private abbrev colI (a : IVec S1600000 32) : IVec S1600000x1 32 :=
  broadcastInDim S1600000x1 ![0] bcast_S1600000_S1600000x1_0 a

private theorem colI_apply (a : IVec S1600000 32) (e : Fin 1600000) (u : Fin 1) : colI a (ix2 e u) = a (ix1 e) :=
  col_apply (by decide) _ a e u

/-- The range test `0 ≤ idx ≤ 99999` on the column, reduced by `and` along its unit axis. -/
private abbrev maskI (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Source words in [0, 100000) all pass the range test. -/
private theorem maskI_one (a : IVec S1600000 32) (h0 : ∀ e, IntOp.cmpi .sge (a e) 0#32 = 1#1)
    (h1 : ∀ e, IntOp.cmpi .slt (a e) 100000#32 = 1#1) (e : S1600000.Idx) : maskI (colI a) e = 1#1 := by
  refine TakeMask.reduce_andi_of_all_one _ _ _ _ (fun _ => rfl) (fun i => ?_) e
  obtain ⟨r, u, rfl⟩ : ∃ r u, i = ix2 r u := ⟨i 0, i 1, eq_ix2 i⟩
  show IntOp.andi (IntOp.cmpi .sge (colI a (ix2 r u)) 0#32) (IntOp.cmpi .sle (colI a (ix2 r u)) 99999#32) = 1#1
  rw [colI_apply]
  exact TakeMask.inrange_of_pre _ (h0 _) (h1 _)

/-- The filled take: rows of `y` gathered at the column, rows whose index is out of range filled. -/
private abbrev takeF (y : S100000x40.Idx → EReal) (col : IVec S1600000x1 32) : S1600000x40.Idx → EReal :=
  select (broadcastInDim S1600000x40 ![0] bcast_S1600000_S1600000x40_0 (maskI col))
    (Host.gather gather_S100000x40_S1600000x1_S1600000x40_1_0_n_n_0_1_140 y col)
    (broadcastInDim S1600000x40 ![] bcast_S_S1600000x40 (constant (F := Ideal) S_ .f32 0x7FC00000#32))

/-- The row of the table that the row gather reads for edge `e` is the edge's source node: the same clamp of the same word. -/
private theorem row_eq_srcNode (a : IVec S1600000 32) (e : Fin 1600000) :
    GatherRows.row gather_S100000x40_S1600000x1_S1600000x40_1_0_n_n_0_1_140 (colI a) (by decide) e = Gcn.srcNode a e := by
  apply Fin.ext
  show min (colI a (ix2 e (0 : Fin 1))).toInt.toNat (100000 - 1) = min (a (ix1 e)).toInt.toNat (100000 - 1)
  rw [colI_apply]

/-- With every source word in range, row `e` of the take is the row of `y` at edge `e`'s source node. -/
private theorem takeF_apply (y : S100000x40.Idx → EReal) (a : IVec S1600000 32)
    (h0 : ∀ e, IntOp.cmpi .sge (a e) 0#32 = 1#1) (h1 : ∀ e, IntOp.cmpi .slt (a e) 100000#32 = 1#1)
    (e : Fin 1600000) (j : Fin 40) : takeF y (colI a) (ix2 e j) = y (ix2 (Gcn.srcNode a e) j) := by
  have hm : ∀ i, broadcastInDim S1600000x40 ![0] bcast_S1600000_S1600000x40_0 (maskI (colI a)) i = 1#1 := by
    intro i
    obtain ⟨r, k, rfl⟩ : ∃ r k, i = ix2 r k := ⟨i 0, i 1, eq_ix2 i⟩
    rw [rows_apply (by decide)]
    exact maskI_one a h0 h1 _
  have hs := TakeMask.select_of_all_one _
    (Host.gather gather_S100000x40_S1600000x1_S1600000x40_1_0_n_n_0_1_140 y (colI a))
    (broadcastInDim S1600000x40 ![] bcast_S_S1600000x40 (constant (F := Ideal) S_ .f32 0x7FC00000#32)) hm
  have hg := GatherRows.gather_apply gather_S100000x40_S1600000x1_S1600000x40_1_0_n_n_0_1_140
    rfl rfl rfl rfl rfl rfl rfl (by decide) y (colI a) e j
  rw [row_eq_srcNode] at hg
  exact (congrFun hs (ix2 e j)).trans hg

/-- The source norms gathered along the edges, as a column, repeated along the columns. -/
private abbrev gnormF (ns : S100000.Idx → EReal) (col : IVec S1600000x1 32) : S1600000x40.Idx → EReal :=
  broadcastInDim S1600000x40 ![0, 1] bcast_S1600000x1_S1600000x40_0_1
    (broadcastInDim S1600000x1 ![0] bcast_S1600000_S1600000x1_0
      (Host.gather gather_S100000_S1600000x1_S1600000_n_0_n_n_0_1_1 ns col))

/-- Entry (e, j) of the gathered norms is the norm of edge `e`'s source node. -/
private theorem gnormF_apply (ns : S100000.Idx → EReal) (a : IVec S1600000 32) (e : Fin 1600000) (j : Fin 40) :
    gnormF ns (colI a) (ix2 e j) = ns (ix1 (Gcn.srcNode a e)) := by
  have hw := wide_apply (C := 40) (by decide) bcast_S1600000x1_S1600000x40_0_1
    (broadcastInDim S1600000x1 ![0] bcast_S1600000_S1600000x1_0
      (Host.gather gather_S100000_S1600000x1_S1600000_n_0_n_n_0_1_1 ns (colI a))) e j
  have hc := col_apply (by decide) bcast_S1600000_S1600000x1_0
    (Host.gather gather_S100000_S1600000x1_S1600000_n_0_n_n_0_1_1 ns (colI a)) e (0 : Fin 1)
  have hg := GatherVec.gather_apply gather_S100000_S1600000x1_S1600000_n_0_n_n_0_1_1
    rfl rfl rfl rfl rfl rfl rfl (by decide) ns (colI a) e
  have hr : (⟨min (colI a (ix2 e (0 : Fin 1))).toInt.toNat (100000 - 1), by omega⟩ : Fin 100000) = Gcn.srcNode a e := by
    apply Fin.ext
    show min (colI a (ix2 e (0 : Fin 1))).toInt.toNat (100000 - 1) = min (a (ix1 e)).toInt.toNat (100000 - 1)
    rw [colI_apply]
  rw [hr] at hg
  exact hw.trans (hc.trans hg)

/-- The rows of `ys` summed into zeros at the rows the destination words name. -/
private abbrev aggF (ys : S1600000x40.Idx → EReal) (a2 : IVec S1600000 32) : S100000x40.Idx → EReal :=
  Host.scatterAdd (F := Ideal) scatter_S100000x40_S1600000x1_S1600000x40_1_0_0_1
    (broadcastInDim S100000x40 ![] bcast_S_S100000x40 (constant (F := Ideal) S_ .f32 0x00000000#32))
    (colI a2) ys

/-- On the extended reals the host's scatter-add is the exact sum. -/
private theorem aggF_eq (ys : S1600000x40.Idx → EReal) (a2 : IVec S1600000 32) :
    aggF ys a2 = Ideal.hostScatterAdd scatter_S100000x40_S1600000x1_S1600000x40_1_0_0_1
      (broadcastInDim S100000x40 ![] bcast_S_S100000x40 (constant (F := Ideal) S_ .f32 0x00000000#32)) (colI a2) ys :=
  Ideal.hostScatterAdd_def scatter_S100000x40_S1600000x1_S1600000x40_1_0_0_1 .single
    (broadcastInDim S100000x40 ![] bcast_S_S100000x40 (constant (F := Ideal) S_ .f32 0x00000000#32)) (colI a2) ys

/-- Entry (i, j) of the sum is the sum, over the edges that end at node `i`, of `ys` at (e, j). -/
private theorem aggF_apply (ys : S1600000x40.Idx → EReal) (a2 : IVec S1600000 32) (i : Fin 100000) (j : Fin 40) :
    aggF ys a2 (ix2 i j) = ∑ e ∈ Gcn.inEdges (Gcn.dstInt a2) i, ys (ix2 e j) := by
  have hs := ScatterRows.scatterAdd_apply scatter_S100000x40_S1600000x1_S1600000x40_1_0_0_1 rfl rfl rfl rfl
    (broadcastInDim S100000x40 ![] bcast_S_S100000x40 (constant (F := Ideal) S_ .f32 0x00000000#32)) (colI a2) ys i j
  -- the operand is zero everywhere
  have hz : broadcastInDim S100000x40 ![] bcast_S_S100000x40 (constant (F := Ideal) S_ .f32 0x00000000#32) (ix2 i j)
      = (0 : EReal) := by
    rw [ValueIdx.broadcastInDim_scalar_apply, ValueIdx.constant_apply]
    exact Ideal.ofBits_zero_f32
  rw [hz, zero_add] at hs
  rw [aggF_eq, hs]
  -- the edges whose destination word reads as `i` are the edges that end at node `i`
  unfold Gcn.inEdges Gcn.dstInt
  refine Finset.sum_congr (Finset.filter_congr fun e _ => ?_) fun _ _ => rfl
  rw [colI_apply]

end Steps

/-! ## The arrays layer 3 reads, carried from where they were made: no region and no host stretch in between writes them -/

section Carry

/-- A buffer that no operation of a host stretch writes is the same after the stretch. -/
local macro "keep_through " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- The source norms reach the third transform region's exit as the first transform region found them. -/
private theorem W13_main_v9 (c : Dev nD) :
    W13 (F := Ideal) m ρ c (Proc.devRef .tc main_v9) = W4 (F := Ideal) m ρ c (Proc.devRef .tc main_v9) :=
  calc W13 (F := Ideal) m ρ c (Proc.devRef .tc main_v9)
    _ = W12 (F := Ideal) m ρ c (Proc.devRef .tc main_v9) := W13_of_ne m ρ c main_v9 (by decide)
    _ = W11 (F := Ideal) m ρ c (Proc.devRef .tc main_v9) := W12_of_ne m ρ c main_v9 (by decide)
    _ = W10 (F := Ideal) m ρ c (Proc.devRef .tc main_v9) := by keep_through hostOps3_1
    _ = W9 (F := Ideal) m ρ c (Proc.devRef .tc main_v9) := by keep_through hostOps3
    _ = W8 (F := Ideal) m ρ c (Proc.devRef .tc main_v9) := W9_of_ne m ρ c main_v9 (by decide)
    _ = W7 (F := Ideal) m ρ c (Proc.devRef .tc main_v9) := W8_of_ne m ρ c main_v9 (by decide)
    _ = W6 (F := Ideal) m ρ c (Proc.devRef .tc main_v9) := by keep_through hostOps1_1
    _ = W5 (F := Ideal) m ρ c (Proc.devRef .tc main_v9) := by keep_through hostOps1
    _ = W4 (F := Ideal) m ρ c (Proc.devRef .tc main_v9) := W5_of_ne m ρ c main_v9 (by decide)

/-- So do the destination norms. -/
private theorem W13_main_v19 (c : Dev nD) :
    W13 (F := Ideal) m ρ c (Proc.devRef .tc main_v19) = W4 (F := Ideal) m ρ c (Proc.devRef .tc main_v19) :=
  calc W13 (F := Ideal) m ρ c (Proc.devRef .tc main_v19)
    _ = W12 (F := Ideal) m ρ c (Proc.devRef .tc main_v19) := W13_of_ne m ρ c main_v19 (by decide)
    _ = W11 (F := Ideal) m ρ c (Proc.devRef .tc main_v19) := W12_of_ne m ρ c main_v19 (by decide)
    _ = W10 (F := Ideal) m ρ c (Proc.devRef .tc main_v19) := by keep_through hostOps3_1
    _ = W9 (F := Ideal) m ρ c (Proc.devRef .tc main_v19) := by keep_through hostOps3
    _ = W8 (F := Ideal) m ρ c (Proc.devRef .tc main_v19) := W9_of_ne m ρ c main_v19 (by decide)
    _ = W7 (F := Ideal) m ρ c (Proc.devRef .tc main_v19) := W8_of_ne m ρ c main_v19 (by decide)
    _ = W6 (F := Ideal) m ρ c (Proc.devRef .tc main_v19) := by keep_through hostOps1_1
    _ = W5 (F := Ideal) m ρ c (Proc.devRef .tc main_v19) := by keep_through hostOps1
    _ = W4 (F := Ideal) m ρ c (Proc.devRef .tc main_v19) := W5_of_ne m ρ c main_v19 (by decide)

/-- The source words at the third transform region's exit are the launched ones: nothing after writes them either. -/
private theorem W13_main_arg1 (c : Dev nD) :
    W13 (F := Ideal) m ρ c (Proc.devRef .tc main_arg1) = m ((c : Thread nD τ).loc main_arg1) :=
  calc W13 (F := Ideal) m ρ c (Proc.devRef .tc main_arg1)
    _ = W14 (F := Ideal) m ρ c (Proc.devRef .tc main_arg1) := Eq.symm (by keep_through hostOps5)
    _ = W15 (F := Ideal) m ρ c (Proc.devRef .tc main_arg1) := Eq.symm (by keep_through hostOps5_1)
    _ = W16 (F := Ideal) m ρ c (Proc.devRef .tc main_arg1) := (W16_of_ne m ρ c main_arg1 (by decide)).symm
    _ = m ((c : Thread nD τ).loc main_arg1) := W16_main_arg1 m ρ c

/-- So are the destination words. -/
private theorem W13_main_arg2 (c : Dev nD) :
    W13 (F := Ideal) m ρ c (Proc.devRef .tc main_arg2) = m ((c : Thread nD τ).loc main_arg2) :=
  calc W13 (F := Ideal) m ρ c (Proc.devRef .tc main_arg2)
    _ = W14 (F := Ideal) m ρ c (Proc.devRef .tc main_arg2) := Eq.symm (by keep_through hostOps5)
    _ = W15 (F := Ideal) m ρ c (Proc.devRef .tc main_arg2) := Eq.symm (by keep_through hostOps5_1)
    _ = W16 (F := Ideal) m ρ c (Proc.devRef .tc main_arg2) := (W16_of_ne m ρ c main_arg2 (by decide)).symm
    _ = m ((c : Thread nD τ).loc main_arg2) := W16_main_arg2 m ρ c

/-- So is the third layer's bias. -/
private theorem W13_main_arg8 (c : Dev nD) :
    W13 (F := Ideal) m ρ c (Proc.devRef .tc main_arg8) = m ((c : Thread nD τ).loc main_arg8) :=
  calc W13 (F := Ideal) m ρ c (Proc.devRef .tc main_arg8)
    _ = W14 (F := Ideal) m ρ c (Proc.devRef .tc main_arg8) := Eq.symm (by keep_through hostOps5)
    _ = W15 (F := Ideal) m ρ c (Proc.devRef .tc main_arg8) := Eq.symm (by keep_through hostOps5_1)
    _ = W16 (F := Ideal) m ρ c (Proc.devRef .tc main_arg8) := (W16_of_ne m ρ c main_arg8 (by decide)).symm
    _ = m ((c : Thread nD τ).loc main_arg8) := W16_main_arg8 m ρ c

/-- The third layer's weights as the third transform region finds them are the launched ones: the region only reads them. -/
private theorem W12_main_arg7 (c : Dev nD) :
    W12 (F := Ideal) m ρ c (Proc.devRef .tc main_arg7) = m ((c : Thread nD τ).loc main_arg7) :=
  calc W12 (F := Ideal) m ρ c (Proc.devRef .tc main_arg7)
    _ = W13 (F := Ideal) m ρ c (Proc.devRef .tc main_arg7) :=
        ((W13_arr m ρ c 1).trans (((dat4 (V12 m ρ) c).arrAt_in 1 rfl _).trans (A_eq4 (V12 m ρ) c 1))).symm
    _ = W14 (F := Ideal) m ρ c (Proc.devRef .tc main_arg7) := Eq.symm (by keep_through hostOps5)
    _ = W15 (F := Ideal) m ρ c (Proc.devRef .tc main_arg7) := Eq.symm (by keep_through hostOps5_1)
    _ = W16 (F := Ideal) m ρ c (Proc.devRef .tc main_arg7) := (W16_of_ne m ρ c main_arg7 (by decide)).symm
    _ = m ((c : Thread nD τ).loc main_arg7) := W16_main_arg7 m ρ c

end Carry

/-! ## What the two host stretches of layer 3 leave in the finalize region's three input arrays -/

section Stretch

/-- The transformed features (the third transform region's output), and the finalize region's three inputs: the summed
    messages, the destination norms as a column, the bias as a row. -/
private abbrev yArr (c : Dev nD) : S100000x40.Idx → EReal := W13 (F := Ideal) m ρ c (Proc.devRef .tc main_v56)
private abbrev aggArr (c : Dev nD) : S100000x40.Idx → EReal := W15 (F := Ideal) m ρ c (Proc.devRef .tc main_v70)
private abbrev ndCol (c : Dev nD) : S100000x1.Idx → EReal := W15 (F := Ideal) m ρ c (Proc.devRef .tc main_v71)
private abbrev bRow (c : Dev nD) : S1x40.Idx → EReal := W15 (F := Ideal) m ρ c (Proc.devRef .tc main_v72)

/-- At a literal reference the value's type IS the buffer's, so carrying contents to it or from it changes nothing. -/
private theorem toBuf_main_v57 (X : (⟨S1600000x40, .f32⟩ : BufTy).Contents (Elt Ideal)) :
    (StableHlo.TRef.of (sig := sig) (T := ⟨S1600000x40, .f32⟩) main_v57).toBuf X = X := rfl
private theorem ofBuf_main_v56 (X : (main_v56 : Ref sig .tc).ty.Contents (Elt Ideal)) :
    (StableHlo.TRef.of (sig := sig) (T := ⟨S100000x40, .f32⟩) main_v56).ofBuf X = X := rfl
private theorem ofBuf_main_arg1 (X : (main_arg1 : Ref sig .tc).ty.Contents (Elt Ideal)) :
    (StableHlo.TRef.of (sig := sig) (T := ⟨S1600000, .i32⟩) main_arg1).ofBuf X = X := rfl

set_option maxHeartbeats 8000000 in
/-- The summed messages: the take of the transformed features along the edges, scaled by the gathered source norms,
summed at the destinations. -/
private theorem aggArr_eq (c : Dev nD) :
    aggArr m ρ c
      = aggF (mulf (F := Ideal) (φ := .f32)
          (takeF (yArr m ρ c) (colI (wrapI (W13 (F := Ideal) m ρ c (Proc.devRef .tc main_arg1)))))
          (gnormF (W13 (F := Ideal) m ρ c (Proc.devRef .tc main_v9))
            (colI (wrapI (W13 (F := Ideal) m ρ c (Proc.devRef .tc main_arg1))))))
        (W13 (F := Ideal) m ρ c (Proc.devRef .tc main_arg2)) := by
  show StableHlo.after hostOps5_1 (StableHlo.after hostOps5 (W13 (F := Ideal) m ρ c)) (Proc.devRef .tc main_v70) = _
  after_results_simp
  simp only [StableHlo.TRef.ofBuf_toBuf, toBuf_main_v57, ofBuf_main_v56, ofBuf_main_arg1]

set_option maxHeartbeats 8000000 in
/-- The destination norms as a column. -/
private theorem ndCol_eq (c : Dev nD) :
    ndCol m ρ c = shapeCast S100000x1 (W13 (F := Ideal) m ρ c (Proc.devRef .tc main_v19) : S100000.Idx → EReal)
      shapeCasts_S100000_S100000x1 := by
  show StableHlo.after hostOps5_1 (StableHlo.after hostOps5 (W13 (F := Ideal) m ρ c)) (Proc.devRef .tc main_v71) = _
  after_results_simp
  rfl

set_option maxHeartbeats 8000000 in
/-- The bias as a row. -/
private theorem bRow_eq (c : Dev nD) :
    bRow m ρ c = shapeCast S1x40 (W13 (F := Ideal) m ρ c (Proc.devRef .tc main_arg8) : S40.Idx → EReal)
      shapeCasts_S40_S1x40 := by
  show StableHlo.after hostOps5_1 (StableHlo.after hostOps5 (W13 (F := Ideal) m ρ c)) (Proc.devRef .tc main_v72) = _
  after_results_simp
  rfl

end Stretch

/-- Layer 3: the transform region, the gather along the edges scaled by the source norm, the sum at the destinations,
    and the finalize region, entry by entry. -/
theorem layer3 (c : Dev nD) (hG : Good m c) :
    Gcn.mat (outArr m ρ c) = Gcn.layerK (Gcn.vec (nsArr m ρ c)) (Gcn.vec (ndArr m ρ c)) (Gcn.srcNode (A1 m c)) (Gcn.dstInt (A2 m c))
      (Gcn.mat (A7 m c)) (Gcn.vec (A8 m c)) (Gcn.mat (h2Arr m ρ c)) := by
  funext i j
  -- the finalize region: the summed messages times the destination norm of the row, plus the bias of the column
  have hfin : outArr m ρ c (ix2 i j)
      = aggArr m ρ c (ix2 i j) * ndCol m ρ c (ix2 i (0 : Fin 1)) + bRow m ρ c (ix2 (0 : Fin 1) j) := by
    have h16 : outArr m ρ c = RegVal.o5 (V15 m ρ) c := W16_arr m ρ c 3
    rw [h16]
    exact RegVal.out5 (V15 m ρ) c i j
  -- the transform region: the previous layer's features times the weights
  have hy : ∀ s : Fin 100000, yArr m ρ c (ix2 s j) = ∑ k : Fin 128, h2Arr m ρ c (ix2 s k) * A7 m c (ix2 k j) := by
    intro s
    have h13 : yArr m ρ c = RegVal.o4 (V12 m ρ) c := W13_arr m ρ c 2
    have hw : (RegVal.w4 (V12 m ρ) c : S128x40.Idx → EReal) = A7 m c := W12_main_arg7 m ρ c
    rw [h13, RegVal.out4 (V12 m ρ) c s j, hw]
  simp only [Gcn.mat, Gcn.layerK, Gcn.vec]
  rw [hfin, aggArr_eq, ndCol_eq, bRow_eq, W13_main_arg1, W13_main_arg2, W13_main_arg8, W13_main_v9,
    W13_main_v19, wrapI_eq _ hG.src_ge, aggF_apply, shapeCast_a_a1_apply, shapeCast_a_1a_apply]
  -- under the sum over the edges into node `i`: the take reads the transformed features at the edge's source node, the
  -- gathered norm the source norm there
  have hsum : (∑ e ∈ Gcn.inEdges (Gcn.dstInt (A2 m c)) i,
        mulf (F := Ideal) (φ := .f32) (takeF (yArr m ρ c) (colI (A1 m c))) (gnormF (nsArr m ρ c) (colI (A1 m c))) (ix2 e j))
      = ∑ e ∈ Gcn.inEdges (Gcn.dstInt (A2 m c)) i,
          (∑ k, h2Arr m ρ c (ix2 (Gcn.srcNode (A1 m c) e) k) * A7 m c (ix2 k j))
            * nsArr m ρ c (ix1 (Gcn.srcNode (A1 m c) e)) := by
    refine Finset.sum_congr rfl fun e _ => ?_
    rw [mulf_apply, takeF_apply _ _ hG.src_ge hG.src_lt, gnormF_apply, hy]
  rw [hsum]

end Cert.KernelIdeal.Val

end
-- ==== Proof.KValue.lean ====
/-
  THE KERNEL PROGRAM'S RESULT: the three layers composed, the weights applied before the edges are followed.
-/
import proofs.«421580_j45810121179684_1_alg».proof.Proof.KLayer1
import proofs.«421580_j45810121179684_1_alg».proof.Proof.KLayer2
import proofs.«421580_j45810121179684_1_alg».proof.Proof.KLayer3

noncomputable section

namespace Cert.KernelIdeal.Val

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result array is three layers of the launched features: each layer's output is the next layer's input. -/
theorem value (c : Dev nD) (hG : Good m c) :
    Gcn.mat (outArr m ρ c) = Gcn.gcnK (Gcn.vec (nsArr m ρ c)) (Gcn.vec (ndArr m ρ c)) (Gcn.srcNode (A1 m c)) (Gcn.dstInt (A2 m c))
      (Gcn.mat (A3 m c)) (Gcn.vec (A4 m c)) (Gcn.mat (A5 m c)) (Gcn.vec (A6 m c)) (Gcn.mat (A7 m c)) (Gcn.vec (A8 m c))
      (Gcn.mat (A0 m c)) := by
  rw [layer3 m ρ c hG, layer2 m ρ c hG, layer1 m ρ c hG]
  rfl

end Cert.KernelIdeal.Val

end
-- ==== Proof.RefValue.lean ====
/-
  The reference's result, read at an entry: three graph-convolution layers, each scaling the features by the source
  norm, gathering them along the edges, summing them at the destinations, scaling by the destination norm, and only then
  multiplying by the layer's weights and adding its bias; the first two layers are rectified. Stated over the stages of
  the reference's run, each a function of the argument arrays.
-/
import proofs.«421580_j45810121179684_1_alg».proof.Proof.RefRead
import proofs.«421580_j45810121179684_1_alg».proof.Proof.Bridge
import proofs.«421580_j45810121179684_1_alg».proof.Proof.PreFacts
import proofs.«421580_j45810121179684_1_alg».proof.Proof.LibGatherRows
import proofs.«421580_j45810121179684_1_alg».proof.Proof.LibScatterRows
import proofs.«421580_j45810121179684_1_alg».proof.Proof.LibMask
import proofs.«421580_j45810121179684_1_alg».proof.Proof.LibTRef

set_option maxRecDepth 16384

noncomputable section

namespace Cert.ReferenceIdeal.Val

open Cert.ReferenceIdeal Cert.ReferenceIdeal.Gen Cert.ReferenceIdeal.ReadP
open Idealize.ShloMosaic Idealize.ShloMosaic.ValueIdx

variable (x0 : S100000x128.Idx → EReal) (x1 x2 : IVec S1600000 32) (x3 : S128x128.Idx → EReal) (x4 : S128.Idx → EReal)
  (x5 : S128x128.Idx → EReal) (x6 : S128.Idx → EReal) (x7 : S128x40.Idx → EReal) (x8 : S40.Idx → EReal)

/-- The source and destination norms the reference computes. -/
abbrev nsArr : S100000.Idx → EReal := val_main_v9 (F := Ideal) x1
abbrev ndArr : S100000.Idx → EReal := val_main_v19 (F := Ideal) x2
/-- The features after the first and second layers, and the result. -/
abbrev h1Arr : S100000x128.Idx → EReal := val_main_v40 (F := Ideal) x0 x1 x2 x3 x4
abbrev h2Arr : S100000x128.Idx → EReal := val_main_v61 (F := Ideal) x0 x1 x2 x3 x4 x5 x6
abbrev outArr : S100000x40.Idx → EReal := val_main_v81 (F := Ideal) x0 x1 x2 x3 x4 x5 x6 x7 x8

/-! ### Reading the broadcasts at an index -/

/-- A vector laid as an [n × 1] column reads, at (p, q), the vector at `p`. -/
private theorem col_apply {α : Type} {n : Nat} (hn : n ≠ 1)
    (hb : (⟨1, ![n]⟩ : Shape).BroadcastsInDim ⟨2, ![n, 1]⟩ ![0]) (v : (⟨1, ![n]⟩ : Shape).Idx → α) (p : Fin n) (q : Fin 1) :
    broadcastInDim ⟨2, ![n, 1]⟩ ![0] hb v (ix2 p q) = v (ix1 p) :=
  broadcastInDim_apply _ hb v (ix2 p q) (ix1 p) (fun a => match a with
    | ⟨0, _⟩ => by show p.val = if n = 1 then 0 else p.val; rw [if_neg hn])

/-- An [n × 1] column laid along the rows of an [n × m] rectangle reads, at (p, q), the column at (p, 0). -/
private theorem rect_apply {α : Type} {n m : Nat} (hn : n ≠ 1)
    (hb : (⟨2, ![n, 1]⟩ : Shape).BroadcastsInDim ⟨2, ![n, m]⟩ ![0, 1]) (v : (⟨2, ![n, 1]⟩ : Shape).Idx → α) (p : Fin n) (q : Fin m) :
    broadcastInDim ⟨2, ![n, m]⟩ ![0, 1] hb v (ix2 p q) = v (ix2 p (0 : Fin 1)) :=
  broadcastInDim_apply _ hb v (ix2 p q) (ix2 p (0 : Fin 1)) (fun a => match a with
    | ⟨0, _⟩ => by show p.val = if n = 1 then 0 else p.val; rw [if_neg hn]
    | ⟨1, _⟩ => by show 0 = if (1 : Nat) = 1 then 0 else q.val; rw [if_pos rfl])

/-! ### The row scatter-add from zeros and the row gather, at an entry -/

/-- A row scatter-add into an operand that is zero at (i, c): the sum of the updates of the rows whose word is `i`. -/
private theorem scatter_zero_apply (zeros : S100000x128.Idx → EReal) (dcol : IVec S1600000x1 32)
    (upd : S1600000x128.Idx → EReal) (i : Fin 100000) (c : Fin 128) (hz : zeros (ix2 i c) = 0) :
    Host.scatterAdd (F := Ideal) (φ := .f32) scatter_S100000x128_S1600000x1_S1600000x128_1_0_0_1 zeros dcol upd (ix2 i c)
      = ∑ e ∈ Finset.univ.filter (fun e : Fin 1600000 => (dcol (ix2 e (0 : Fin 1))).toInt = (i.val : Int)), upd (ix2 e c) := by
  show Ideal.hostScatterAdd scatter_S100000x128_S1600000x1_S1600000x128_1_0_0_1 zeros dcol upd (ix2 i c) = _
  rw [ScatterRows.scatterAdd_apply scatter_S100000x128_S1600000x1_S1600000x128_1_0_0_1 rfl rfl rfl rfl, hz, zero_add]

/-- The wrapped source words as a column read, at (e, 0), the source word itself when it is not negative. -/
private theorem srccol_apply (x1 : IVec S1600000 32) (hge : ∀ e, IntOp.cmpi .sge (x1 e) 0#32 = 1#1) (e : Fin 1600000) :
    broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1) (ix2 e (0 : Fin 1))
      = x1 (ix1 e) := by
  rw [col_apply (by decide)]
  show Scalar.select
      (IntOp.cmpi .slt (x1 (ix1 e)) (broadcastInDim S1600000 ![] bcast_S_S1600000 (constantI S_ 32 0#32) (ix1 e)))
      (IntOp.addi (x1 (ix1 e)) (broadcastInDim S1600000 ![] bcast_S_S1600000 (constantI S_ 32 100000#32) (ix1 e)))
      (x1 (ix1 e)) = x1 (ix1 e)
  rw [broadcastInDim_scalar_apply, broadcastInDim_scalar_apply]
  exact TakeMask.wrap_eq_self _ (hge _)

/-- A row gather whose start column holds, at (e, 0), edge `e`'s source word reads the table at row `srcNode e`. -/
private theorem gather_src_apply (tbl : S100000x128.Idx → EReal) (scol : IVec S1600000x1 32) (x1 : IVec S1600000 32)
    (hs : ∀ e : Fin 1600000, scol (ix2 e (0 : Fin 1)) = x1 (ix1 e)) (e : Fin 1600000) (k : Fin 128) :
    Host.gather gather_S100000x128_S1600000x1_S1600000x128_1_0_n_n_0_1_1128 tbl scol (ix2 e k)
      = tbl (ix2 (Gcn.srcNode x1 e) k) := by
  rw [GatherRows.gather_apply gather_S100000x128_S1600000x1_S1600000x128_1_0_n_n_0_1_1128 rfl rfl rfl rfl rfl rfl rfl
    (by decide : 0 < 100000)]
  have hrow : GatherRows.row gather_S100000x128_S1600000x1_S1600000x128_1_0_n_n_0_1_1128 scol (by decide : 0 < 100000) e
      = Gcn.srcNode x1 e :=
    Fin.ext (by
      show min (scol (ix2 e (0 : Fin 1))).toInt.toNat (100000 - 1) = min (x1 (ix1 e)).toInt.toNat (100000 - 1)
      rw [hs e])
  rw [hrow]

/-! ### One layer's aggregation -/

/-- What the reference computes before a layer's weights: the features scaled by the source norm, gathered along the
edges (the source words wrapped first), summed at the destinations from zeros, scaled by the destination norm. -/
private def agg (h : S100000x128.Idx → EReal) (ns nd : S100000.Idx → EReal) (x1 x2 : IVec S1600000 32) :
    S100000x128.Idx → EReal :=
  mulf (F := Ideal) (φ := .f32)
    (Host.scatterAdd (F := Ideal) (φ := .f32) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 x2)
      (Host.gather gather_S100000x128_S1600000x1_S1600000x128_1_0_n_n_0_1_1128
        (mulf (F := Ideal) (φ := .f32) h
          (broadcastInDim S100000x128 ![0, 1] bcast_S100000x1_S100000x128_0_1
            (broadcastInDim S100000x1 ![0] bcast_S100000_S100000x1_0 ns)))
        (broadcastInDim S1600000x1 ![0] bcast_S1600000_S1600000x1_0
          (select (cmpi .slt x1 (broadcastInDim S1600000 ![] bcast_S_S1600000 (constantI S_ 32 0#32)))
            (addi x1 (broadcastInDim S1600000 ![] bcast_S_S1600000 (constantI S_ 32 100000#32))) x1))))
    (broadcastInDim S100000x128 ![0, 1] bcast_S100000x1_S100000x128_0_1
      (broadcastInDim S100000x1 ![0] bcast_S100000_S100000x1_0 nd))

/-- The aggregation at node `i`, column `k`: the sum over the edges into `i` of the source's feature times the source's
norm, times the destination's norm. -/
private theorem agg_apply (h : S100000x128.Idx → EReal) (ns nd : S100000.Idx → EReal) (x1 x2 : IVec S1600000 32)
    (hge : ∀ e, IntOp.cmpi .sge (x1 e) 0#32 = 1#1) (i : Fin 100000) (k : Fin 128) :
    agg h ns nd x1 x2 (ix2 i k)
      = (∑ e ∈ Gcn.inEdges (Gcn.dstInt x2) i, h (ix2 (Gcn.srcNode x1 e) k) * ns (ix1 (Gcn.srcNode x1 e))) * nd (ix1 i) := by
  unfold agg
  rw [mulf_apply, rect_apply (by decide), col_apply (by decide)]
  rw [scatter_zero_apply _ _ _ i k (by rw [broadcastInDim_scalar_apply, constant_apply, Ideal.ofBits_zero_f32])]
  -- the rows that land on `i` are the edges into `i`
  have hfil : (Finset.univ.filter fun e : Fin 1600000 =>
      (broadcastInDim S1600000x1 ![0] bcast_S1600000_S1600000x1_0 x2 (ix2 e (0 : Fin 1))).toInt = (i.val : Int))
      = Gcn.inEdges (Gcn.dstInt x2) i := by
    unfold Gcn.inEdges Gcn.dstInt
    refine Finset.filter_congr (fun e _ => ?_)
    rw [col_apply (by decide)]
  rw [hfil]
  -- each gathered row is the scaled table's row at the edge's source
  rw [Finset.sum_congr rfl (fun e _ => gather_src_apply _ _ x1 (srccol_apply x1 hge) e k)]
  simp only [mulf_apply, rect_apply (n := 100000) (by decide), col_apply (n := 100000) (by decide)]

/-- One layer at an entry, from its aggregation: the aggregation times the weights, summed over the columns, plus the
bias, is the layer with the weights applied after the edges are followed. -/
private theorem layer_entry {C : Nat} (h : S100000x128.Idx → EReal) (ns nd : S100000.Idx → EReal) (x1 x2 : IVec S1600000 32)
    (W : (⟨2, ![128, C]⟩ : Shape).Idx → EReal) (b : (⟨1, ![C]⟩ : Shape).Idx → EReal)
    (hge : ∀ e, IntOp.cmpi .sge (x1 e) 0#32 = 1#1) (i : Fin 100000) (j : Fin C) :
    (∑ k : Fin 128, agg h ns nd x1 x2 (ix2 i k) * W (ix2 k j)) + b (ix1 j)
      = Gcn.layerR (Gcn.vec ns) (Gcn.vec nd) (Gcn.srcNode x1) (Gcn.dstInt x2) (Gcn.mat W) (Gcn.vec b) (Gcn.mat h) i j := by
  simp only [agg_apply h ns nd x1 x2 hge, Gcn.layerR, Gcn.mat, Gcn.vec]

/-! ### The norms are real -/

/-- A finite sum of real numbers, taken in the extended reals, is the real sum. -/
private theorem coe_sum {ι : Type} (t : Finset ι) (f : ι → ℝ) :
    (∑ a ∈ t, ((f a : ℝ) : EReal)) = ((∑ a ∈ t, f a : ℝ) : EReal) := by
  classical
  induction t using Finset.induction_on with
  | empty => simp
  | insert a t ha ih => rw [Finset.sum_insert ha, Finset.sum_insert ha, ih, EReal.coe_add]

/-- A scatter-add of ones into zeros holds, at every node, zero plus a finite sum of ones: a real, whichever updates
land there. -/
private theorem deg_real (zeros : S100000.Idx → EReal) (hz : ∀ i, zeros i = 0) (idx : IVec S1600000x1 32)
    (ones : S1600000.Idx → EReal) (h1 : ∀ j, ones j = 1) (i : S100000.Idx) :
    ∃ r : ℝ, Host.scatterAdd (F := Ideal) (φ := .f32) scatter_S100000_S1600000x1_S1600000_n_0_0_1 zeros idx ones i
      = (r : EReal) := by
  have key : ∀ S : Finset S1600000.Idx, ∃ r : ℝ, zeros i + ∑ j ∈ S, ones j = (r : EReal) := by
    intro S
    refine ⟨∑ j ∈ S, (1 : ℝ), ?_⟩
    rw [hz, zero_add, ← coe_sum]
    exact Finset.sum_congr rfl (fun j _ => by rw [h1, EReal.coe_one])
  show ∃ r : ℝ, Ideal.hostScatterAdd scatter_S100000_S1600000x1_S1600000_n_0_0_1 zeros idx ones i = (r : EReal)
  exact key _

/-- One over the square root of a real floored at one, or zero, whichever a bit picks: a real. -/
private theorem norm_real (c : BitVec 1) (d : EReal) (hd : ∃ r : ℝ, d = (r : EReal)) :
    ∃ r : ℝ, Scalar.select c (Ideal.rsqrt (max d 1)) (0 : EReal) = (r : EReal) := by
  obtain ⟨r, rfl⟩ := hd
  by_cases hc : c = 1#1
  · rw [hc, select_one]
    have hm : max (r : EReal) 1 = ((max r 1 : ℝ) : EReal) := by
      rw [← EReal.coe_one]; exact (EReal.coe_strictMono.monotone.map_max).symm
    have hpos : (0 : ℝ) < max r 1 := lt_of_lt_of_le one_pos (le_max_right _ _)
    rw [hm, Ideal.rsqrt_coe, if_neg (not_lt.mpr hpos.le), if_neg hpos.ne']
    exact ⟨_, rfl⟩
  · rw [eq_zero_of_ne_one hc, select_zero]
    exact ⟨0, EReal.coe_zero.symm⟩

/-- A count of edges, floored at one and square-rooted away, or zero: a real number at every node. -/
theorem ns_real : Gcn.IsReal1 (Gcn.vec (nsArr x1)) := by
  intro n
  show ∃ r : ℝ, val_main_v9 (F := Ideal) x1 (ix1 n) = (r : EReal)
  have hd : ∃ r : ℝ, val_main_v3 (F := Ideal) x1 (ix1 n) = (r : EReal) :=
    deg_real (val_main_v1 (F := Ideal))
      (fun i => by rw [val_main_v1_apply, val_main_cst_0_apply]; exact Ideal.ofBits_zero_f32)
      (val_main_v2 (F := Ideal) x1) (val_main_v0 (F := Ideal))
      (fun j => by rw [val_main_v0_apply, val_main_cst_apply]; exact Ideal.ofBits_one_f32) (ix1 n)
  rw [val_main_v9_apply, val_main_v8_apply, val_main_v7_apply, val_main_v6_apply, val_main_cst_2_apply,
    val_main_call0_v1_apply, val_main_call0_v0_apply, val_main_cst_3_apply, Ideal.hostUnary_rsqrt_def,
    Ideal.maximumf_def, Ideal.ofBits_def, Ideal.ofBits_def, Ideal.ofBits_one_f32, Ideal.ofBits_zero_f32]
  exact norm_real _ _ hd

theorem nd_real : Gcn.IsReal1 (Gcn.vec (ndArr x2)) := by
  intro n
  show ∃ r : ℝ, val_main_v19 (F := Ideal) x2 (ix1 n) = (r : EReal)
  have hd : ∃ r : ℝ, val_main_v13 (F := Ideal) x2 (ix1 n) = (r : EReal) :=
    deg_real (val_main_v11 (F := Ideal))
      (fun i => by rw [val_main_v11_apply, val_main_cst_5_apply]; exact Ideal.ofBits_zero_f32)
      (val_main_v12 (F := Ideal) x2) (val_main_v10 (F := Ideal))
      (fun j => by rw [val_main_v10_apply, val_main_cst_4_apply]; exact Ideal.ofBits_one_f32) (ix1 n)
  rw [val_main_v19_apply, val_main_v18_apply, val_main_v17_apply, val_main_v16_apply, val_main_cst_7_apply,
    val_main_call1_v1_apply, val_main_call1_v0_apply, val_main_cst_8_apply, Ideal.hostUnary_rsqrt_def,
    Ideal.maximumf_def, Ideal.ofBits_def, Ideal.ofBits_def, Ideal.ofBits_one_f32, Ideal.ofBits_zero_f32]
  exact norm_real _ _ hd

/-- The first layer, entry by entry (the source words in range make the wrap of negative indices do nothing). -/
theorem layer1 (hge : ∀ e, IntOp.cmpi .sge (x1 e) 0#32 = 1#1) :
    Gcn.mat (h1Arr x0 x1 x2 x3 x4) = Gcn.relu (Gcn.layerR (Gcn.vec (nsArr x1)) (Gcn.vec (ndArr x2)) (Gcn.srcNode x1) (Gcn.dstInt x2)
      (Gcn.mat x3) (Gcn.vec x4) (Gcn.mat x0)) := by
  funext i j
  show Gcn.mat _ i j = max (Gcn.layerR _ _ _ _ _ _ _ i j) 0
  rw [← layer_entry x0 (nsArr x1) (ndArr x2) x1 x2 x3 x4 hge i j]
  show val_main_v40 (F := Ideal) x0 x1 x2 x3 x4 (ix2 i j) = _
  rw [val_main_v40_apply, val_main_v39_apply, val_main_v36_apply, val_main_v38_apply, val_main_v37_apply,
    val_main_call2_v0_apply, val_main_call2_cst_apply]
  have hl : ∀ k : Fin 128, lidx_main_v36 (ix2 i j) k = ix2 i k := fun k => funext fun a => by
    match a with | ⟨0, _⟩ => rfl | ⟨1, _⟩ => rfl
  have hr : ∀ k : Fin 128, ridx_main_v36 (ix2 i j) k = ix2 k j := fun k => funext fun a => by
    match a with | ⟨0, _⟩ => rfl | ⟨1, _⟩ => rfl
  have hb : idx_main_v37 (idx_main_v38 (ix2 i j)) = ix1 j := funext fun a => by
    match a with | ⟨0, _⟩ => rfl
  simp only [hl, hr, hb]
  -- the stage before the weights is the aggregation, spelled out
  have e35 : val_main_v35 (F := Ideal) x0 x1 x2 = agg x0 (nsArr x1) (ndArr x2) x1 x2 := rfl
  rw [e35]
  show max ((∑ k : Fin 128, agg x0 (nsArr x1) (ndArr x2) x1 x2 (ix2 i k) * x3 (ix2 k j)) + x4 (ix1 j))
    (Ideal.ofBits .f32 0x00000000#32) = _
  rw [Ideal.ofBits_zero_f32]

/-- The second layer. -/
theorem layer2 (hge : ∀ e, IntOp.cmpi .sge (x1 e) 0#32 = 1#1) :
    Gcn.mat (h2Arr x0 x1 x2 x3 x4 x5 x6) = Gcn.relu (Gcn.layerR (Gcn.vec (nsArr x1)) (Gcn.vec (ndArr x2)) (Gcn.srcNode x1) (Gcn.dstInt x2)
      (Gcn.mat x5) (Gcn.vec x6) (Gcn.mat (h1Arr x0 x1 x2 x3 x4))) := by
  funext i j
  show Gcn.mat _ i j = max (Gcn.layerR _ _ _ _ _ _ _ i j) 0
  rw [← layer_entry (h1Arr x0 x1 x2 x3 x4) (nsArr x1) (ndArr x2) x1 x2 x5 x6 hge i j]
  show val_main_v61 (F := Ideal) x0 x1 x2 x3 x4 x5 x6 (ix2 i j) = _
  rw [val_main_v61_apply, val_main_v60_apply, val_main_v57_apply, val_main_v59_apply, val_main_v58_apply,
    val_main_call3_v0_apply, val_main_call3_cst_apply]
  have hl : ∀ k : Fin 128, lidx_main_v57 (ix2 i j) k = ix2 i k := fun k => funext fun a => by
    match a with | ⟨0, _⟩ => rfl | ⟨1, _⟩ => rfl
  have hr : ∀ k : Fin 128, ridx_main_v57 (ix2 i j) k = ix2 k j := fun k => funext fun a => by
    match a with | ⟨0, _⟩ => rfl | ⟨1, _⟩ => rfl
  have hb : idx_main_v58 (idx_main_v59 (ix2 i j)) = ix1 j := funext fun a => by
    match a with | ⟨0, _⟩ => rfl
  simp only [hl, hr, hb]
  -- the stage before the weights is the aggregation of the first layer's features, spelled out
  have e56 : val_main_v56 (F := Ideal) x0 x1 x2 x3 x4 = agg (h1Arr x0 x1 x2 x3 x4) (nsArr x1) (ndArr x2) x1 x2 := rfl
  rw [e56]
  show max ((∑ k : Fin 128, agg (h1Arr x0 x1 x2 x3 x4) (nsArr x1) (ndArr x2) x1 x2 (ix2 i k) * x5 (ix2 k j)) + x6 (ix1 j))
    (Ideal.ofBits .f32 0x00000000#32) = _
  rw [Ideal.ofBits_zero_f32]

/-- The third layer (not rectified). -/
theorem layer3 (hge : ∀ e, IntOp.cmpi .sge (x1 e) 0#32 = 1#1) :
    Gcn.mat (outArr x0 x1 x2 x3 x4 x5 x6 x7 x8) = Gcn.layerR (Gcn.vec (nsArr x1)) (Gcn.vec (ndArr x2)) (Gcn.srcNode x1) (Gcn.dstInt x2)
      (Gcn.mat x7) (Gcn.vec x8) (Gcn.mat (h2Arr x0 x1 x2 x3 x4 x5 x6)) := by
  funext i j
  show Gcn.mat _ i j = Gcn.layerR _ _ _ _ _ _ _ i j
  rw [← layer_entry (h2Arr x0 x1 x2 x3 x4 x5 x6) (nsArr x1) (ndArr x2) x1 x2 x7 x8 hge i j]
  show val_main_v81 (F := Ideal) x0 x1 x2 x3 x4 x5 x6 x7 x8 (ix2 i j) = _
  rw [val_main_v81_apply, val_main_v78_apply, val_main_v80_apply, val_main_v79_apply]
  have hl : ∀ k : Fin 128, lidx_main_v78 (ix2 i j) k = ix2 i k := fun k => funext fun a => by
    match a with | ⟨0, _⟩ => rfl | ⟨1, _⟩ => rfl
  have hr : ∀ k : Fin 128, ridx_main_v78 (ix2 i j) k = ix2 k j := fun k => funext fun a => by
    match a with | ⟨0, _⟩ => rfl | ⟨1, _⟩ => rfl
  have hb : idx_main_v79 (idx_main_v80 (ix2 i j)) = ix1 j := funext fun a => by
    match a with | ⟨0, _⟩ => rfl
  simp only [hl, hr, hb]
  -- the stage before the weights is the aggregation of the second layer's features, spelled out
  have e77 : val_main_v77 (F := Ideal) x0 x1 x2 x3 x4 x5 x6
      = agg (h2Arr x0 x1 x2 x3 x4 x5 x6) (nsArr x1) (ndArr x2) x1 x2 := rfl
  rw [e77]
  rfl

/-- The reference's result is the three layers, the weights applied after the edges are followed. -/
theorem value (hge : ∀ e, IntOp.cmpi .sge (x1 e) 0#32 = 1#1) :
    Gcn.mat (outArr x0 x1 x2 x3 x4 x5 x6 x7 x8) = Gcn.gcnR (Gcn.vec (nsArr x1)) (Gcn.vec (ndArr x2)) (Gcn.srcNode x1) (Gcn.dstInt x2)
      (Gcn.mat x3) (Gcn.vec x4) (Gcn.mat x5) (Gcn.vec x6) (Gcn.mat x7) (Gcn.vec x8) (Gcn.mat x0) := by
  rw [layer3 x0 x1 x2 x3 x4 x5 x6 x7 x8 hge, layer2 x0 x1 x2 x3 x4 x5 x6 hge, layer1 x0 x1 x2 x3 x4 hge]
  rfl

end Cert.ReferenceIdeal.Val

end
-- ==== Proof.NormEq.lean ====
/-
  THE NORM VECTORS ARE ONE FUNCTION OF THE INDEX WORDS IN BOTH PROGRAMS. Each program counts, per node, the edges whose
  index word names it (a scatter-add of ones into zeros), and sends a positive count `d` to `1 / √(max d 1)` and a zero
  count to zero. The two programs spell the same ten operations; only the names of their shape facts differ.
-/
import proofs.«421580_j45810121179684_1_alg».proof.Proof.KDefs
import proofs.«421580_j45810121179684_1_alg».proof.Proof.RefValue
import proofs.«421580_j45810121179684_1_alg».proof.Proof.LibTRef

set_option maxRecDepth 16384

noncomputable section

/-! ## The norm as a function of the index words, and the kernel program's two norm vectors -/

namespace Cert.Proof.Alg.NormK

open Idealize.ShloMosaic Idealize.ShloMosaic.TcCoe Idealize.SL.Sem
open Cert.KernelIdeal Cert.KernelIdeal.Gen

/-- The count of the edges whose word names each node: ones added into zeros at the words. -/
def degK (x : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 x)
    (broadcastInDim S1600000 ![] bcast_S_S1600000 (constant (F := Ideal) S_ .f32 0x3F800000#32))

/-- The norm: a positive count `d` to `1 / √(max d 1)`, a zero count to zero. -/
def normK (x : (⟨S1600000, .i32⟩ : BufTy).Contents (Elt Ideal)) : (⟨S100000, .f32⟩ : BufTy).Contents (Elt Ideal) :=
  select (cmpf (F := Ideal) .ogt (degK x) (broadcastInDim S100000 ![] bcast_S_S100000 (constant (F := Ideal) S_ .f32 0x00000000#32)))
    (Host.rsqrt (maximumf (degK x) (broadcastInDim S100000 ![] bcast_S_S100000 (constant (F := Ideal) S_ .f32 0x3F800000#32))))
    (broadcastInDim S100000 ![] bcast_S_S100000 (id (constant (F := Ideal) S_ .f32 0x00000000#32)))

/-! A typed reference whose type is the value's by computation carries contents unchanged. -/
private theorem ofBuf_main_v5 (X : (main_v5 : Ref sig .tc).ty.Contents (Elt Ideal)) :
    (StableHlo.TRef.of (sig := sig) (T := ⟨S100000, .i1⟩) main_v5).ofBuf X = X := rfl
private theorem ofBuf_main_v8 (X : (main_v8 : Ref sig .tc).ty.Contents (Elt Ideal)) :
    (StableHlo.TRef.of (sig := sig) (T := ⟨S100000, .f32⟩) main_v8).ofBuf X = X := rfl
private theorem ofBuf_main_cst_3 (X : (main_cst_3 : Ref sig .tc).ty.Contents (Elt Ideal)) :
    (StableHlo.TRef.of (sig := sig) (T := ⟨S_, .f32⟩) main_cst_3).ofBuf X = X := rfl
private theorem toBuf_main_v9 (X : (⟨S100000, .f32⟩ : BufTy).Contents (Elt Ideal)) :
    (StableHlo.TRef.of (sig := sig) (T := ⟨S100000, .f32⟩) main_v9).toBuf X = X := rfl
private theorem ofBuf_main_v15 (X : (main_v15 : Ref sig .tc).ty.Contents (Elt Ideal)) :
    (StableHlo.TRef.of (sig := sig) (T := ⟨S100000, .i1⟩) main_v15).ofBuf X = X := rfl
private theorem ofBuf_main_v18 (X : (main_v18 : Ref sig .tc).ty.Contents (Elt Ideal)) :
    (StableHlo.TRef.of (sig := sig) (T := ⟨S100000, .f32⟩) main_v18).ofBuf X = X := rfl
private theorem ofBuf_main_cst_8 (X : (main_cst_8 : Ref sig .tc).ty.Contents (Elt Ideal)) :
    (StableHlo.TRef.of (sig := sig) (T := ⟨S_, .f32⟩) main_cst_8).ofBuf X = X := rfl
private theorem toBuf_main_v19 (X : (⟨S100000, .f32⟩ : BufTy).Contents (Elt Ideal)) :
    (StableHlo.TRef.of (sig := sig) (T := ⟨S100000, .f32⟩) main_v19).toBuf X = X := rfl

variable (m : (ℓ : Loc nD τ sig) → Buf (Elt Ideal) ℓ) (ρ : Dev nD → PrngReg)

/-- The launch memory read at the source words' and at the destination words' buffer. -/
theorem W0_arg1 (c : Dev nD) : W0 (F := Ideal) m ρ c (Proc.devRef .tc main_arg1) = Val.A1 m c := rfl
theorem W0_arg2 (c : Dev nD) : W0 (F := Ideal) m ρ c (Proc.devRef .tc main_arg2) = Val.A2 m c := rfl

set_option maxHeartbeats 4000000 in
/-- The source norms the first transform region finds are the norm of the launch memory's source words: the host
    operations before the region, taken in order, each result read where the next operation reads it. -/
theorem nsArr_eq0 (c : Dev nD) : Val.nsArr m ρ c = normK (W0 (F := Ideal) m ρ c (Proc.devRef .tc main_arg1)) := by
  show StableHlo.after hostOps0_3 (StableHlo.after hostOps0_2 (StableHlo.after hostOps0_1 (StableHlo.after hostOps0 (W0 m ρ c)))) (Proc.devRef .tc main_v9) = _
  after_results_simp
  simp only [StableHlo.TRef.ofBuf_toBuf, toBuf_main_v9, ofBuf_main_v5, ofBuf_main_v8, ofBuf_main_cst_3, normK, degK]

set_option maxHeartbeats 4000000 in
/-- The destination norms likewise, of the destination words. -/
theorem ndArr_eq0 (c : Dev nD) : Val.ndArr m ρ c = normK (W0 (F := Ideal) m ρ c (Proc.devRef .tc main_arg2)) := by
  show StableHlo.after hostOps0_3 (StableHlo.after hostOps0_2 (StableHlo.after hostOps0_1 (StableHlo.after hostOps0 (W0 m ρ c)))) (Proc.devRef .tc main_v19) = _
  after_results_simp
  simp only [StableHlo.TRef.ofBuf_toBuf, toBuf_main_v19, ofBuf_main_v15, ofBuf_main_v18, ofBuf_main_cst_8, normK, degK]

theorem nsArr_eq (c : Dev nD) : Val.nsArr m ρ c = normK (Val.A1 m c) :=
  (nsArr_eq0 m ρ c).trans (congrArg normK (W0_arg1 m ρ c))
theorem ndArr_eq (c : Dev nD) : Val.ndArr m ρ c = normK (Val.A2 m c) :=
  (ndArr_eq0 m ρ c).trans (congrArg normK (W0_arg2 m ρ c))

end Cert.Proof.Alg.NormK

/-! ## The reference's two norm vectors are the same function -/

namespace Cert.Proof.Alg.NormR

open Cert.ReferenceIdeal Cert.ReferenceIdeal.Gen Idealize.ShloMosaic

/-- The two programs' scatter records are the same four literals. -/
theorem scatter_eq :
    scatter_S100000_S1600000x1_S1600000_n_0_0_1 = Cert.KernelIdeal.scatter_S100000_S1600000x1_S1600000_n_0_0_1 := rfl

/-- The reference's source norms, its ten stages spelled out, are the norm of the source words: the shapes are the same
    literals, the records equal, the shape facts proofs. -/
theorem v9_eq (x : (⟨S1600000, .i32⟩ : BufTy).Contents (Elt Ideal)) :
    ReadP.val_main_v9 (F := Ideal) x = NormK.normK x := by
  simp only [ReadP.val_main_v9, ReadP.val_main_v8, ReadP.val_main_v7, ReadP.val_main_v6, ReadP.val_main_v5,
    ReadP.val_main_v4, ReadP.val_main_v3, ReadP.val_main_v2, ReadP.val_main_v1, ReadP.val_main_v0,
    ReadP.val_main_cst, ReadP.val_main_cst_0, ReadP.val_main_cst_1, ReadP.val_main_cst_2, ReadP.val_main_cst_3,
    ReadP.val_main_call0_v0, ReadP.val_main_call0_v1, NormK.normK, NormK.degK, scatter_eq]

/-- The reference's destination norms likewise. -/
theorem v19_eq (x : (⟨S1600000, .i32⟩ : BufTy).Contents (Elt Ideal)) :
    ReadP.val_main_v19 (F := Ideal) x = NormK.normK x := by
  simp only [ReadP.val_main_v19, ReadP.val_main_v18, ReadP.val_main_v17, ReadP.val_main_v16, ReadP.val_main_v15,
    ReadP.val_main_v14, ReadP.val_main_v13, ReadP.val_main_v12, ReadP.val_main_v11, ReadP.val_main_v10,
    ReadP.val_main_cst_4, ReadP.val_main_cst_5, ReadP.val_main_cst_6, ReadP.val_main_cst_7, ReadP.val_main_cst_8,
    ReadP.val_main_call1_v0, ReadP.val_main_call1_v1, NormK.normK, NormK.degK, scatter_eq]

end Cert.Proof.Alg.NormR

namespace Cert.Proof.Alg

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The source norms: the same ten operations of the source words in both programs. -/
theorem ns_eq (c : Dev nD) :
    Cert.KernelIdeal.Val.nsArr m ρ c = Cert.ReferenceIdeal.Val.nsArr (Cert.KernelIdeal.Val.A1 m c) :=
  (NormK.nsArr_eq m ρ c).trans (NormR.v9_eq (Cert.KernelIdeal.Val.A1 m c)).symm

/-- The destination norms: the same ten operations of the destination words in both programs. -/
theorem nd_eq (c : Dev nD) :
    Cert.KernelIdeal.Val.ndArr m ρ c = Cert.ReferenceIdeal.Val.ndArr (Cert.KernelIdeal.Val.A2 m c) :=
  (NormK.ndArr_eq m ρ c).trans (NormR.v19_eq (Cert.KernelIdeal.Val.A2 m c)).symm

end Cert.Proof.Alg

end
-- ==== Proof.Assembly.lean ====
/-
  THE TWO PROGRAMS END WITH THE SAME RESULT. Run from memories that agree on the arguments, the kernel program ends with
  three layers computed "weights first" and the reference with the same three layers computed "edges first"; the two
  programs compute the same norm vectors from the same source and destination words; and on real data (which the
  precondition gives, and which the norms and every layer preserve) the two orders agree.
-/
import proofs.«421580_j45810121179684_1_alg».proof.Defs
import proofs.«421580_j45810121179684_1_alg».proof.Proof.KRun
import proofs.«421580_j45810121179684_1_alg».proof.Proof.KValue
import proofs.«421580_j45810121179684_1_alg».proof.Proof.RefValue
import proofs.«421580_j45810121179684_1_alg».proof.Proof.NormEq

set_option maxRecDepth 16384

noncomputable section

namespace Cert.Proof.Alg

open Idealize.ShloMosaic Idealize.ShloMosaic.TcCoe Idealize.ShloMosaic.ValueIdx Idealize.SL.Sem

/-! ## The results agree -/

section Result

open Cert.KernelIdeal.Val

variable (m : (ℓ : Loc Cert.KernelIdeal.nD Cert.KernelIdeal.τ Cert.KernelIdeal.sig) → Buf (Elt Ideal) ℓ)
  (ρ : Dev Cert.KernelIdeal.nD → PrngReg)

/-- Under the precondition the kernel program's result array is the reference's result stage of the same arguments. -/
theorem result_eq (c : Dev Cert.KernelIdeal.nD) (hG : Good m c) :
    Cert.ReferenceIdeal.Val.outArr (A0 m c) (A1 m c) (A2 m c) (A3 m c) (A4 m c) (A5 m c) (A6 m c) (A7 m c) (A8 m c) = outArr m ρ c := by
  have hK := Cert.KernelIdeal.Val.value m ρ c hG
  have hR := Cert.ReferenceIdeal.Val.value (A0 m c) (A1 m c) (A2 m c) (A3 m c) (A4 m c) (A5 m c) (A6 m c) (A7 m c) (A8 m c) hG.src_ge
  rw [ns_eq m ρ c, nd_eq m ρ c] at hK
  have hlaw := Gcn.gcnK_eq_gcnR (s := Gcn.srcNode (A1 m c)) (dst := Gcn.dstInt (A2 m c))
    (Cert.ReferenceIdeal.Val.ns_real (A1 m c)) (Cert.ReferenceIdeal.Val.nd_real (A2 m c))
    (Gcn.mat_real hG.real3) (Gcn.vec_real hG.real4) (Gcn.mat_real hG.real5) (Gcn.vec_real hG.real6)
    (Gcn.mat_real hG.real7) (Gcn.vec_real hG.real8) (Gcn.mat_real hG.real0)
  have hmat := hR.trans (hlaw.symm.trans hK.symm)
  funext idx
  rw [eq_ix2 idx]
  exact congrFun (congrFun hmat (idx 0)) (idx 1)

end Result

/-! ## The claim -/

/-- Both programs run and end with equal results: the kernel program's run names its result as the last boundary's
    contents; the reference's run names its result as its last stage; the two are one array. -/
theorem algebraic : Cert.algebraic_KernelIdeal_ReferenceIdeal := by
  intro m ρ m' ρ' hpre hagree
  refine ⟨fun c => Cert.KernelIdeal.Gen.W16 (F := Ideal) m ρ c (Proc.devRef .tc Cert.KernelIdeal.main_v73),
    Cert.KernelIdeal.RunNamed.run_named (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5, e6, e7, e8⟩ := hagree c
  rw [Cert.ReferenceIdeal.ReadP.val_main_v81_eq, e0, e1, e2, e3, e4, e5, e6, e7, e8]
  exact result_eq m ρ c (Cert.PreFacts.good_of_pre _ _ _ _ _ _ _ _ _ (hpre c))

end Cert.Proof.Alg

end
-- ==== Proof.lean ====
/-
  A THREE-LAYER GRAPH CONVOLUTION, computed two ways, is one function of its inputs.

  The graph has 100000 nodes and 1600000 edges, given by a source word and a destination word per edge. Both programs
  first turn the out-degree and the in-degree of every node into norms (a positive degree `d` to `1 / √d`, degree zero to
  zero). One layer then sends the node features `h` to

      nd i · Σ_{edges e into i} ns (src e) · h (src e) · W  +  b,

  rectified in the first two layers. The reference scales `h` by `ns`, follows the edges, sums at the destinations,
  scales by `nd`, and multiplies by `W` last. The kernel program multiplies by `W` FIRST (a blocked matrix product, 2000
  rows at a time), then follows the edges, scales, sums, and finishes with a second blocked pass that scales by `nd`, adds
  `b` and rectifies. Moving the product with `W` across the two sums and the two scalings is distributivity and the
  exchange of finite sums, valid on the extended reals once every number involved is a real: the precondition makes
  every float input finite, the norms are real by construction, and each layer of real data is real.

  The kernel program reads a row of its product through a FILLED take (a row whose index is out of range reads as a
  fill value), the reference through a clamped one, so the two agree only where every source index names a node: the
  precondition says so (`0 ≤ src < 100000`), and then the fill is never chosen and the clamp does nothing. The
  destination words need no such condition: both programs drop an edge whose destination names no node, in the same
  scatter-add.

  The frames of the two kernel programs are the generated ones; the reference's frame is its run with the result
  dropped; the idealization rewrote nothing, so there is nothing to preserve.
-/
import proofs.«421580_j45810121179684_1_alg».proof.Defs
import proofs.«421580_j45810121179684_1_alg».proof.Proof.Gen.Kernel
import proofs.«421580_j45810121179684_1_alg».proof.Proof.Gen.Kernel.Frame
import proofs.«421580_j45810121179684_1_alg».proof.Proof.Gen.KernelIdeal
import proofs.«421580_j45810121179684_1_alg».proof.Proof.Gen.KernelIdeal.Frame
import proofs.«421580_j45810121179684_1_alg».proof.Proof.Gen.ReferenceIdeal
import proofs.«421580_j45810121179684_1_alg».proof.Proof.Gen.Pre_finite_inputs
import proofs.«421580_j45810121179684_1_alg».proof.Proof.RefRun
import proofs.«421580_j45810121179684_1_alg».proof.Proof.Assembly

noncomputable section

namespace Cert.Proof

open Idealize.ShloMosaic Idealize.SL.Sem

/-- The kernel program as printed terminates without a fault and leaves its arguments as launched. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_p, frame_pi, frame_ri, preserves, Cert.Proof.Alg.algebraic⟩

end Cert.Proof

end
